-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v82)) (v1 : (c : Dev Cert.KernelIdeal.nD) → Buf (Elt Ideal) ((c.tc : Thread Cert.KernelIdeal.nD Cert.KernelIdeal.τ).loc Cert.KernelIdeal.main_v142)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_v142) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v144) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S128x256 : Shape := ⟨2, ![128, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg8 : FVec F S128x256 .f32) (main_arg9 : FVec F S256 .f32) (main_v33 : IVec S_ 1) : IVec S_ 1 :=
  let main_v34 : FVec F S128x256 .f32 := Host.absf main_arg8
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg5 : FVec F S64 .f32) (main_arg6 : FVec F S64x128 .f32) (main_arg7 : FVec F S128 .f32) (main_arg8 : FVec F S128x256 .f32) (main_arg9 : FVec F S256 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x256 .f32) (main_arg1 : IVec S2x800000 32) (main_arg2 : FVec F S256x128 .f32) (main_arg3 : FVec F S128 .f32) (main_arg4 : FVec F S128x64 .f32) (main_arg5 : FVec F S64 .f32) (main_arg6 : FVec F S64x128 .f32) (main_arg7 : FVec F S128 .f32) (main_arg8 : FVec F S128x256 .f32) (main_arg9 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_arg8 main_arg9 main_v13 main_v16
-- ==== Kernel.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S128x256 : Shape := ⟨2, ![128, 256]⟩
abbrev S256 : Shape := ⟨1, ![256]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x128 : Shape := ⟨2, ![1, 128]⟩
abbrev S1x64 : Shape := ⟨2, ![1, 64]⟩
abbrev S1x256 : Shape := ⟨2, ![1, 256]⟩
abbrev S50000x128 : Shape := ⟨2, ![50000, 128]⟩
abbrev S2000x256 : Shape := ⟨2, ![2000, 256]⟩
abbrev S2000x128 : Shape := ⟨2, ![2000, 128]⟩
abbrev S850000x128 : Shape := ⟨2, ![850000, 128]⟩
abbrev S50000x64 : Shape := ⟨2, ![50000, 64]⟩
abbrev S2000x64 : Shape := ⟨2, ![2000, 64]⟩
abbrev S850000x64 : Shape := ⟨2, ![850000, 64]⟩
abbrev S850000x256 : Shape := ⟨2, ![850000, 256]⟩

abbrev nBuf : Space → Nat
  | .hbm => 187
  | .vmem => 40
  | .smem => 0
  | _ => 0

abbrev hbmTy0_0 (i : Nat) : BufTy := match i % 128 with
  | 0 => ⟨S50000x256, .f32⟩
  | 1 => ⟨S2x800000, .i32⟩
  | 2 => ⟨S256x128, .f32⟩
  | 3 => ⟨S128, .f32⟩
  | 4 => ⟨S128x64, .f32⟩
  | 5 => ⟨S64, .f32⟩
  | 6 => ⟨S64x128, .f32⟩
  | 7 => ⟨S128, .f32⟩
  | 8 => ⟨S128x256, .f32⟩
  | 9 => ⟨S256, .f32⟩
  | 10 => ⟨S50000, .i32⟩
  | 11 => ⟨S1x800000, .i32⟩
  | 12 => ⟨S800000, .i32⟩
  | 13 => ⟨S850000, .i32⟩
  | 14 => ⟨S1x800000, .i32⟩
  | 15 => ⟨S800000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S_, .f32⟩
  | 29 => ⟨S50000, .f32⟩
  | 30 => ⟨S50000, .f32⟩
  | 31 => ⟨S256x128, .bf16⟩
  | 32 => ⟨S128x64, .bf16⟩
  | 33 => ⟨S64x128, .bf16⟩
  | 34 => ⟨S128x256, .bf16⟩
  | 35 => ⟨S1x128, .f32⟩
  | 36 => ⟨S1x64, .f32⟩
  | 37 => ⟨S1x128, .f32⟩
  | 38 => ⟨S1x256, .f32⟩
  | 39 => ⟨S50000x128, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000, .f32⟩
  | 58 => ⟨S850000, .f32⟩
  | 59 => ⟨S_, .i32⟩
  | 60 => ⟨S850000, .i32⟩
  | 61 => ⟨S850000, .i1⟩
  | 62 => ⟨S_, .i32⟩
  | 63 => ⟨S850000, .i32⟩
  | 64 => ⟨S850000, .i32⟩
  | 65 => ⟨S850000, .i32⟩
  | 66 => ⟨S850000x1, .i32⟩
  | 67 => ⟨S850000x128, .f32⟩
  | 68 => ⟨S850000x1, .f32⟩
  | 69 => ⟨S850000x128, .f32⟩
  | 70 => ⟨S850000x128, .f32⟩
  | 71 => ⟨S_, .f32⟩
  | 72 => ⟨S50000x128, .f32⟩
  | 73 => ⟨S850000x1, .i32⟩
  | 74 => ⟨S50000x128, .f32⟩
  | 75 => ⟨S50000x128, .f32⟩
  | 76 => ⟨S50000x64, .f32⟩
  | 77 => ⟨S_, .i32⟩
  | 78 => ⟨S850000, .i32⟩
  | 79 => ⟨S850000, .i1⟩
  | 80 => ⟨S_, .i32⟩
  | 81 => ⟨S850000, .i32⟩
  | 82 => ⟨S850000, .i32⟩
  | 83 => ⟨S850000, .i32⟩
  | 84 => ⟨S850000x1, .i32⟩
  | 85 => ⟨S850000, .f32⟩
  | 86 => ⟨S_, .i32⟩
  | 87 => ⟨S850000, .i32⟩
  | 88 => ⟨S850000, .i1⟩
  | 89 => ⟨S_, .i32⟩
  | 90 => ⟨S850000, .i32⟩
  | 91 => ⟨S850000, .i32⟩
  | 92 => ⟨S850000, .i32⟩
  | 93 => ⟨S850000x1, .i32⟩
  | 94 => ⟨S850000, .f32⟩
  | 95 => ⟨S850000, .f32⟩
  | 96 => ⟨S_, .i32⟩
  | 97 => ⟨S850000, .i32⟩
  | 98 => ⟨S850000, .i1⟩
  | 99 => ⟨S_, .i32⟩
  | 100 => ⟨S850000, .i32⟩
  | 101 => ⟨S850000, .i32⟩
  | 102 => ⟨S850000, .i32⟩
  | 103 => ⟨S850000x1, .i32⟩
  | 104 => ⟨S850000x64, .f32⟩
  | 105 => ⟨S850000x1, .f32⟩
  | 106 => ⟨S850000x64, .f32⟩
  | 107 => ⟨S850000x64, .f32⟩
  | 108 => ⟨S_, .f32⟩
  | 109 => ⟨S50000x64, .f32⟩
  | 110 => ⟨S850000x1, .i32⟩
  | 111 => ⟨S50000x64, .f32⟩
  | 112 => ⟨S50000x64, .f32⟩
  | 113 => ⟨S50000x128, .f32⟩
  | 114 => ⟨S_, .i32⟩
  | 115 => ⟨S850000, .i32⟩
  | 116 => ⟨S850000, .i1⟩
  | 117 => ⟨S_, .i32⟩
  | 118 => ⟨S850000, .i32⟩
  | 119 => ⟨S850000, .i32⟩
  | 120 => ⟨S850000, .i32⟩
  | 121 => ⟨S850000x1, .i32⟩
  | 122 => ⟨S850000, .f32⟩
  | 123 => ⟨S_, .i32⟩
  | 124 => ⟨S850000, .i32⟩
  | 125 => ⟨S850000, .i1⟩
  | 126 => ⟨S_, .i32⟩
  | 127 => ⟨S850000, .i32⟩
  | _ => ⟨S50000x256, .f32⟩

abbrev hbmTy0_1 (i : Nat) : BufTy := match i % 128 with
  | 0 => ⟨S850000, .i32⟩
  | 1 => ⟨S850000, .i32⟩
  | 2 => ⟨S850000x1, .i32⟩
  | 3 => ⟨S850000, .f32⟩
  | 4 => ⟨S850000, .f32⟩
  | 5 => ⟨S_, .i32⟩
  | 6 => ⟨S850000, .i32⟩
  | 7 => ⟨S850000, .i1⟩
  | 8 => ⟨S_, .i32⟩
  | 9 => ⟨S850000, .i32⟩
  | 10 => ⟨S850000, .i32⟩
  | 11 => ⟨S850000, .i32⟩
  | 12 => ⟨S850000x1, .i32⟩
  | 13 => ⟨S850000x128, .f32⟩
  | 14 => ⟨S850000x1, .f32⟩
  | 15 => ⟨S850000x128, .f32⟩
  | 16 => ⟨S850000x128, .f32⟩
  | 17 => ⟨S_, .f32⟩
  | 18 => ⟨S50000x128, .f32⟩
  | 19 => ⟨S850000x1, .i32⟩
  | 20 => ⟨S50000x128, .f32⟩
  | 21 => ⟨S50000x128, .f32⟩
  | 22 => ⟨S50000x256, .f32⟩
  | 23 => ⟨S_, .i32⟩
  | 24 => ⟨S850000, .i32⟩
  | 25 => ⟨S850000, .i1⟩
  | 26 => ⟨S_, .i32⟩
  | 27 => ⟨S850000, .i32⟩
  | 28 => ⟨S850000, .i32⟩
  | 29 => ⟨S850000, .i32⟩
  | 30 => ⟨S850000x1, .i32⟩
  | 31 => ⟨S850000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000x256, .f32⟩
  | 51 => ⟨S850000x1, .f32⟩
  | 52 => ⟨S850000x256, .f32⟩
  | 53 => ⟨S850000x256, .f32⟩
  | 54 => ⟨S_, .f32⟩
  | 55 => ⟨S50000x256, .f32⟩
  | 56 => ⟨S850000x1, .i32⟩
  | 57 => ⟨S50000x256, .f32⟩
  | 58 => ⟨S50000x256, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S256x128, .bf16⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x64, .bf16⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S1x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S64x128, .bf16⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S128x256, .bf16⟩
  | .local _ .vmem, ⟨33, _⟩ => ⟨S2000x256, .f32⟩
  | .local _ .vmem, ⟨34, _⟩ => ⟨S2000x256, .f32⟩
  | .local _ .vmem, ⟨35, _⟩ => ⟨S2000x256, .f32⟩
  | .local _ .vmem, ⟨36, _⟩ => ⟨S2000x256, .f32⟩
  | .local _ .vmem, ⟨37, _⟩ => ⟨S1x256, .f32⟩
  | .local _ .vmem, ⟨38, _⟩ => ⟨S2000x256, .f32⟩
  | .local _ .vmem, ⟨39, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c : Ref sig .tc := ⟨.hbm, 40, rfl⟩
abbrev main_v24 : Ref sig .tc := ⟨.hbm, 41, rfl⟩
abbrev main_v25 : Ref sig .tc := ⟨.hbm, 42, rfl⟩
abbrev main_c_3 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_4 : Ref sig .tc := ⟨.hbm, 49, rfl⟩
abbrev main_v31 : Ref sig .tc := ⟨.hbm, 50, rfl⟩
abbrev main_v32 : Ref sig .tc := ⟨.hbm, 51, rfl⟩
abbrev main_c_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c_6 : Ref sig .tc := ⟨.hbm, 59, rfl⟩
abbrev main_v39 : Ref sig .tc := ⟨.hbm, 60, rfl⟩
abbrev main_v40 : Ref sig .tc := ⟨.hbm, 61, rfl⟩
abbrev main_c_7 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_8 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_9 : Ref sig .tc := ⟨.hbm, 77, rfl⟩
abbrev main_v54 : Ref sig .tc := ⟨.hbm, 78, rfl⟩
abbrev main_v55 : Ref sig .tc := ⟨.hbm, 79, rfl⟩
abbrev main_c_10 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_11 : Ref sig .tc := ⟨.hbm, 86, rfl⟩
abbrev main_v61 : Ref sig .tc := ⟨.hbm, 87, rfl⟩
abbrev main_v62 : Ref sig .tc := ⟨.hbm, 88, rfl⟩
abbrev main_c_12 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_c_13 : Ref sig .tc := ⟨.hbm, 96, rfl⟩
abbrev main_v69 : Ref sig .tc := ⟨.hbm, 97, rfl⟩
abbrev main_v70 : Ref sig .tc := ⟨.hbm, 98, rfl⟩
abbrev main_c_14 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_15 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_c_16 : Ref sig .tc := ⟨.hbm, 114, rfl⟩
abbrev main_v84 : Ref sig .tc := ⟨.hbm, 115, rfl⟩
abbrev main_v85 : Ref sig .tc := ⟨.hbm, 116, rfl⟩
abbrev main_c_17 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_c_18 : Ref sig .tc := ⟨.hbm, 123, rfl⟩
abbrev main_v91 : Ref sig .tc := ⟨.hbm, 124, rfl⟩
abbrev main_v92 : Ref sig .tc := ⟨.hbm, 125, rfl⟩
abbrev main_c_19 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_c_20 : Ref sig .tc := ⟨.hbm, 133, rfl⟩
abbrev main_v99 : Ref sig .tc := ⟨.hbm, 134, rfl⟩
abbrev main_v100 : Ref sig .tc := ⟨.hbm, 135, rfl⟩
abbrev main_c_21 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_cst_22 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_c_23 : Ref sig .tc := ⟨.hbm, 151, rfl⟩
abbrev main_v114 : Ref sig .tc := ⟨.hbm, 152, rfl⟩
abbrev main_v115 : Ref sig .tc := ⟨.hbm, 153, rfl⟩
abbrev main_c_24 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_c_25 : Ref sig .tc := ⟨.hbm, 160, rfl⟩
abbrev main_v121 : Ref sig .tc := ⟨.hbm, 161, rfl⟩
abbrev main_v122 : Ref sig .tc := ⟨.hbm, 162, rfl⟩
abbrev main_c_26 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_c_27 : Ref sig .tc := ⟨.hbm, 170, rfl⟩
abbrev main_v129 : Ref sig .tc := ⟨.hbm, 171, rfl⟩
abbrev main_v130 : Ref sig .tc := ⟨.hbm, 172, rfl⟩
abbrev main_c_28 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_cst_29 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x256 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x256 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x256 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S2000x256 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bitsLt_bf16_f32 : FTy.bits .bf16 < FTy.bits .f32
  shapeCasts_S128_S1x128 : S128.ShapeCasts S1x128
  shapeCasts_S64_S1x64 : S64.ShapeCasts S1x64
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S2000x128_S2000x128_0_0 : ∀ a, (![0, 0] : Fin 2 → Nat) a + S2000x128.size a ≤ S2000x128.size a
  h_S2000x128 : 0 < S2000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S2000x64_S2000x64_0_0 : ∀ a, (![0, 0] : Fin 2 → Nat) a + S2000x64.size a ≤ S2000x64.size a
  h_S2000x64 : 0 < S2000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  scatter_S50000_S850000x1_S850000_n_0_0_1_wf : ScatterDims.WF S50000 S850000x1 S850000 [] [0] [0] 1
  dot_S2000x256_S256x128_S2000x128_1_0_0_1_n_n_wf : DotDims.WF S2000x256 S256x128 S2000x128 [1] [0] [0] [1] [] []
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x64_S2000x64_1_0_0_1_n_n_wf : DotDims.WF S2000x128 S128x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S2000x64_S64x128_S2000x128_1_0_0_1_n_n_wf : DotDims.WF S2000x64 S64x128 S2000x128 [1] [0] [0] [1] [] []
  dot_S2000x128_S128x256_S2000x256_1_0_0_1_n_n_wf : DotDims.WF S2000x128 S128x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .bf16 = 32 ∨ (Rect.block (s := S256x128) S256x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .bf16 = 32 ∨ (Rect.block (s := S128x64) S128x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S50000x64.size a
  hwx3_2 : ∀ i : grid3.Coords, EltTy.bits .f32 = 32 ∨ (Rect.block (s := S50000x64) S2000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S50000x64.size a
  hwx4_0 : ∀ i : grid4.Coords, EltTy.bits .f32 = 32 ∨ (Rect.block (s := S50000x64) S2000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x128.size a ≤ S64x128.size a
  hwx4_1 : ∀ i : grid4.Coords, EltTy.bits .bf16 = 32 ∨ (Rect.block (s := S64x128) S64x128.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S50000x128.size a
  hwx4_2 : ∀ i : grid4.Coords, EltTy.bits .f32 = 32 ∨ (Rect.block (s := S50000x128) S2000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x128.size a ≤ S50000x128.size a
  hwx5_2 : ∀ i : grid5.Coords, EltTy.bits .f32 = 32 ∨ (Rect.block (s := S50000x128) S2000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x256.size a ≤ S128x256.size a
  hwx6_1 : ∀ i : grid6.Coords, EltTy.bits .bf16 = 32 ∨ (Rect.block (s := S128x256) S128x256.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x256.size a ≤ S50000x256.size a
  hwx6_2 : ∀ i : grid6.Coords, EltTy.bits .f32 = 32 ∨ (Rect.block (s := S50000x256) S2000x256.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x256.size a ≤ S50000x256.size a
  hwx7_0 : ∀ i : grid7.Coords, EltTy.bits .f32 = 32 ∨ (Rect.block (s := S50000x256) S2000x256.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x256.size a ≤ S1x256.size a
  hwx7_1 : ∀ i : grid7.Coords, EltTy.bits .f32 = 32 ∨ (Rect.block (s := S1x256) S1x256.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x256.size a ≤ S50000x256.size a
  hwx7_2 : ∀ i : grid7.Coords, EltTy.bits .f32 = 32 ∨ (Rect.block (s := S50000x256) S2000x256.size (cc7_transform_2 i) (hinb7_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v51) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v52) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v81) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v20) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v82) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v82) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v17) S64x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v83) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v111) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v21) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v112) S2000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v112) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v18) S128x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v113) S2000x256.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v141) S2000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v22) S1x256.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v142) S2000x256.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S128x256 : Shape := ⟨2, ![128, 256]⟩
abbrev S256 : Shape := ⟨1, ![256]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩
abbrev S850000x256 : Shape := ⟨2, ![850000, 256]⟩
abbrev S1x256 : Shape := ⟨2, ![1, 256]⟩

abbrev nBuf : Space → Nat
  | .hbm => 217
  | .vmem => 0
  | .smem => 0
  | _ => 0

abbrev hbmTy0_0 (i : Nat) : BufTy := match i % 128 with
  | 0 => ⟨S50000x256, .f32⟩
  | 1 => ⟨S2x800000, .i32⟩
  | 2 => ⟨S256x128, .f32⟩
  | 3 => ⟨S128, .f32⟩
  | 4 => ⟨S128x64, .f32⟩
  | 5 => ⟨S64, .f32⟩
  | 6 => ⟨S64x128, .f32⟩
  | 7 => ⟨S128, .f32⟩
  | 8 => ⟨S128x256, .f32⟩
  | 9 => ⟨S256, .f32⟩
  | 10 => ⟨S50000, .i32⟩
  | 11 => ⟨S1x800000, .i32⟩
  | 12 => ⟨S800000, .i32⟩
  | 13 => ⟨S850000, .i32⟩
  | 14 => ⟨S1x800000, .i32⟩
  | 15 => ⟨S800000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S_, .f32⟩
  | 29 => ⟨S50000, .f32⟩
  | 30 => ⟨S50000, .f32⟩
  | 31 => ⟨S50000x128, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S850000x1, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x128, .f32⟩
  | 61 => ⟨S850000x128, .f32⟩
  | 62 => ⟨S850000x128, .f32⟩
  | 63 => ⟨S_, .f32⟩
  | 64 => ⟨S50000x128, .f32⟩
  | 65 => ⟨S850000x1, .i32⟩
  | 66 => ⟨S50000x128, .f32⟩
  | 67 => ⟨S1x128, .f32⟩
  | 68 => ⟨S50000x128, .f32⟩
  | 69 => ⟨S50000x128, .f32⟩
  | 70 => ⟨S_, .f32⟩
  | 71 => ⟨S50000x128, .f32⟩
  | 72 => ⟨S50000x128, .i1⟩
  | 73 => ⟨S_, .f32⟩
  | 74 => ⟨S50000x128, .f32⟩
  | 75 => ⟨S50000x128, .i1⟩
  | 76 => ⟨S_, .f32⟩
  | 77 => ⟨S_, .f32⟩
  | 78 => ⟨S50000x128, .f32⟩
  | 79 => ⟨S50000x128, .f32⟩
  | 80 => ⟨S50000x128, .f32⟩
  | 81 => ⟨S_, .f32⟩
  | 82 => ⟨S50000x128, .f32⟩
  | 83 => ⟨S50000x128, .f32⟩
  | 84 => ⟨S50000x128, .f32⟩
  | 85 => ⟨S50000x64, .f32⟩
  | 86 => ⟨S_, .i32⟩
  | 87 => ⟨S850000, .i32⟩
  | 88 => ⟨S850000, .i1⟩
  | 89 => ⟨S_, .i32⟩
  | 90 => ⟨S850000, .i32⟩
  | 91 => ⟨S850000, .i32⟩
  | 92 => ⟨S850000, .i32⟩
  | 93 => ⟨S850000x1, .i32⟩
  | 94 => ⟨S850000, .f32⟩
  | 95 => ⟨S_, .i32⟩
  | 96 => ⟨S850000, .i32⟩
  | 97 => ⟨S850000, .i1⟩
  | 98 => ⟨S_, .i32⟩
  | 99 => ⟨S850000, .i32⟩
  | 100 => ⟨S850000, .i32⟩
  | 101 => ⟨S850000, .i32⟩
  | 102 => ⟨S850000x1, .i32⟩
  | 103 => ⟨S850000, .f32⟩
  | 104 => ⟨S850000, .f32⟩
  | 105 => ⟨S850000x1, .f32⟩
  | 106 => ⟨S_, .i32⟩
  | 107 => ⟨S850000, .i32⟩
  | 108 => ⟨S850000, .i1⟩
  | 109 => ⟨S_, .i32⟩
  | 110 => ⟨S850000, .i32⟩
  | 111 => ⟨S850000, .i32⟩
  | 112 => ⟨S850000, .i32⟩
  | 113 => ⟨S850000x1, .i32⟩
  | 114 => ⟨S850000x64, .f32⟩
  | 115 => ⟨S850000x64, .f32⟩
  | 116 => ⟨S850000x64, .f32⟩
  | 117 => ⟨S_, .f32⟩
  | 118 => ⟨S50000x64, .f32⟩
  | 119 => ⟨S850000x1, .i32⟩
  | 120 => ⟨S50000x64, .f32⟩
  | 121 => ⟨S1x64, .f32⟩
  | 122 => ⟨S50000x64, .f32⟩
  | 123 => ⟨S50000x64, .f32⟩
  | 124 => ⟨S50000x128, .f32⟩
  | 125 => ⟨S_, .i32⟩
  | 126 => ⟨S850000, .i32⟩
  | 127 => ⟨S850000, .i1⟩
  | _ => ⟨S50000x256, .f32⟩

abbrev hbmTy0_1 (i : Nat) : BufTy := match i % 128 with
  | 0 => ⟨S_, .i32⟩
  | 1 => ⟨S850000, .i32⟩
  | 2 => ⟨S850000, .i32⟩
  | 3 => ⟨S850000, .i32⟩
  | 4 => ⟨S850000x1, .i32⟩
  | 5 => ⟨S850000, .f32⟩
  | 6 => ⟨S_, .i32⟩
  | 7 => ⟨S850000, .i32⟩
  | 8 => ⟨S850000, .i1⟩
  | 9 => ⟨S_, .i32⟩
  | 10 => ⟨S850000, .i32⟩
  | 11 => ⟨S850000, .i32⟩
  | 12 => ⟨S850000, .i32⟩
  | 13 => ⟨S850000x1, .i32⟩
  | 14 => ⟨S850000, .f32⟩
  | 15 => ⟨S850000, .f32⟩
  | 16 => ⟨S850000x1, .f32⟩
  | 17 => ⟨S_, .i32⟩
  | 18 => ⟨S850000, .i32⟩
  | 19 => ⟨S850000, .i1⟩
  | 20 => ⟨S_, .i32⟩
  | 21 => ⟨S850000, .i32⟩
  | 22 => ⟨S850000, .i32⟩
  | 23 => ⟨S850000, .i32⟩
  | 24 => ⟨S850000x1, .i32⟩
  | 25 => ⟨S850000x128, .f32⟩
  | 26 => ⟨S850000x128, .f32⟩
  | 27 => ⟨S850000x128, .f32⟩
  | 28 => ⟨S_, .f32⟩
  | 29 => ⟨S50000x128, .f32⟩
  | 30 => ⟨S850000x1, .i32⟩
  | 31 => ⟨S50000x128, .f32⟩
  | 32 => ⟨S1x128, .f32⟩
  | 33 => ⟨S50000x128, .f32⟩
  | 34 => ⟨S50000x128, .f32⟩
  | 35 => ⟨S_, .f32⟩
  | 36 => ⟨S50000x128, .f32⟩
  | 37 => ⟨S50000x128, .i1⟩
  | 38 => ⟨S_, .f32⟩
  | 39 => ⟨S50000x128, .f32⟩
  | 40 => ⟨S50000x128, .i1⟩
  | 41 => ⟨S_, .f32⟩
  | 42 => ⟨S_, .f32⟩
  | 43 => ⟨S50000x128, .f32⟩
  | 44 => ⟨S50000x128, .f32⟩
  | 45 => ⟨S50000x128, .f32⟩
  | 46 => ⟨S_, .f32⟩
  | 47 => ⟨S50000x128, .f32⟩
  | 48 => ⟨S50000x128, .f32⟩
  | 49 => ⟨S50000x128, .f32⟩
  | 50 => ⟨S50000x256, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000, .f32⟩
  | 60 => ⟨S_, .i32⟩
  | 61 => ⟨S850000, .i32⟩
  | 62 => ⟨S850000, .i1⟩
  | 63 => ⟨S_, .i32⟩
  | 64 => ⟨S850000, .i32⟩
  | 65 => ⟨S850000, .i32⟩
  | 66 => ⟨S850000, .i32⟩
  | 67 => ⟨S850000x1, .i32⟩
  | 68 => ⟨S850000, .f32⟩
  | 69 => ⟨S850000, .f32⟩
  | 70 => ⟨S850000x1, .f32⟩
  | 71 => ⟨S_, .i32⟩
  | 72 => ⟨S850000, .i32⟩
  | 73 => ⟨S850000, .i1⟩
  | 74 => ⟨S_, .i32⟩
  | 75 => ⟨S850000, .i32⟩
  | 76 => ⟨S850000, .i32⟩
  | 77 => ⟨S850000, .i32⟩
  | 78 => ⟨S850000x1, .i32⟩
  | 79 => ⟨S850000x256, .f32⟩
  | 80 => ⟨S850000x256, .f32⟩
  | 81 => ⟨S850000x256, .f32⟩
  | 82 => ⟨S_, .f32⟩
  | 83 => ⟨S50000x256, .f32⟩
  | 84 => ⟨S850000x1, .i32⟩
  | 85 => ⟨S50000x256, .f32⟩
  | 86 => ⟨S1x256, .f32⟩
  | 87 => ⟨S50000x256, .f32⟩
  | 88 => ⟨S50000x256, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_call1_v1 : Ref sig .tc := ⟨.hbm, 72, rfl⟩
abbrev main_call1_cst_0 : Ref sig .tc := ⟨.hbm, 73, rfl⟩
abbrev main_call1_v2 : Ref sig .tc := ⟨.hbm, 74, rfl⟩
abbrev main_call1_v3 : Ref sig .tc := ⟨.hbm, 75, rfl⟩
abbrev main_call1_cst_1 : Ref sig .tc := ⟨.hbm, 76, rfl⟩
abbrev main_call1_call0_v0 : Ref sig .tc := ⟨.hbm, 77, rfl⟩
abbrev main_call1_call0_v1 : Ref sig .tc := ⟨.hbm, 78, rfl⟩
abbrev main_call1_v4 : Ref sig .tc := ⟨.hbm, 79, rfl⟩
abbrev main_call1_v5 : Ref sig .tc := ⟨.hbm, 80, rfl⟩
abbrev main_call1_cst_2 : Ref sig .tc := ⟨.hbm, 81, rfl⟩
abbrev main_call1_v6 : Ref sig .tc := ⟨.hbm, 82, rfl⟩
abbrev main_call1_v7 : Ref sig .tc := ⟨.hbm, 83, rfl⟩
abbrev main_v47 : Ref sig .tc := ⟨.hbm, 84, rfl⟩
abbrev main_v48 : Ref sig .tc := ⟨.hbm, 85, rfl⟩
abbrev main_c_9 : Ref sig .tc := ⟨.hbm, 86, rfl⟩
abbrev main_v49 : Ref sig .tc := ⟨.hbm, 87, rfl⟩
abbrev main_v50 : Ref sig .tc := ⟨.hbm, 88, rfl⟩
abbrev main_c_10 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_c_11 : Ref sig .tc := ⟨.hbm, 95, rfl⟩
abbrev main_v56 : Ref sig .tc := ⟨.hbm, 96, rfl⟩
abbrev main_v57 : Ref sig .tc := ⟨.hbm, 97, rfl⟩
abbrev main_c_12 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_c_13 : Ref sig .tc := ⟨.hbm, 106, rfl⟩
abbrev main_v65 : Ref sig .tc := ⟨.hbm, 107, rfl⟩
abbrev main_v66 : Ref sig .tc := ⟨.hbm, 108, rfl⟩
abbrev main_c_14 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_cst_15 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_c_16 : Ref sig .tc := ⟨.hbm, 125, rfl⟩
abbrev main_v81 : Ref sig .tc := ⟨.hbm, 126, rfl⟩
abbrev main_v82 : Ref sig .tc := ⟨.hbm, 127, rfl⟩
abbrev main_c_17 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_c_18 : Ref sig .tc := ⟨.hbm, 134, rfl⟩
abbrev main_v88 : Ref sig .tc := ⟨.hbm, 135, rfl⟩
abbrev main_v89 : Ref sig .tc := ⟨.hbm, 136, rfl⟩
abbrev main_c_19 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_c_20 : Ref sig .tc := ⟨.hbm, 145, rfl⟩
abbrev main_v97 : Ref sig .tc := ⟨.hbm, 146, rfl⟩
abbrev main_v98 : Ref sig .tc := ⟨.hbm, 147, rfl⟩
abbrev main_c_21 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_cst_22 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_call2_cst : Ref sig .tc := ⟨.hbm, 163, rfl⟩
abbrev main_call2_v0 : Ref sig .tc := ⟨.hbm, 164, rfl⟩
abbrev main_call2_v1 : Ref sig .tc := ⟨.hbm, 165, rfl⟩
abbrev main_call2_cst_0 : Ref sig .tc := ⟨.hbm, 166, rfl⟩
abbrev main_call2_v2 : Ref sig .tc := ⟨.hbm, 167, rfl⟩
abbrev main_call2_v3 : Ref sig .tc := ⟨.hbm, 168, rfl⟩
abbrev main_call2_cst_1 : Ref sig .tc := ⟨.hbm, 169, rfl⟩
abbrev main_call2_call0_v0 : Ref sig .tc := ⟨.hbm, 170, rfl⟩
abbrev main_call2_call0_v1 : Ref sig .tc := ⟨.hbm, 171, rfl⟩
abbrev main_call2_v4 : Ref sig .tc := ⟨.hbm, 172, rfl⟩
abbrev main_call2_v5 : Ref sig .tc := ⟨.hbm, 173, rfl⟩
abbrev main_call2_cst_2 : Ref sig .tc := ⟨.hbm, 174, rfl⟩
abbrev main_call2_v6 : Ref sig .tc := ⟨.hbm, 175, rfl⟩
abbrev main_call2_v7 : Ref sig .tc := ⟨.hbm, 176, rfl⟩
abbrev main_v112 : Ref sig .tc := ⟨.hbm, 177, rfl⟩
abbrev main_v113 : Ref sig .tc := ⟨.hbm, 178, rfl⟩
abbrev main_c_23 : Ref sig .tc := ⟨.hbm, 179, rfl⟩
abbrev main_v114 : Ref sig .tc := ⟨.hbm, 180, rfl⟩
abbrev main_v115 : Ref sig .tc := ⟨.hbm, 181, rfl⟩
abbrev main_c_24 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_c_25 : Ref sig .tc := ⟨.hbm, 188, rfl⟩
abbrev main_v121 : Ref sig .tc := ⟨.hbm, 189, rfl⟩
abbrev main_v122 : Ref sig .tc := ⟨.hbm, 190, rfl⟩
abbrev main_c_26 : Ref sig .tc := ⟨.hbm, 191, rfl⟩
abbrev main_v123 : Ref sig .tc := ⟨.hbm, 192, rfl⟩
abbrev main_v124 : Ref sig .tc := ⟨.hbm, 193, rfl⟩
abbrev main_v125 : Ref sig .tc := ⟨.hbm, 194, rfl⟩
abbrev main_v126 : Ref sig .tc := ⟨.hbm, 195, rfl⟩
abbrev main_v127 : Ref sig .tc := ⟨.hbm, 196, rfl⟩
abbrev main_v128 : Ref sig .tc := ⟨.hbm, 197, rfl⟩
abbrev main_v129 : Ref sig .tc := ⟨.hbm, 198, rfl⟩
abbrev main_c_27 : Ref sig .tc := ⟨.hbm, 199, rfl⟩
abbrev main_v130 : Ref sig .tc := ⟨.hbm, 200, rfl⟩
abbrev main_v131 : Ref sig .tc := ⟨.hbm, 201, rfl⟩
abbrev main_c_28 : Ref sig .tc := ⟨.hbm, 202, rfl⟩
abbrev main_v132 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_cst_29 : Ref sig .tc := ⟨.hbm, 210, rfl⟩
abbrev main_v139 : Ref sig .tc := ⟨.hbm, 211, rfl⟩
abbrev main_v140 : Ref sig .tc := ⟨.hbm, 212, rfl⟩
abbrev main_v141 : Ref sig .tc := ⟨.hbm, 213, rfl⟩
abbrev main_v142 : Ref sig .tc := ⟨.hbm, 214, rfl⟩
abbrev main_v143 : Ref sig .tc := ⟨.hbm, 215, rfl⟩
abbrev main_v144 : Ref sig .tc := ⟨.hbm, 216, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  scatter_S50000_S850000x1_S850000_n_0_0_1_wf : ScatterDims.WF S50000 S850000x1 S850000 [] [0] [0] 1
  dot_S50000x256_S256x128_S50000x128_1_0_0_1_n_n_wf : DotDims.WF S50000x256 S256x128 S50000x128 [1] [0] [0] [1] [] []
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x128_S50000x128_1_0_0_1_n_n_wf : DotDims.WF S50000x64 S64x128 S50000x128 [1] [0] [0] [1] [] []
  dot_S50000x128_S128x256_S50000x256_1_0_0_1_n_n_wf : DotDims.WF S50000x128 S128x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf

class Facts : Prop extends Facts₀ where

variable [Facts]
-- ==== Proof.Spec.lean ====
/-
  The mathematics both programs compute, index by index, on the extended reals.

  Each layer of the network is a matrix product, an aggregation over the graph's edges (the same host operations in
  both programs, never opened here), a bias added along the rows and, for two of the four layers, the exponential
  linear unit  elu v = v  when  v > 0,  e^v - 1  otherwise.

  * `mm x w`: the matrix product, (p, j) ↦ ∑ₖ x (p, k) · w (k, j).
  * `bias h b`: a one-row matrix added to every row, (p, j) ↦ h (p, j) + b (0, j).
  * `biasElu h b`: the same followed by the exponential linear unit.
  * `elu_host`: the reference spells the unit as  select (v > 0) v (1 · (e^(select (v > 0) 0 v) - 1)) ; where v > 0
    fails the inner choice is v and  1 · (e^v - 1) = e^v - 1  (the unit of multiplication on the extended reals), and
    where it holds both spellings return v.
-/
import Idealize.ShloMosaic.PureOps.Ideal.Laws
import Idealize.ShloMosaic.Lib.ValueIdx

noncomputable section

namespace Cert.Spec

open Idealize.ShloMosaic Idealize.ShloMosaic.ValueIdx

/-- The word of `1.0` denotes the real one. -/
theorem ofBits_one : Ideal.ofBits .f32 0x3F800000#32 = 1 := by
  simp [Ideal.ofBits, Ideal.ieee, -EReal.coe_mul]; norm_num

/-- The word of `+0.0` denotes zero. -/
theorem ofBits_zero : Ideal.ofBits .f32 0x00000000#32 = 0 := Ideal.ofBits_zero_f32

/-- The exponential linear unit on one extended real, as a choice on the comparison with zero. -/
def elu (v : EReal) : EReal :=
  Scalar.select (Ideal.cmp .ogt v 0) v (Ideal.exp v - 1)

/-- The reference's spelling of the unit: the exponential is taken of  v  only where  v > 0  fails (of zero elsewhere),
    one is subtracted, the difference multiplied by one, and the outer choice returns  v  where  v > 0. -/
theorem elu_host (v : EReal) :
    Scalar.select (Ideal.cmp .ogt v 0) v (1 * (Ideal.exp (Scalar.select (Ideal.cmp .ogt v 0) 0 v) - 1)) = elu v := by
  unfold elu
  rcases BitVec.eq_zero_or_eq_one (Ideal.cmp .ogt v 0) with h | h
  · rw [h, select_zero, select_zero, select_zero, one_mul]
  · rw [h, select_one, select_one]

/-- The matrix product: entry (p, j) is the sum over k of x (p, k) · w (k, j). -/
def mm {M K N : ℕ} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0 : Fin M) k) * w (ix2 k (i 1 : Fin N))

/-- A one-row matrix added to every row. -/
def bias {M N : ℕ} (h : (⟨2, ![M, N]⟩ : Shape).Idx → EReal) (b : (⟨2, ![1, N]⟩ : Shape).Idx → EReal) :
    (⟨2, ![M, N]⟩ : Shape).Idx → EReal :=
  fun i => h i + b (ix2 (0 : Fin 1) (i 1 : Fin N))

/-- A one-row matrix added to every row, then the exponential linear unit. -/
def biasElu {M N : ℕ} (h : (⟨2, ![M, N]⟩ : Shape).Idx → EReal) (b : (⟨2, ![1, N]⟩ : Shape).Idx → EReal) :
    (⟨2, ![M, N]⟩ : Shape).Idx → EReal :=
  fun i => elu (h i + b (ix2 (0 : Fin 1) (i 1 : Fin N)))

theorem mm_apply {M K N : ℕ} (x : (⟨2, ![M, K]⟩ : Shape).Idx → EReal) (w : (⟨2, ![K, N]⟩ : Shape).Idx → EReal)
    (p : Fin M) (j : Fin N) : mm x w (ix2 p j) = ∑ k : Fin K, x (ix2 p k) * w (ix2 k j) := rfl

theorem bias_apply {M N : ℕ} (h : (⟨2, ![M, N]⟩ : Shape).Idx → EReal) (b : (⟨2, ![1, N]⟩ : Shape).Idx → EReal)
    (p : Fin M) (j : Fin N) : bias h b (ix2 p j) = h (ix2 p j) + b (ix2 (0 : Fin 1) j) := rfl

theorem biasElu_apply {M N : ℕ} (h : (⟨2, ![M, N]⟩ : Shape).Idx → EReal) (b : (⟨2, ![1, N]⟩ : Shape).Idx → EReal)
    (p : Fin M) (j : Fin N) : biasElu h b (ix2 p j) = elu (h (ix2 p j) + b (ix2 (0 : Fin 1) j)) := rfl

end Cert.Spec

end
-- ==== Proof.AggK.lean ====
/-
  The graph side of every layer, which both programs compute with the same host operations: from the edge list, the
  source and target index of every edge followed by one self loop per node; the degree of a node (the number of edges
  that end at it) and its inverse square root (zero where the degree is not positive); and the aggregation of a layer,

      agg h (v, j) = ∑ over edges e with target v of  h (source e, j) · dinv (source e) · dinv (target e),

  as a gather of rows, a product with the edge weight laid along the row, and a scatter-add over the targets. An index
  below zero counts from the end (`wrap`). These are carried as whole functions: nothing here looks inside a gather or
  a scatter.
-/
import proofs.«154903_j85899345920190_1_alg».proof.Proof.Gen.KernelIdeal

noncomputable section

namespace Cert.KernelIdeal.Hand

open Idealize.ShloMosaic Cert.KernelIdeal Cert.KernelIdeal.Gen

variable {F : FTy → Type} [FloatOps F]

/-- The source index of every edge, then the nodes themselves (the self loops). -/
def rowOf (E : IVec S2x800000 32) : IVec S850000 32 :=
  concatenate S850000 0
    [⟨S800000, shapeCast S800000 (extractStridedSlice S1x800000 ![0, 0] E slices_S2x800000_S1x800000_0_0) shapeCasts_S1x800000_S800000⟩,
      ⟨S50000, iotaInDim S50000 32 0⟩]
    concatenates_S800000_S50000_S850000_d0

/-- The target index of every edge, then the nodes themselves. -/
def colOf (E : IVec S2x800000 32) : IVec S850000 32 :=
  concatenate S850000 0
    [⟨S800000, shapeCast S800000 (extractStridedSlice S1x800000 ![1, 0] E slices_S2x800000_S1x800000_1_0) shapeCasts_S1x800000_S800000⟩,
      ⟨S50000, iotaInDim S50000 32 0⟩]
    concatenates_S800000_S50000_S850000_d0

/-- The degree: one added at its target for every edge. -/
def degOf (col : IVec S850000 32) : FVec F S50000 .f32 :=
  Host.scatterAdd scatter_S50000_S850000x1_S850000_n_0_0_1
    (broadcastInDim S50000 ![] bcast_S_S50000 (constant S_ .f32 0x00000000#32))
    (broadcastInDim S850000x1 ![0] bcast_S850000_S850000x1_0 col)
    (broadcastInDim S850000 ![] bcast_S_S850000 (constant S_ .f32 0x3F800000#32))

/-- The inverse square root of the degree where it is positive, zero elsewhere. -/
def dinvOf (deg : FVec F S50000 .f32) : FVec F S50000 .f32 :=
  select (cmpf .ogt deg (broadcastInDim S50000 ![] bcast_S_S50000 (constant S_ .f32 0x00000000#32))) (Host.rsqrt deg)
    (broadcastInDim S50000 ![] bcast_S_S50000 (constant S_ .f32 0x00000000#32))

/-- An index below zero counts from the end of the 50000 nodes. -/
def wrap (r : IVec S850000 32) : IVec S850000 32 :=
  select (cmpi .slt r (broadcastInDim S850000 ![] bcast_S_S850000 (constantI S_ 32 0#32)))
    (addi r (broadcastInDim S850000 ![] bcast_S_S850000 (constantI S_ 32 50000#32))) r

/-- The weight of an edge: the product of its two ends' inverse square root degrees. -/
def edgeNorm (row col : IVec S850000 32) (dinv : FVec F S50000 .f32) : FVec F S850000 .f32 :=
  mulf
    (Host.gather gather_S50000_S850000x1_S850000_n_0_n_n_0_1_1 dinv (broadcastInDim S850000x1 ![0] bcast_S850000_S850000x1_0 (wrap row)))
    (Host.gather gather_S50000_S850000x1_S850000_n_0_n_n_0_1_1 dinv (broadcastInDim S850000x1 ![0] bcast_S850000_S850000x1_0 (wrap col)))

/-- A layer's aggregation over rows of width 128. -/
def agg128 (row col : IVec S850000 32) (dinv : FVec F S50000 .f32) (h : FVec F S50000x128 .f32) : FVec F S50000x128 .f32 :=
  Host.scatterAdd scatter_S50000x128_S850000x1_S850000x128_1_0_0_1
    (broadcastInDim S50000x128 ![] bcast_S_S50000x128 (constant S_ .f32 0x00000000#32))
    (broadcastInDim S850000x1 ![0] bcast_S850000_S850000x1_0 col)
    (mulf
      (Host.gather gather_S50000x128_S850000x1_S850000x128_1_0_n_n_0_1_1128 h (broadcastInDim S850000x1 ![0] bcast_S850000_S850000x1_0 (wrap row)))
      (broadcastInDim S850000x128 ![0, 1] bcast_S850000x1_S850000x128_0_1
        (broadcastInDim S850000x1 ![0] bcast_S850000_S850000x1_0 (edgeNorm row col dinv))))

/-- A layer's aggregation over rows of width 64. -/
def agg64 (row col : IVec S850000 32) (dinv : FVec F S50000 .f32) (h : FVec F S50000x64 .f32) : FVec F S50000x64 .f32 :=
  Host.scatterAdd scatter_S50000x64_S850000x1_S850000x64_1_0_0_1
    (broadcastInDim S50000x64 ![] bcast_S_S50000x64 (constant S_ .f32 0x00000000#32))
    (broadcastInDim S850000x1 ![0] bcast_S850000_S850000x1_0 col)
    (mulf
      (Host.gather gather_S50000x64_S850000x1_S850000x64_1_0_n_n_0_1_164 h (broadcastInDim S850000x1 ![0] bcast_S850000_S850000x1_0 (wrap row)))
      (broadcastInDim S850000x64 ![0, 1] bcast_S850000x1_S850000x64_0_1
        (broadcastInDim S850000x1 ![0] bcast_S850000_S850000x1_0 (edgeNorm row col dinv))))

/-- A layer's aggregation over rows of width 256. -/
def agg256 (row col : IVec S850000 32) (dinv : FVec F S50000 .f32) (h : FVec F S50000x256 .f32) : FVec F S50000x256 .f32 :=
  Host.scatterAdd scatter_S50000x256_S850000x1_S850000x256_1_0_0_1
    (broadcastInDim S50000x256 ![] bcast_S_S50000x256 (constant S_ .f32 0x00000000#32))
    (broadcastInDim S850000x1 ![0] bcast_S850000_S850000x1_0 col)
    (mulf
      (Host.gather gather_S50000x256_S850000x1_S850000x256_1_0_n_n_0_1_1256 h (broadcastInDim S850000x1 ![0] bcast_S850000_S850000x1_0 (wrap row)))
      (broadcastInDim S850000x256 ![0, 1] bcast_S850000x1_S850000x256_0_1
        (broadcastInDim S850000x1 ![0] bcast_S850000_S850000x1_0 (edgeNorm row col dinv))))

end Cert.KernelIdeal.Hand

end
-- ==== Proof.LibPlainDot.lean ====
/-
  General lemmas for reading a kernel's vector operations at an index, at the ideal instance.

  * `matmul_plain_apply`: a matrix product of an [M, K] operand with a [K, N] operand into a zero accumulator, read at
    (p, j), is the sum over k of lhs (p, k) · rhs (k, j), for any record of dimension numbers whose four axis facts are
    given (row of the output from the left operand's axis 0, column from the right operand's axis 1, the one contracted
    index on the left's axis 1 and the right's axis 0).
  * `shapeCast_a_a1_apply`: an [a] vector recast as an [a, 1] column reads, at (p, u), the vector at p.
  * `broadcastTo_a1_ab_apply`: an [a, 1] column broadcast to [a, b] reads, at (p, c), the column at (p, 0).
-/
import Idealize.ShloMosaic.PureOps.Ideal.Laws
import Idealize.ShloMosaic.Lib.ValueIdx
import Idealize.ShloMosaic.Lib.ValueLayout
import Idealize.ShloMosaic.Lib.Pipeline.Value

noncomputable section

namespace Cert.Lib

open Idealize.ShloMosaic Idealize.ShloMosaic.ValueIdx

/-- A plain two-operand matrix product into the zero accumulator, read at (p, j): ∑ₖ lhs (p, k) · rhs (k, j). -/
theorem matmul_plain_apply {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![M, K]⟩ φ₁) (rhs : FVec Ideal ⟨2, ![K, N]⟩ φ₂)
    (p : Fin M) (j : Fin N) :
    FloatOps.matmul d prec lhs rhs (constant ⟨2, ![M, N]⟩ .f32 0x00000000#32) (ix2 p j)
      = ∑ k : Fin K, lhs (ix2 p k) * rhs (ix2 k j) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p j) ((contrEquiv1 d K hr hs).symm k) = ix2 p k := funext fun a => Fin.ext (by
    match a with
    | ⟨0, _⟩ => exact hl0 _ _
    | ⟨1, _⟩ => exact (hl1 _ _).trans hk)
  have er : d.rhsIdx (ix2 p j) ((contrEquiv1 d K hr hs).symm k) = ix2 k j := funext fun a => Fin.ext (by
    match a with
    | ⟨0, _⟩ => exact (hr0 _ _).trans hk
    | ⟨1, _⟩ => exact hr1 _ _)
  rw [el, er]

variable {α : Type}

/-- An `[a]` vector recast as an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.LibDotStd.lean ====
/-
  A matrix product in the standard orientation, read at an index.

  A record of dimension numbers for an [M, K] left operand and a [K, N] right operand into an [M, N] result is in the
  standard orientation when neither operand has a batch axis, the left operand keeps its axis 0 and contracts its
  axis 1, and the right operand contracts its axis 0 and keeps its axis 1. Then row p of the result comes from row p of
  the left operand, column j from column j of the right operand, and the one contracted index k runs over the left
  operand's columns and the right operand's rows, so that with a zero accumulator

      (lhs · rhs) (p, j) = ∑ₖ lhs (p, k) · rhs (k, j).

  * `lhsIdx_row`, `lhsIdx_col`, `rhsIdx_row`, `rhsIdx_col`: the four coordinates of the two operand indices at a result
    index and a contraction index.
  * `contr_rank`, `contr_size`: the contracted shape is one axis of length K.
  * `matmul_std_apply`: the product at (p, j) as the sum over k.
-/
import proofs.«154903_j85899345920190_1_alg».proof.Proof.LibPlainDot

noncomputable section

namespace Cert.LibDotStd

open Idealize.ShloMosaic Idealize.ShloMosaic.ValueIdx

variable {M K N : Nat} (d : DotDims ⟨2, ![M, K]⟩ ⟨2, ![K, N]⟩ ⟨2, ![M, N]⟩)

/-- The standard orientation: no batch axes, the left operand keeps axis 0 and contracts axis 1, the right operand
    contracts axis 0 and keeps axis 1. -/
structure Std : Prop where
  lb : d.lhsBatch = []
  ln : d.lhsNonContracting = [0]
  lc : d.lhsContracting = [1]
  rb : d.rhsBatch = []
  rn : d.rhsNonContracting = [1]
  rc : d.rhsContracting = [0]

variable {d}

/-- One axis is contracted. -/
theorem contr_rank (h : Std d) : d.contr.rank = 1 := by
  rw [d.rank_contr, h.lc]; rfl

/-- Its length is the left operand's number of columns. -/
theorem contr_size (h : Std d) : d.contr.size ⟨0, by rw [contr_rank h]; exact Nat.one_pos⟩ = K := by
  have e := d.size_contr 0 (by rw [h.lc]; exact Nat.one_pos)
  rw [e]
  have : d.lhsContracting[0]'(by rw [h.lc]; exact Nat.one_pos) = (1 : Fin 2) := by simp [h.lc]
  rw [this]; rfl

/-- A coordinate of a multi-index does not depend on how its axis number is spelt. -/
private theorem coord_congr {s : Shape} (i : s.Idx) (a b : Nat) (ha : a < s.rank) (hb : b < s.rank) (e : a = b) :
    (i ⟨a, ha⟩).val = (i ⟨b, hb⟩).val := by subst e; rfl

/-- The left operand's row is the result's row. -/
theorem lhsIdx_row (h : Std d) (i : (⟨2, ![M, N]⟩ : Shape).Idx) (q : d.contr.Idx) : (d.lhsIdx i q 0).val = (i 0).val := by
  unfold DotDims.lhsIdx
  rw [dif_neg (by rw [h.lb]; exact List.not_mem_nil), dif_pos (by rw [h.ln]; exact List.mem_singleton.mpr rfl)]
  simp only [Fin.val_cast]
  exact coord_congr i _ _ _ _ (by simp [h.lb, h.ln])

/-- The left operand's column is the contracted index. -/
theorem lhsIdx_col (h : Std d) (i : (⟨2, ![M, N]⟩ : Shape).Idx) (q : d.contr.Idx) :
    (d.lhsIdx i q 1).val = (q ⟨0, by rw [contr_rank h]; exact Nat.one_pos⟩).val :=
  d.lhsIdx_val_of_single h.lc i q

/-- The right operand's row is the contracted index. -/
theorem rhsIdx_row (h : Std d) (i : (⟨2, ![M, N]⟩ : Shape).Idx) (q : d.contr.Idx) :
    (d.rhsIdx i q 0).val = (q ⟨0, by rw [contr_rank h]; exact Nat.one_pos⟩).val :=
  d.rhsIdx_val_of_single h.rc i q

/-- The right operand's column is the result's column. -/
theorem rhsIdx_col (h : Std d) (i : (⟨2, ![M, N]⟩ : Shape).Idx) (q : d.contr.Idx) : (d.rhsIdx i q 1).val = (i 1).val := by
  unfold DotDims.rhsIdx
  rw [dif_neg (by rw [h.rb]; exact List.not_mem_nil), dif_pos (by rw [h.rn]; exact List.mem_singleton.mpr rfl)]
  simp only [Fin.val_cast]
  exact coord_congr i _ _ _ _ (by simp [h.lb, h.ln, h.rn])

/-- A matrix product in the standard orientation into the zero accumulator, read at (p, j): ∑ₖ lhs (p, k) · rhs (k, j). -/
theorem matmul_std_apply {φ₁ φ₂ : FTy} (h : Std d) (prec : Option ContractPrecision)
    (lhs : FVec Ideal ⟨2, ![M, K]⟩ φ₁) (rhs : FVec Ideal ⟨2, ![K, N]⟩ φ₂) (p : Fin M) (j : Fin N) :
    FloatOps.matmul d prec lhs rhs (constant ⟨2, ![M, N]⟩ .f32 0x00000000#32) (ix2 p j)
      = ∑ k : Fin K, lhs (ix2 p k) * rhs (ix2 k j) :=
  Cert.Lib.matmul_plain_apply d (contr_rank h) (contr_size h) (lhsIdx_row h) (lhsIdx_col h) (rhsIdx_row h) (rhsIdx_col h)
    prec lhs rhs p j

end Cert.LibDotStd

end
-- ==== Proof.Region0.lean ====
/-
  Region 0: a matrix product, block by block.

  The region multiplies x : [50000, 256] by w : [256, 128] into a [50000, 128] array. Its grid has 25 points. At point t
  the body reads rows 2000 t … 2000 t + 1999 of x (all 256 columns) and the whole of w, and writes the same rows of the
  result (all 128 columns). Inside the body the operands are recast to their own shapes and x's block is rounded to the
  narrower format, both the identity on the extended reals, and the product is taken into a zero accumulator. So the
  block holds at (p, j)

      ∑ₖ x (2000 t + p, k) · w (k, j),

  which is entry (2000 t + p, j) of the whole product. The 25 blocks of 2000 rows tile the 50000 rows, so the array ends
  holding the whole product.

  * `idx0`: the three windows' block indices at point t, decided over the grid.
  * `pay0_apply`, `pay0_at`: the body's value at an index of the block, as the sum over k.
  * `mm_block0`: that value is an entry of the whole product once the two blocks are read off the arrays.
  * `flushed0_eq`: what point t writes back is block t of the whole product.
  * `mem_blk0`, `cover0`: row r lies in the block of point r / 2000.
  * `arr0`: the array after the region is the whole product.
-/
import proofs.«154903_j85899345920190_1_alg».proof.Proof.Gen.KernelIdeal.Frame
import proofs.«154903_j85899345920190_1_alg».proof.Proof.Spec
import proofs.«154903_j85899345920190_1_alg».proof.Proof.LibPlainDot
import proofs.«154903_j85899345920190_1_alg».proof.Proof.LibDotStd
import Idealize.ShloMosaic.Lib.Pipeline.Value
import Idealize.ShloMosaic.Lib.ValueIdx

noncomputable section

namespace Cert.KernelIdeal.Hand

open Idealize.ShloMosaic Idealize.ShloMosaic.ValueIdx Idealize.ShloMosaic.TcCoe Idealize.SL.Sem Cert.KernelIdeal Cert.KernelIdeal.Gen
open Idealize.ShloMosaic.Pipeline (Dat)

variable (V : (c : Dev nD) → (b : Ref sig .tc) → Buf (Elt Ideal) ((c : Thread nD τ).loc b))

/-- The zero offsets of a whole block, as a constant function. -/
theorem hz0 : (![0, 0] : Fin 2 → Nat) = fun _ => 0 := funext fun a => by fin_cases a <;> rfl

/-- The product's dimension numbers are in the standard orientation: no batch axes, x keeps its rows and contracts its
    columns, w contracts its rows and keeps its columns. -/
theorem std0 : Cert.LibDotStd.Std dot_S2000x256_S256x128_S2000x128_1_0_0_1_n_n := ⟨rfl, rfl, rfl, rfl, rfl, rfl⟩

/-- The block indices at point t: x's block is (t, 0), w's is (0, 0), the result's is (t, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's value at (p, j): ∑ₖ x₀ (p, k) · x₁ (k, j), the recasts and the rounding being the identity. -/
theorem pay0_apply (x0 : Vec Ideal S2000x256 .f32) (x1 : Vec Ideal S256x128 .bf16) (p : Fin 2000) (j : Fin 128) :
    k0_pay1 x0 x1 (ix2 p j) = ∑ k : Fin 256, x0 (ix2 p k) * x1 (ix2 k j) := by
  unfold k0_pay1
  simp only [shapeCast_self]
  exact Cert.LibDotStd.matmul_std_apply std0 none _ _ p j

/-- The same at any index y of the block, through its two coordinates. -/
theorem pay0_at (x0 : Vec Ideal S2000x256 .f32) (x1 : Vec Ideal S256x128 .bf16) (y : S2000x128.Idx) :
    k0_pay1 x0 x1 y = ∑ k : Fin 256, x0 (ix2 (y 0) k) * x1 (ix2 k (y 1)) :=
  (congrArg (k0_pay1 x0 x1) (eq_ix2 y)).trans (pay0_apply x0 x1 (y 0) (y 1))

/-- When row y₀ of the block x₀ is row i₀ of X and column y₁ of the block x₁ is column i₁ of W, the body's value at y
    is entry i of the product X · W. -/
theorem mm_block0 (X : S50000x256.Idx → EReal) (W : S256x128.Idx → EReal)
    (x0 : Vec Ideal S2000x256 .f32) (x1 : Vec Ideal S256x128 .bf16) (i : S50000x128.Idx) (y : S2000x128.Idx)
    (h0 : ∀ k : Fin 256, x0 (ix2 (y 0) k) = X (ix2 (i 0) k))
    (h1 : ∀ k : Fin 256, x1 (ix2 k (y 1)) = W (ix2 k (i 1))) :
    k0_pay1 x0 x1 y = Cert.Spec.mm X W i :=
  (pay0_at x0 x1 y).trans ((Finset.sum_congr rfl fun k _ => by rw [h0 k, h1 k]).trans
    ((congrArg (Cert.Spec.mm X W) (eq_ix2 i)).trans (Cert.Spec.mm_apply X W (i 0) (i 1))).symm)

/-- What point t writes back is block t of the product: at (p, j) of the block both sides are
    ∑ₖ x (2000 t + p, k) · w (k, j), x's block starting at row 2000 t and column 0, w's at row 0 and column 0, the
    result's at row 2000 t and column 0. -/
theorem flushed0_eq (c : Dev nD) (t : Fin cfg0.N) :
    (dat0 (F := Ideal) V c).flushed 2 t
      = ((cfg0.win 2).blk t).view.read (Elt Ideal) (Cert.Spec.mm (V c main_arg0) (V c main_v15)) := by
  show (cfg0.win 2).cut (grid0.coords t) ((dat0 V c).after 2 t) = _
  rw [after0_2]
  unfold out0_2
  rw [View.canon_unit_zero hz0]
  simp only [View.ld_unit_zero (S := S2000x256) hz0, View.ld_unit_zero (S := S256x128) hz0]
  obtain ⟨e0, e1, e2, e3, e4, e5⟩ := idx0 t
  funext y
  have hy0 : (y 0).val < 2000 := (y 0).isLt
  have hy1 : (y 1).val < 128 := (y 1).isLt
  rw [View.read_apply]
  refine mm_block0 (V c main_arg0) (V c main_v15) (iblk0 V c 0 t) (iblk0 V c 1 t)
    (((cfg0.win 2).blk t).view.emb y) ((cfg0.win 2).xinj (grid0.coords t) y) (fun k => ?_) (fun k => ?_)
  · -- x's block at (y₀, k) is x at (2000 t + y₀, k)
    unfold iblk0
    rw [View.read_apply]
    refine congrArg (V c main_arg0 : S50000x256.Idx → EReal) (funext fun a => Fin.ext ?_)
    match a with
    | ⟨0, _⟩ =>
      show win0_0.index t (0 : Fin 2) * 2000 + 1 * (y 0).val = win0_2.index t (0 : Fin 2) * 2000 + 1 * (y 0).val
      omega
    | ⟨1, _⟩ =>
      show win0_0.index t (1 : Fin 2) * 256 + 1 * k.val = k.val
      omega
  · -- w's block at (k, y₁) is w at (k, y₁)
    unfold iblk0
    rw [View.read_apply]
    refine congrArg (V c main_v15 : S256x128.Idx → EReal) (funext fun a => Fin.ext ?_)
    match a with
    | ⟨0, _⟩ =>
      show win0_1.index t (0 : Fin 2) * 256 + 1 * k.val = k.val
      omega
    | ⟨1, _⟩ =>
      show win0_1.index t (1 : Fin 2) * 128 + 1 * (y 1).val = win0_2.index t (1 : Fin 2) * 128 + 1 * (y 1).val
      omega

/-- An index of the result lies in point t's block iff each coordinate lies in the block's range on its axis. -/
theorem mem_blk0 (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v23).slice (win0_2.rect t)).set ↔ _
  rw [View.set_slice_whole, Rect.mem_set_unit]
  exact Iff.rfl

/-- The blocks tile the result: row r lies in the block of point r / 2000, which is below 25 since r is below 50000,
    and every column lies in the one block of columns. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  obtain ⟨t, ht⟩ : ∃ t : Fin cfg0.N, t.val = (i 0).val / 2000 := ⟨⟨(i 0).val / 2000, by rw [hN]; omega⟩, rfl⟩
  obtain ⟨-, -, -, -, e4, e5⟩ := idx0 t
  refine ⟨t, flush0_2 t, ?_⟩
  rw [mem_blk0]
  intro a
  match a with
  | ⟨0, _⟩ =>
    show win0_2.index t (0 : Fin 2) * 2000 ≤ (i 0).val ∧ (i 0).val < win0_2.index t (0 : Fin 2) * 2000 + 2000
    omega
  | ⟨1, _⟩ =>
    show win0_2.index t (1 : Fin 2) * 128 ≤ (i 1).val ∧ (i 1).val < win0_2.index t (1 : Fin 2) * 128 + 128
    omega

/-- The array after the region is the product of the two arrays as the region found them. -/
theorem arr0 (c : Dev nD) :
    (dat0 (F := Ideal) V c).arrAt 2 cfg0.N = Cert.Spec.mm (V c main_arg0) (V c main_v15) :=
  (dat0 V c).arrAt_eq_of_cover 2 (Cert.Spec.mm (V c main_arg0) (V c main_v15)) (fun t _ => flushed0_eq V c t) cover0

end Cert.KernelIdeal.Hand

end
-- ==== Proof.Region1.lean ====
/-
  The second region: a one-row matrix b : [1, 128] added along the rows of h : [50000, 128], then the exponential
  linear unit, written 2000 rows at a time over 25 grid points.

  Block t of the output holds, at (p, j),  elu (h (2000·t + p, j) + b (0, j)) : that is block t of the whole-array
  function  biasElu h b,  (r, j) ↦ elu (h (r, j) + b (0, j)).  The 25 blocks of 2000 rows tile the 50000 rows (row r
  lies in block r / 2000), so the output array ends holding  biasElu h b.
-/
import proofs.«154903_j85899345920190_1_alg».proof.Proof.Gen.KernelIdeal.Frame
import proofs.«154903_j85899345920190_1_alg».proof.Proof.Spec
import Idealize.ShloMosaic.Lib.Pipeline.Value
import Idealize.ShloMosaic.Lib.ValueIdx
import Idealize.ShloMosaic.Lib.ValueLayout
import Idealize.ShloMosaic.Signature.View
import Idealize.ShloMosaic.Shape

noncomputable section

namespace Cert.KernelIdeal.Hand

open Idealize.ShloMosaic Idealize.ShloMosaic.ValueIdx Idealize.ShloMosaic.TcCoe Idealize.SL.Sem Cert.KernelIdeal Cert.KernelIdeal.Gen
open Idealize.ShloMosaic.Pipeline (Dat)

variable (V : (c : Dev nD) → (b : Ref sig .tc) → Buf (Elt Ideal) ((c : Thread nD τ).loc b))

/-- The zero offsets, however spelt. -/
theorem zeroOff1 : (![0, 0] : Fin 2 → Nat) = fun _ => 0 := funext fun a => by fin_cases a <;> rfl

/-- The stored value at row p, column j of a block: the exponential linear unit of the block's entry plus the one-row
    operand's entry in that column. -/
theorem pay1_apply (x0 : Vec Ideal S2000x128 .f32) (x1 : Vec Ideal S1x128 .f32) (p : Fin 2000) (j : Fin 128) :
    k1_pay1 x0 x1 (ix2 p j) = Cert.Spec.elu (x0 (ix2 p j) + x1 (ix2 (0 : Fin 1) j)) := by
  have hb : broadcastTo S2000x128 x1 broadcasts_S1x128_S2000x128 (ix2 p j) = x1 (ix2 (0 : Fin 1) j) :=
    broadcastTo_1b_ab_apply x1 broadcasts_S1x128_S2000x128 p j
  unfold k1_pay1
  simp only [shapeCast_self]
  rw [select_apply, cmpf_apply, subf_apply, addf_apply, broadcast_apply, broadcast_apply]
  show Scalar.select (Ideal.cmp .ogt (x0 (ix2 p j) + broadcastTo S2000x128 x1 broadcasts_S1x128_S2000x128 (ix2 p j)) (Ideal.ofBits .f32 0x00000000#32))
      (x0 (ix2 p j) + broadcastTo S2000x128 x1 broadcasts_S1x128_S2000x128 (ix2 p j))
      (Ideal.exp (x0 (ix2 p j) + broadcastTo S2000x128 x1 broadcasts_S1x128_S2000x128 (ix2 p j)) - Ideal.ofBits .f32 0x3F800000#32) = _
  rw [hb, Cert.Spec.ofBits_zero, Cert.Spec.ofBits_one]
  rfl

/-- The block indices at grid point t: the row-block index is t for the input and the output, the one-row operand stays
    at block (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row p, column q of the input's block at grid point t is row 2000·t + p, column q of the input array. -/
theorem in1_apply (c : Dev nD) (t : Fin cfg1.N) (p : Fin 2000) (q : Fin 128) (hrow : 2000 * t.val + p.val < 50000) :
    (iblk1 V c 0 t : Vec Ideal S2000x128 .f32) (ix2 p q)
      = (V c main_v51 : S50000x128.Idx → EReal) (ix2 (⟨2000 * t.val + p.val, hrow⟩ : Fin 50000) q) := by
  obtain ⟨e00, e01, -⟩ := idx1 t
  show (V c main_v51 : S50000x128.Idx → EReal) (((cfg1.win 0).blk t).view.emb (ix2 p q)) = _
  refine congrArg (V c main_v51 : S50000x128.Idx → EReal) ?_
  funext a; apply Fin.ext
  match a with
  | ⟨0, _⟩ => show win1_0.index t (0 : Fin 2) * 2000 + 1 * p.val = 2000 * t.val + p.val; omega
  | ⟨1, _⟩ => show win1_0.index t (1 : Fin 2) * 128 + 1 * q.val = q.val; omega

/-- Column q of the one-row operand's block at any grid point is column q of the one-row array. -/
theorem row1_apply (c : Dev nD) (t : Fin cfg1.N) (q : Fin 128) :
    (iblk1 V c 1 t : Vec Ideal S1x128 .f32) (ix2 (0 : Fin 1) q) = (V c main_v19 : S1x128.Idx → EReal) (ix2 (0 : Fin 1) q) := by
  obtain ⟨-, -, e10, e11, -⟩ := idx1 t
  show (V c main_v19 : S1x128.Idx → EReal) (((cfg1.win 1).blk t).view.emb (ix2 (0 : Fin 1) q)) = _
  refine congrArg (V c main_v19 : S1x128.Idx → EReal) ?_
  funext a; apply Fin.ext
  match a with
  | ⟨0, _⟩ => show win1_1.index t (0 : Fin 2) * 1 + 1 * 0 = 0; omega
  | ⟨1, _⟩ => show win1_1.index t (1 : Fin 2) * 128 + 1 * q.val = q.val; omega

/-- What grid point t writes back is block t of the whole-array function. -/
theorem flushed1 (c : Dev nD) (t : Fin cfg1.N) :
    (dat1 (F := Ideal) V c).flushed 2 t
      = ((cfg1.win 2).blk t).view.read (Elt Ideal) (Cert.Spec.biasElu (V c main_v51) (V c main_v19)) := by
  show (cfg1.win 2).cut (grid1.coords t) ((dat1 V c).after 2 t) = _
  rw [after1_2]
  unfold out1_2
  rw [View.canon_unit_zero zeroOff1]
  simp only [View.ld_unit_zero (S := S2000x128) zeroOff1, View.ld_unit_zero (S := S1x128) zeroOff1]
  obtain ⟨-, -, -, -, e20, e21⟩ := idx1 t
  have ht : t.val < 25 := lt_of_lt_of_eq t.isLt N_1
  funext y
  obtain ⟨p, q, rfl⟩ : ∃ (p : Fin 2000) (q : Fin 128), y = ix2 p q := ⟨y 0, y 1, eq_ix2 y⟩
  have hrow : 2000 * t.val + p.val < 50000 := by have := p.isLt; omega
  show k1_pay1 (iblk1 V c 0 t) (iblk1 V c 1 t) (ix2 p q) = _
  refine (pay1_apply (iblk1 V c 0 t) (iblk1 V c 1 t) p q).trans ?_
  rw [in1_apply V c t p q hrow, row1_apply V c t q]
  have h2 : ((cfg1.win 2).blk t).view.emb (ix2 p q) = (ix2 (⟨2000 * t.val + p.val, hrow⟩ : Fin 50000) q : S50000x128.Idx) := by
    funext a; apply Fin.ext
    match a with
    | ⟨0, _⟩ => show win1_2.index t (0 : Fin 2) * 2000 + 1 * p.val = 2000 * t.val + p.val; omega
    | ⟨1, _⟩ => show win1_2.index t (1 : Fin 2) * 128 + 1 * q.val = q.val; omega
  show _ = Cert.Spec.biasElu (V c main_v51) (V c main_v19) (((cfg1.win 2).blk t).view.emb (ix2 p q))
  rw [h2]
  rfl

/-- An index of the array is in grid point t's block iff each coordinate is in the block's range on its axis. -/
theorem mem_blk1 (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v52).slice (win1_2.rect t)).set ↔ _
  rw [View.set_slice_whole, Rect.mem_set_unit]
  exact Iff.rfl

/-- The 25 blocks of 2000 rows tile the 50000 rows: row r is in block r / 2000. -/
theorem cover1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 25 := N_1
  refine ⟨⟨(i 0).val / 2000, by rw [hN]; omega⟩, flush1_2 _, ?_⟩
  rw [mem_blk1]
  obtain ⟨-, -, -, -, e20, e21⟩ := idx1 ⟨(i 0).val / 2000, by rw [hN]; omega⟩
  intro a
  match a with
  | ⟨0, _⟩ =>
    show win1_2.index _ (0 : Fin 2) * 2000 ≤ (i 0).val ∧ (i 0).val < win1_2.index _ (0 : Fin 2) * 2000 + 2000
    rw [e20]; show (i 0).val / 2000 * 2000 ≤ (i 0).val ∧ (i 0).val < (i 0).val / 2000 * 2000 + 2000; omega
  | ⟨1, _⟩ =>
    show win1_2.index _ (1 : Fin 2) * 128 ≤ (i 1).val ∧ (i 1).val < win1_2.index _ (1 : Fin 2) * 128 + 128
    rw [e21]; omega

/-- The output array after the region: the bias added along the rows, then the exponential linear unit. -/
theorem arr1 (c : Dev nD) : (dat1 (F := Ideal) V c).arrAt 2 cfg1.N = Cert.Spec.biasElu (V c main_v51) (V c main_v19) :=
  (dat1 (F := Ideal) V c).arrAt_eq_of_cover 2 (Cert.Spec.biasElu (V c main_v51) (V c main_v19)) (fun t _ => flushed1 V c t) cover1

end Cert.KernelIdeal.Hand

end
-- ==== Proof.Region2.lean ====
/-
  Region 2: a matrix product, block by block.

  The region multiplies x : [50000, 128] by w : [128, 64] into a [50000, 64] array. Its grid has 25 points. At point t
  the body reads rows 2000 t … 2000 t + 1999 of x (all 128 columns) and the whole of w, and writes the same rows of the
  result (all 64 columns). Inside the body the operands are recast to their own shapes and x's block is rounded to the
  narrower format, both the identity on the extended reals, and the product is taken into a zero accumulator. So the
  block holds at (p, j)

      ∑ₖ x (2000 t + p, k) · w (k, j),

  which is entry (2000 t + p, j) of the whole product. The 25 blocks of 2000 rows tile the 50000 rows, so the array ends
  holding the whole product.

  * `idx2`: the three windows' block indices at point t, decided over the grid.
  * `pay2_apply`, `pay2_at`: the body's value at an index of the block, as the sum over k.
  * `mm_block2`: that value is an entry of the whole product once the two blocks are read off the arrays.
  * `flushed2_eq`: what point t writes back is block t of the whole product.
  * `mem_blk2`, `cover2`: row r lies in the block of point r / 2000.
  * `arr2`: the array after the region is the whole product.
-/
import proofs.«154903_j85899345920190_1_alg».proof.Proof.Gen.KernelIdeal.Frame
import proofs.«154903_j85899345920190_1_alg».proof.Proof.Spec
import proofs.«154903_j85899345920190_1_alg».proof.Proof.LibPlainDot
import proofs.«154903_j85899345920190_1_alg».proof.Proof.LibDotStd
import Idealize.ShloMosaic.Lib.Pipeline.Value
import Idealize.ShloMosaic.Lib.ValueIdx

noncomputable section

namespace Cert.KernelIdeal.Hand

open Idealize.ShloMosaic Idealize.ShloMosaic.ValueIdx Idealize.ShloMosaic.TcCoe Idealize.SL.Sem Cert.KernelIdeal Cert.KernelIdeal.Gen
open Idealize.ShloMosaic.Pipeline (Dat)

variable (V : (c : Dev nD) → (b : Ref sig .tc) → Buf (Elt Ideal) ((c : Thread nD τ).loc b))

/-- The zero offsets of a whole block, as a constant function. -/
theorem hz2 : (![0, 0] : Fin 2 → Nat) = fun _ => 0 := funext fun a => by fin_cases a <;> rfl

/-- The product's dimension numbers are in the standard orientation: no batch axes, x keeps its rows and contracts its
    columns, w contracts its rows and keeps its columns. -/
theorem std2 : Cert.LibDotStd.Std dot_S2000x128_S128x64_S2000x64_1_0_0_1_n_n := ⟨rfl, rfl, rfl, rfl, rfl, rfl⟩

/-- The block indices at point t: x's block is (t, 0), w's is (0, 0), the result's is (t, 0). -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The body's value at (p, j): ∑ₖ x₀ (p, k) · x₁ (k, j), the recasts and the rounding being the identity. -/
theorem pay2_apply (x0 : Vec Ideal S2000x128 .f32) (x1 : Vec Ideal S128x64 .bf16) (p : Fin 2000) (j : Fin 64) :
    k2_pay1 x0 x1 (ix2 p j) = ∑ k : Fin 128, x0 (ix2 p k) * x1 (ix2 k j) := by
  unfold k2_pay1
  simp only [shapeCast_self]
  exact Cert.LibDotStd.matmul_std_apply std2 none _ _ p j

/-- The same at any index y of the block, through its two coordinates. -/
theorem pay2_at (x0 : Vec Ideal S2000x128 .f32) (x1 : Vec Ideal S128x64 .bf16) (y : S2000x64.Idx) :
    k2_pay1 x0 x1 y = ∑ k : Fin 128, x0 (ix2 (y 0) k) * x1 (ix2 k (y 1)) :=
  (congrArg (k2_pay1 x0 x1) (eq_ix2 y)).trans (pay2_apply x0 x1 (y 0) (y 1))

/-- When row y₀ of the block x₀ is row i₀ of X and column y₁ of the block x₁ is column i₁ of W, the body's value at y
    is entry i of the product X · W. -/
theorem mm_block2 (X : S50000x128.Idx → EReal) (W : S128x64.Idx → EReal)
    (x0 : Vec Ideal S2000x128 .f32) (x1 : Vec Ideal S128x64 .bf16) (i : S50000x64.Idx) (y : S2000x64.Idx)
    (h0 : ∀ k : Fin 128, x0 (ix2 (y 0) k) = X (ix2 (i 0) k))
    (h1 : ∀ k : Fin 128, x1 (ix2 k (y 1)) = W (ix2 k (i 1))) :
    k2_pay1 x0 x1 y = Cert.Spec.mm X W i :=
  (pay2_at x0 x1 y).trans ((Finset.sum_congr rfl fun k _ => by rw [h0 k, h1 k]).trans
    ((congrArg (Cert.Spec.mm X W) (eq_ix2 i)).trans (Cert.Spec.mm_apply X W (i 0) (i 1))).symm)

/-- What point t writes back is block t of the product: at (p, j) of the block both sides are
    ∑ₖ x (2000 t + p, k) · w (k, j), x's block starting at row 2000 t and column 0, w's at row 0 and column 0, the
    result's at row 2000 t and column 0. -/
theorem flushed2_eq (c : Dev nD) (t : Fin cfg2.N) :
    (dat2 (F := Ideal) V c).flushed 2 t
      = ((cfg2.win 2).blk t).view.read (Elt Ideal) (Cert.Spec.mm (V c main_v52) (V c main_v16)) := by
  show (cfg2.win 2).cut (grid2.coords t) ((dat2 V c).after 2 t) = _
  rw [after2_2]
  unfold out2_2
  rw [View.canon_unit_zero hz2]
  simp only [View.ld_unit_zero (S := S2000x128) hz2, View.ld_unit_zero (S := S128x64) hz2]
  obtain ⟨e0, e1, e2, e3, e4, e5⟩ := idx2 t
  funext y
  have hy0 : (y 0).val < 2000 := (y 0).isLt
  have hy1 : (y 1).val < 64 := (y 1).isLt
  rw [View.read_apply]
  refine mm_block2 (V c main_v52) (V c main_v16) (iblk2 V c 0 t) (iblk2 V c 1 t)
    (((cfg2.win 2).blk t).view.emb y) ((cfg2.win 2).xinj (grid2.coords t) y) (fun k => ?_) (fun k => ?_)
  · -- x's block at (y₀, k) is x at (2000 t + y₀, k)
    unfold iblk2
    rw [View.read_apply]
    refine congrArg (V c main_v52 : S50000x128.Idx → EReal) (funext fun a => Fin.ext ?_)
    match a with
    | ⟨0, _⟩ =>
      show win2_0.index t (0 : Fin 2) * 2000 + 1 * (y 0).val = win2_2.index t (0 : Fin 2) * 2000 + 1 * (y 0).val
      omega
    | ⟨1, _⟩ =>
      show win2_0.index t (1 : Fin 2) * 128 + 1 * k.val = k.val
      omega
  · -- w's block at (k, y₁) is w at (k, y₁)
    unfold iblk2
    rw [View.read_apply]
    refine congrArg (V c main_v16 : S128x64.Idx → EReal) (funext fun a => Fin.ext ?_)
    match a with
    | ⟨0, _⟩ =>
      show win2_1.index t (0 : Fin 2) * 128 + 1 * k.val = k.val
      omega
    | ⟨1, _⟩ =>
      show win2_1.index t (1 : Fin 2) * 64 + 1 * (y 1).val = win2_2.index t (1 : Fin 2) * 64 + 1 * (y 1).val
      omega

/-- An index of the result lies in point t's block iff each coordinate lies in the block's range on its axis. -/
theorem mem_blk2 (t : Fin cfg2.N) (i : S50000x64.Idx) :
    i ∈ ((cfg2.win 2).blk t).view.set ↔ ∀ a : Fin 2, win2_2.index t a * S2000x64.size a ≤ (i a).val
      ∧ (i a).val < win2_2.index t a * S2000x64.size a + S2000x64.size a := by
  show i ∈ ((View.whole main_v53).slice (win2_2.rect t)).set ↔ _
  rw [View.set_slice_whole, Rect.mem_set_unit]
  exact Iff.rfl

/-- The blocks tile the result: row r lies in the block of point r / 2000, which is below 25 since r is below 50000,
    and every column lies in the one block of columns. -/
theorem cover2 (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  have hN : cfg2.N = 25 := N_2
  obtain ⟨t, ht⟩ : ∃ t : Fin cfg2.N, t.val = (i 0).val / 2000 := ⟨⟨(i 0).val / 2000, by rw [hN]; omega⟩, rfl⟩
  obtain ⟨-, -, -, -, e4, e5⟩ := idx2 t
  refine ⟨t, flush2_2 t, ?_⟩
  rw [mem_blk2]
  intro a
  match a with
  | ⟨0, _⟩ =>
    show win2_2.index t (0 : Fin 2) * 2000 ≤ (i 0).val ∧ (i 0).val < win2_2.index t (0 : Fin 2) * 2000 + 2000
    omega
  | ⟨1, _⟩ =>
    show win2_2.index t (1 : Fin 2) * 64 ≤ (i 1).val ∧ (i 1).val < win2_2.index t (1 : Fin 2) * 64 + 64
    omega

/-- The array after the region is the product of the two arrays as the region found them. -/
theorem arr2 (c : Dev nD) :
    (dat2 (F := Ideal) V c).arrAt 2 cfg2.N = Cert.Spec.mm (V c main_v52) (V c main_v16) :=
  (dat2 V c).arrAt_eq_of_cover 2 (Cert.Spec.mm (V c main_v52) (V c main_v16)) (fun t _ => flushed2_eq V c t) cover2

end Cert.KernelIdeal.Hand

end
-- ==== Proof.Region3.lean ====
/-
  The fourth region: a one-row matrix b : [1, 64] added along the rows of h : [50000, 64], written 2000 rows at a
  time over 25 grid points.

  Block t of the output holds, at (p, j),  h (2000·t + p, j) + b (0, j) : that is block t of the whole-array function
  bias h b,  (r, j) ↦ h (r, j) + b (0, j).  The 25 blocks of 2000 rows tile the 50000 rows (row r lies in block
  r / 2000), so the output array ends holding  bias h b.
-/
import proofs.«154903_j85899345920190_1_alg».proof.Proof.Gen.KernelIdeal.Frame
import proofs.«154903_j85899345920190_1_alg».proof.Proof.Spec
import Idealize.ShloMosaic.Lib.Pipeline.Value
import Idealize.ShloMosaic.Lib.ValueIdx
import Idealize.ShloMosaic.Lib.ValueLayout
import Idealize.ShloMosaic.Signature.View
import Idealize.ShloMosaic.Shape

noncomputable section

namespace Cert.KernelIdeal.Hand

open Idealize.ShloMosaic Idealize.ShloMosaic.ValueIdx Idealize.ShloMosaic.TcCoe Idealize.SL.Sem Cert.KernelIdeal Cert.KernelIdeal.Gen
open Idealize.ShloMosaic.Pipeline (Dat)

variable (V : (c : Dev nD) → (b : Ref sig .tc) → Buf (Elt Ideal) ((c : Thread nD τ).loc b))

/-- The zero offsets, however spelt. -/
theorem zeroOff3 : (![0, 0] : Fin 2 → Nat) = fun _ => 0 := funext fun a => by fin_cases a <;> rfl

/-- The stored value at row p, column j of a block: the block's entry plus the one-row operand's entry in that column. -/
theorem pay3_apply (x0 : Vec Ideal S2000x64 .f32) (x1 : Vec Ideal S1x64 .f32) (p : Fin 2000) (j : Fin 64) :
    k3_pay1 x0 x1 (ix2 p j) = x0 (ix2 p j) + x1 (ix2 (0 : Fin 1) j) := by
  have hb : broadcastTo S2000x64 x1 broadcasts_S1x64_S2000x64 (ix2 p j) = x1 (ix2 (0 : Fin 1) j) :=
    broadcastTo_1b_ab_apply x1 broadcasts_S1x64_S2000x64 p j
  unfold k3_pay1
  simp only [shapeCast_self]
  rw [addf_apply, hb]

/-- The block indices at grid point t: the row-block index is t for the input and the output, the one-row operand stays
    at block (0, 0). -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row p, column q of the input's block at grid point t is row 2000·t + p, column q of the input array. -/
theorem in3_apply (c : Dev nD) (t : Fin cfg3.N) (p : Fin 2000) (q : Fin 64) (hrow : 2000 * t.val + p.val < 50000) :
    (iblk3 V c 0 t : Vec Ideal S2000x64 .f32) (ix2 p q)
      = (V c main_v81 : S50000x64.Idx → EReal) (ix2 (⟨2000 * t.val + p.val, hrow⟩ : Fin 50000) q) := by
  obtain ⟨e00, e01, -⟩ := idx3 t
  show (V c main_v81 : S50000x64.Idx → EReal) (((cfg3.win 0).blk t).view.emb (ix2 p q)) = _
  refine congrArg (V c main_v81 : S50000x64.Idx → EReal) ?_
  funext a; apply Fin.ext
  match a with
  | ⟨0, _⟩ => show win3_0.index t (0 : Fin 2) * 2000 + 1 * p.val = 2000 * t.val + p.val; omega
  | ⟨1, _⟩ => show win3_0.index t (1 : Fin 2) * 64 + 1 * q.val = q.val; omega

/-- Column q of the one-row operand's block at any grid point is column q of the one-row array. -/
theorem row3_apply (c : Dev nD) (t : Fin cfg3.N) (q : Fin 64) :
    (iblk3 V c 1 t : Vec Ideal S1x64 .f32) (ix2 (0 : Fin 1) q) = (V c main_v20 : S1x64.Idx → EReal) (ix2 (0 : Fin 1) q) := by
  obtain ⟨-, -, e10, e11, -⟩ := idx3 t
  show (V c main_v20 : S1x64.Idx → EReal) (((cfg3.win 1).blk t).view.emb (ix2 (0 : Fin 1) q)) = _
  refine congrArg (V c main_v20 : S1x64.Idx → EReal) ?_
  funext a; apply Fin.ext
  match a with
  | ⟨0, _⟩ => show win3_1.index t (0 : Fin 2) * 1 + 1 * 0 = 0; omega
  | ⟨1, _⟩ => show win3_1.index t (1 : Fin 2) * 64 + 1 * q.val = q.val; omega

/-- What grid point t writes back is block t of the whole-array function. -/
theorem flushed3 (c : Dev nD) (t : Fin cfg3.N) :
    (dat3 (F := Ideal) V c).flushed 2 t
      = ((cfg3.win 2).blk t).view.read (Elt Ideal) (Cert.Spec.bias (V c main_v81) (V c main_v20)) := by
  show (cfg3.win 2).cut (grid3.coords t) ((dat3 V c).after 2 t) = _
  rw [after3_2]
  unfold out3_2
  rw [View.canon_unit_zero zeroOff3]
  simp only [View.ld_unit_zero (S := S2000x64) zeroOff3, View.ld_unit_zero (S := S1x64) zeroOff3]
  obtain ⟨-, -, -, -, e20, e21⟩ := idx3 t
  have ht : t.val < 25 := lt_of_lt_of_eq t.isLt N_3
  funext y
  obtain ⟨p, q, rfl⟩ : ∃ (p : Fin 2000) (q : Fin 64), y = ix2 p q := ⟨y 0, y 1, eq_ix2 y⟩
  have hrow : 2000 * t.val + p.val < 50000 := by have := p.isLt; omega
  show k3_pay1 (iblk3 V c 0 t) (iblk3 V c 1 t) (ix2 p q) = _
  refine (pay3_apply (iblk3 V c 0 t) (iblk3 V c 1 t) p q).trans ?_
  rw [in3_apply V c t p q hrow, row3_apply V c t q]
  have h2 : ((cfg3.win 2).blk t).view.emb (ix2 p q) = (ix2 (⟨2000 * t.val + p.val, hrow⟩ : Fin 50000) q : S50000x64.Idx) := by
    funext a; apply Fin.ext
    match a with
    | ⟨0, _⟩ => show win3_2.index t (0 : Fin 2) * 2000 + 1 * p.val = 2000 * t.val + p.val; omega
    | ⟨1, _⟩ => show win3_2.index t (1 : Fin 2) * 64 + 1 * q.val = q.val; omega
  show _ = Cert.Spec.bias (V c main_v81) (V c main_v20) (((cfg3.win 2).blk t).view.emb (ix2 p q))
  rw [h2]
  rfl

/-- An index of the array is in grid point t's block iff each coordinate is in the block's range on its axis. -/
theorem mem_blk3 (t : Fin cfg3.N) (i : S50000x64.Idx) :
    i ∈ ((cfg3.win 2).blk t).view.set ↔ ∀ a : Fin 2, win3_2.index t a * S2000x64.size a ≤ (i a).val ∧ (i a).val < win3_2.index t a * S2000x64.size a + S2000x64.size a := by
  show i ∈ ((View.whole main_v82).slice (win3_2.rect t)).set ↔ _
  rw [View.set_slice_whole, Rect.mem_set_unit]
  exact Iff.rfl

/-- The 25 blocks of 2000 rows tile the 50000 rows: row r is in block r / 2000. -/
theorem cover3 (i : S50000x64.Idx) :
    ∃ t : Fin cfg3.N, (cfg3.win 2).flush t = true ∧ i ∈ ((cfg3.win 2).blk t).view.set := by
  have hi0 : (i 0).val < 50000 := (i 0).isLt
  have hi1 : (i 1).val < 64 := (i 1).isLt
  have hN : cfg3.N = 25 := N_3
  refine ⟨⟨(i 0).val / 2000, by rw [hN]; omega⟩, flush3_2 _, ?_⟩
  rw [mem_blk3]
  obtain ⟨-, -, -, -, e20, e21⟩ := idx3 ⟨(i 0).val / 2000, by rw [hN]; omega⟩
  intro a
  match a with
  | ⟨0, _⟩ =>
    show win3_2.index _ (0 : Fin 2) * 2000 ≤ (i 0).val ∧ (i 0).val < win3_2.index _ (0 : Fin 2) * 2000 + 2000
    rw [e20]; show (i 0).val / 2000 * 2000 ≤ (i 0).val ∧ (i 0).val < (i 0).val / 2000 * 2000 + 2000; omega
  | ⟨1, _⟩ =>
    show win3_2.index _ (1 : Fin 2) * 64 ≤ (i 1).val ∧ (i 1).val < win3_2.index _ (1 : Fin 2) * 64 + 64
    rw [e21]; omega

/-- The output array after the region: the bias added along the rows. -/
theorem arr3 (c : Dev nD) : (dat3 (F := Ideal) V c).arrAt 2 cfg3.N = Cert.Spec.bias (V c main_v81) (V c main_v20) :=
  (dat3 (F := Ideal) V c).arrAt_eq_of_cover 2 (Cert.Spec.bias (V c main_v81) (V c main_v20)) (fun t _ => flushed3 V c t) cover3

end Cert.KernelIdeal.Hand

end
-- ==== Proof.Region4.lean ====
/-
  Region 4: a matrix product, block by block.

  The region multiplies x : [50000, 64] by w : [64, 128] into a [50000, 128] array. Its grid has 25 points. At point t
  the body reads rows 2000 t … 2000 t + 1999 of x (all 64 columns) and the whole of w, and writes the same rows of the
  result (all 128 columns). Inside the body the operands are recast to their own shapes and x's block is rounded to the
  narrower format, both the identity on the extended reals, and the product is taken into a zero accumulator. So the
  block holds at (p, j)

      ∑ₖ x (2000 t + p, k) · w (k, j),

  which is entry (2000 t + p, j) of the whole product. The 25 blocks of 2000 rows tile the 50000 rows, so the array ends
  holding the whole product.

  * `idx4`: the three windows' block indices at point t, decided over the grid.
  * `pay4_apply`, `pay4_at`: the body's value at an index of the block, as the sum over k.
  * `mm_block4`: that value is an entry of the whole product once the two blocks are read off the arrays.
  * `flushed4_eq`: what point t writes back is block t of the whole product.
  * `mem_blk4`, `cover4`: row r lies in the block of point r / 2000.
  * `arr4`: the array after the region is the whole product.
-/
import proofs.«154903_j85899345920190_1_alg».proof.Proof.Gen.KernelIdeal.Frame
import proofs.«154903_j85899345920190_1_alg».proof.Proof.Spec
import proofs.«154903_j85899345920190_1_alg».proof.Proof.LibPlainDot
import proofs.«154903_j85899345920190_1_alg».proof.Proof.LibDotStd
import Idealize.ShloMosaic.Lib.Pipeline.Value
import Idealize.ShloMosaic.Lib.ValueIdx

noncomputable section

namespace Cert.KernelIdeal.Hand

open Idealize.ShloMosaic Idealize.ShloMosaic.ValueIdx Idealize.ShloMosaic.TcCoe Idealize.SL.Sem Cert.KernelIdeal Cert.KernelIdeal.Gen
open Idealize.ShloMosaic.Pipeline (Dat)

variable (V : (c : Dev nD) → (b : Ref sig .tc) → Buf (Elt Ideal) ((c : Thread nD τ).loc b))

/-- The zero offsets of a whole block, as a constant function. -/
theorem hz4 : (![0, 0] : Fin 2 → Nat) = fun _ => 0 := funext fun a => by fin_cases a <;> rfl

/-- The product's dimension numbers are in the standard orientation: no batch axes, x keeps its rows and contracts its
    columns, w contracts its rows and keeps its columns. -/
theorem std4 : Cert.LibDotStd.Std dot_S2000x64_S64x128_S2000x128_1_0_0_1_n_n := ⟨rfl, rfl, rfl, rfl, rfl, rfl⟩

/-- The block indices at point t: x's block is (t, 0), w's is (0, 0), the result's is (t, 0). -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The body's value at (p, j): ∑ₖ x₀ (p, k) · x₁ (k, j), the recasts and the rounding being the identity. -/
theorem pay4_apply (x0 : Vec Ideal S2000x64 .f32) (x1 : Vec Ideal S64x128 .bf16) (p : Fin 2000) (j : Fin 128) :
    k4_pay1 x0 x1 (ix2 p j) = ∑ k : Fin 64, x0 (ix2 p k) * x1 (ix2 k j) := by
  unfold k4_pay1
  simp only [shapeCast_self]
  exact Cert.LibDotStd.matmul_std_apply std4 none _ _ p j

/-- The same at any index y of the block, through its two coordinates. -/
theorem pay4_at (x0 : Vec Ideal S2000x64 .f32) (x1 : Vec Ideal S64x128 .bf16) (y : S2000x128.Idx) :
    k4_pay1 x0 x1 y = ∑ k : Fin 64, x0 (ix2 (y 0) k) * x1 (ix2 k (y 1)) :=
  (congrArg (k4_pay1 x0 x1) (eq_ix2 y)).trans (pay4_apply x0 x1 (y 0) (y 1))

/-- When row y₀ of the block x₀ is row i₀ of X and column y₁ of the block x₁ is column i₁ of W, the body's value at y
    is entry i of the product X · W. -/
theorem mm_block4 (X : S50000x64.Idx → EReal) (W : S64x128.Idx → EReal)
    (x0 : Vec Ideal S2000x64 .f32) (x1 : Vec Ideal S64x128 .bf16) (i : S50000x128.Idx) (y : S2000x128.Idx)
    (h0 : ∀ k : Fin 64, x0 (ix2 (y 0) k) = X (ix2 (i 0) k))
    (h1 : ∀ k : Fin 64, x1 (ix2 k (y 1)) = W (ix2 k (i 1))) :
    k4_pay1 x0 x1 y = Cert.Spec.mm X W i :=
  (pay4_at x0 x1 y).trans ((Finset.sum_congr rfl fun k _ => by rw [h0 k, h1 k]).trans
    ((congrArg (Cert.Spec.mm X W) (eq_ix2 i)).trans (Cert.Spec.mm_apply X W (i 0) (i 1))).symm)

/-- What point t writes back is block t of the product: at (p, j) of the block both sides are
    ∑ₖ x (2000 t + p, k) · w (k, j), x's block starting at row 2000 t and column 0, w's at row 0 and column 0, the
    result's at row 2000 t and column 0. -/
theorem flushed4_eq (c : Dev nD) (t : Fin cfg4.N) :
    (dat4 (F := Ideal) V c).flushed 2 t
      = ((cfg4.win 2).blk t).view.read (Elt Ideal) (Cert.Spec.mm (V c main_v82) (V c main_v17)) := by
  show (cfg4.win 2).cut (grid4.coords t) ((dat4 V c).after 2 t) = _
  rw [after4_2]
  unfold out4_2
  rw [View.canon_unit_zero hz4]
  simp only [View.ld_unit_zero (S := S2000x64) hz4, View.ld_unit_zero (S := S64x128) hz4]
  obtain ⟨e0, e1, e2, e3, e4, e5⟩ := idx4 t
  funext y
  have hy0 : (y 0).val < 2000 := (y 0).isLt
  have hy1 : (y 1).val < 128 := (y 1).isLt
  rw [View.read_apply]
  refine mm_block4 (V c main_v82) (V c main_v17) (iblk4 V c 0 t) (iblk4 V c 1 t)
    (((cfg4.win 2).blk t).view.emb y) ((cfg4.win 2).xinj (grid4.coords t) y) (fun k => ?_) (fun k => ?_)
  · -- x's block at (y₀, k) is x at (2000 t + y₀, k)
    unfold iblk4
    rw [View.read_apply]
    refine congrArg (V c main_v82 : S50000x64.Idx → EReal) (funext fun a => Fin.ext ?_)
    match a with
    | ⟨0, _⟩ =>
      show win4_0.index t (0 : Fin 2) * 2000 + 1 * (y 0).val = win4_2.index t (0 : Fin 2) * 2000 + 1 * (y 0).val
      omega
    | ⟨1, _⟩ =>
      show win4_0.index t (1 : Fin 2) * 64 + 1 * k.val = k.val
      omega
  · -- w's block at (k, y₁) is w at (k, y₁)
    unfold iblk4
    rw [View.read_apply]
    refine congrArg (V c main_v17 : S64x128.Idx → EReal) (funext fun a => Fin.ext ?_)
    match a with
    | ⟨0, _⟩ =>
      show win4_1.index t (0 : Fin 2) * 64 + 1 * k.val = k.val
      omega
    | ⟨1, _⟩ =>
      show win4_1.index t (1 : Fin 2) * 128 + 1 * (y 1).val = win4_2.index t (1 : Fin 2) * 128 + 1 * (y 1).val
      omega

/-- An index of the result lies in point t's block iff each coordinate lies in the block's range on its axis. -/
theorem mem_blk4 (t : Fin cfg4.N) (i : S50000x128.Idx) :
    i ∈ ((cfg4.win 2).blk t).view.set ↔ ∀ a : Fin 2, win4_2.index t a * S2000x128.size a ≤ (i a).val
      ∧ (i a).val < win4_2.index t a * S2000x128.size a + S2000x128.size a := by
  show i ∈ ((View.whole main_v83).slice (win4_2.rect t)).set ↔ _
  rw [View.set_slice_whole, Rect.mem_set_unit]
  exact Iff.rfl

/-- The blocks tile the result: row r lies in the block of point r / 2000, which is below 25 since r is below 50000,
    and every column lies in the one block of columns. -/
theorem cover4 (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  have hN : cfg4.N = 25 := N_4
  obtain ⟨t, ht⟩ : ∃ t : Fin cfg4.N, t.val = (i 0).val / 2000 := ⟨⟨(i 0).val / 2000, by rw [hN]; omega⟩, rfl⟩
  obtain ⟨-, -, -, -, e4, e5⟩ := idx4 t
  refine ⟨t, flush4_2 t, ?_⟩
  rw [mem_blk4]
  intro a
  match a with
  | ⟨0, _⟩ =>
    show win4_2.index t (0 : Fin 2) * 2000 ≤ (i 0).val ∧ (i 0).val < win4_2.index t (0 : Fin 2) * 2000 + 2000
    omega
  | ⟨1, _⟩ =>
    show win4_2.index t (1 : Fin 2) * 128 ≤ (i 1).val ∧ (i 1).val < win4_2.index t (1 : Fin 2) * 128 + 128
    omega

/-- The array after the region is the product of the two arrays as the region found them. -/
theorem arr4 (c : Dev nD) :
    (dat4 (F := Ideal) V c).arrAt 2 cfg4.N = Cert.Spec.mm (V c main_v82) (V c main_v17) :=
  (dat4 V c).arrAt_eq_of_cover 2 (Cert.Spec.mm (V c main_v82) (V c main_v17)) (fun t _ => flushed4_eq V c t) cover4

end Cert.KernelIdeal.Hand

end
-- ==== Proof.Region5.lean ====
/-
  The sixth region: a one-row matrix b : [1, 128] added along the rows of h : [50000, 128], then the exponential
  linear unit, written 2000 rows at a time over 25 grid points.

  Block t of the output holds, at (p, j),  elu (h (2000·t + p, j) + b (0, j)) : that is block t of the whole-array
  function  biasElu h b,  (r, j) ↦ elu (h (r, j) + b (0, j)).  The 25 blocks of 2000 rows tile the 50000 rows (row r
  lies in block r / 2000), so the output array ends holding  biasElu h b.
-/
import proofs.«154903_j85899345920190_1_alg».proof.Proof.Gen.KernelIdeal.Frame
import proofs.«154903_j85899345920190_1_alg».proof.Proof.Spec
import Idealize.ShloMosaic.Lib.Pipeline.Value
import Idealize.ShloMosaic.Lib.ValueIdx
import Idealize.ShloMosaic.Lib.ValueLayout
import Idealize.ShloMosaic.Signature.View
import Idealize.ShloMosaic.Shape

noncomputable section

namespace Cert.KernelIdeal.Hand

open Idealize.ShloMosaic Idealize.ShloMosaic.ValueIdx Idealize.ShloMosaic.TcCoe Idealize.SL.Sem Cert.KernelIdeal Cert.KernelIdeal.Gen
open Idealize.ShloMosaic.Pipeline (Dat)

variable (V : (c : Dev nD) → (b : Ref sig .tc) → Buf (Elt Ideal) ((c : Thread nD τ).loc b))

/-- The zero offsets, however spelt. -/
theorem zeroOff5 : (![0, 0] : Fin 2 → Nat) = fun _ => 0 := funext fun a => by fin_cases a <;> rfl

/-- The stored value at row p, column j of a block: the exponential linear unit of the block's entry plus the one-row
    operand's entry in that column. -/
theorem pay5_apply (x0 : Vec Ideal S2000x128 .f32) (x1 : Vec Ideal S1x128 .f32) (p : Fin 2000) (j : Fin 128) :
    k5_pay1 x0 x1 (ix2 p j) = Cert.Spec.elu (x0 (ix2 p j) + x1 (ix2 (0 : Fin 1) j)) := by
  have hb : broadcastTo S2000x128 x1 broadcasts_S1x128_S2000x128 (ix2 p j) = x1 (ix2 (0 : Fin 1) j) :=
    broadcastTo_1b_ab_apply x1 broadcasts_S1x128_S2000x128 p j
  unfold k5_pay1
  simp only [shapeCast_self]
  rw [select_apply, cmpf_apply, subf_apply, addf_apply, broadcast_apply, broadcast_apply]
  show Scalar.select (Ideal.cmp .ogt (x0 (ix2 p j) + broadcastTo S2000x128 x1 broadcasts_S1x128_S2000x128 (ix2 p j)) (Ideal.ofBits .f32 0x00000000#32))
      (x0 (ix2 p j) + broadcastTo S2000x128 x1 broadcasts_S1x128_S2000x128 (ix2 p j))
      (Ideal.exp (x0 (ix2 p j) + broadcastTo S2000x128 x1 broadcasts_S1x128_S2000x128 (ix2 p j)) - Ideal.ofBits .f32 0x3F800000#32) = _
  rw [hb, Cert.Spec.ofBits_zero, Cert.Spec.ofBits_one]
  rfl

/-- The block indices at grid point t: the row-block index is t for the input and the output, the one-row operand stays
    at block (0, 0). -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- Row p, column q of the input's block at grid point t is row 2000·t + p, column q of the input array. -/
theorem in5_apply (c : Dev nD) (t : Fin cfg5.N) (p : Fin 2000) (q : Fin 128) (hrow : 2000 * t.val + p.val < 50000) :
    (iblk5 V c 0 t : Vec Ideal S2000x128 .f32) (ix2 p q)
      = (V c main_v111 : S50000x128.Idx → EReal) (ix2 (⟨2000 * t.val + p.val, hrow⟩ : Fin 50000) q) := by
  obtain ⟨e00, e01, -⟩ := idx5 t
  show (V c main_v111 : S50000x128.Idx → EReal) (((cfg5.win 0).blk t).view.emb (ix2 p q)) = _
  refine congrArg (V c main_v111 : S50000x128.Idx → EReal) ?_
  funext a; apply Fin.ext
  match a with
  | ⟨0, _⟩ => show win5_0.index t (0 : Fin 2) * 2000 + 1 * p.val = 2000 * t.val + p.val; omega
  | ⟨1, _⟩ => show win5_0.index t (1 : Fin 2) * 128 + 1 * q.val = q.val; omega

/-- Column q of the one-row operand's block at any grid point is column q of the one-row array. -/
theorem row5_apply (c : Dev nD) (t : Fin cfg5.N) (q : Fin 128) :
    (iblk5 V c 1 t : Vec Ideal S1x128 .f32) (ix2 (0 : Fin 1) q) = (V c main_v21 : S1x128.Idx → EReal) (ix2 (0 : Fin 1) q) := by
  obtain ⟨-, -, e10, e11, -⟩ := idx5 t
  show (V c main_v21 : S1x128.Idx → EReal) (((cfg5.win 1).blk t).view.emb (ix2 (0 : Fin 1) q)) = _
  refine congrArg (V c main_v21 : S1x128.Idx → EReal) ?_
  funext a; apply Fin.ext
  match a with
  | ⟨0, _⟩ => show win5_1.index t (0 : Fin 2) * 1 + 1 * 0 = 0; omega
  | ⟨1, _⟩ => show win5_1.index t (1 : Fin 2) * 128 + 1 * q.val = q.val; omega

/-- What grid point t writes back is block t of the whole-array function. -/
theorem flushed5 (c : Dev nD) (t : Fin cfg5.N) :
    (dat5 (F := Ideal) V c).flushed 2 t
      = ((cfg5.win 2).blk t).view.read (Elt Ideal) (Cert.Spec.biasElu (V c main_v111) (V c main_v21)) := by
  show (cfg5.win 2).cut (grid5.coords t) ((dat5 V c).after 2 t) = _
  rw [after5_2]
  unfold out5_2
  rw [View.canon_unit_zero zeroOff5]
  simp only [View.ld_unit_zero (S := S2000x128) zeroOff5, View.ld_unit_zero (S := S1x128) zeroOff5]
  obtain ⟨-, -, -, -, e20, e21⟩ := idx5 t
  have ht : t.val < 25 := lt_of_lt_of_eq t.isLt N_5
  funext y
  obtain ⟨p, q, rfl⟩ : ∃ (p : Fin 2000) (q : Fin 128), y = ix2 p q := ⟨y 0, y 1, eq_ix2 y⟩
  have hrow : 2000 * t.val + p.val < 50000 := by have := p.isLt; omega
  show k5_pay1 (iblk5 V c 0 t) (iblk5 V c 1 t) (ix2 p q) = _
  refine (pay5_apply (iblk5 V c 0 t) (iblk5 V c 1 t) p q).trans ?_
  rw [in5_apply V c t p q hrow, row5_apply V c t q]
  have h2 : ((cfg5.win 2).blk t).view.emb (ix2 p q) = (ix2 (⟨2000 * t.val + p.val, hrow⟩ : Fin 50000) q : S50000x128.Idx) := by
    funext a; apply Fin.ext
    match a with
    | ⟨0, _⟩ => show win5_2.index t (0 : Fin 2) * 2000 + 1 * p.val = 2000 * t.val + p.val; omega
    | ⟨1, _⟩ => show win5_2.index t (1 : Fin 2) * 128 + 1 * q.val = q.val; omega
  show _ = Cert.Spec.biasElu (V c main_v111) (V c main_v21) (((cfg5.win 2).blk t).view.emb (ix2 p q))
  rw [h2]
  rfl

/-- An index of the array is in grid point t's block iff each coordinate is in the block's range on its axis. -/
theorem mem_blk5 (t : Fin cfg5.N) (i : S50000x128.Idx) :
    i ∈ ((cfg5.win 2).blk t).view.set ↔ ∀ a : Fin 2, win5_2.index t a * S2000x128.size a ≤ (i a).val ∧ (i a).val < win5_2.index t a * S2000x128.size a + S2000x128.size a := by
  show i ∈ ((View.whole main_v112).slice (win5_2.rect t)).set ↔ _
  rw [View.set_slice_whole, Rect.mem_set_unit]
  exact Iff.rfl

/-- The 25 blocks of 2000 rows tile the 50000 rows: row r is in block r / 2000. -/
theorem cover5 (i : S50000x128.Idx) :
    ∃ t : Fin cfg5.N, (cfg5.win 2).flush t = true ∧ i ∈ ((cfg5.win 2).blk t).view.set := by
  have hi0 : (i 0).val < 50000 := (i 0).isLt
  have hi1 : (i 1).val < 128 := (i 1).isLt
  have hN : cfg5.N = 25 := N_5
  refine ⟨⟨(i 0).val / 2000, by rw [hN]; omega⟩, flush5_2 _, ?_⟩
  rw [mem_blk5]
  obtain ⟨-, -, -, -, e20, e21⟩ := idx5 ⟨(i 0).val / 2000, by rw [hN]; omega⟩
  intro a
  match a with
  | ⟨0, _⟩ =>
    show win5_2.index _ (0 : Fin 2) * 2000 ≤ (i 0).val ∧ (i 0).val < win5_2.index _ (0 : Fin 2) * 2000 + 2000
    rw [e20]; show (i 0).val / 2000 * 2000 ≤ (i 0).val ∧ (i 0).val < (i 0).val / 2000 * 2000 + 2000; omega
  | ⟨1, _⟩ =>
    show win5_2.index _ (1 : Fin 2) * 128 ≤ (i 1).val ∧ (i 1).val < win5_2.index _ (1 : Fin 2) * 128 + 128
    rw [e21]; omega

/-- The output array after the region: the bias added along the rows, then the exponential linear unit. -/
theorem arr5 (c : Dev nD) : (dat5 (F := Ideal) V c).arrAt 2 cfg5.N = Cert.Spec.biasElu (V c main_v111) (V c main_v21) :=
  (dat5 (F := Ideal) V c).arrAt_eq_of_cover 2 (Cert.Spec.biasElu (V c main_v111) (V c main_v21)) (fun t _ => flushed5 V c t) cover5

end Cert.KernelIdeal.Hand

end
-- ==== Proof.Region6.lean ====
/-
  Region 6: a matrix product, block by block.

  The region multiplies x : [50000, 128] by w : [128, 256] into a [50000, 256] array. Its grid has 25 points. At point t
  the body reads rows 2000 t … 2000 t + 1999 of x (all 128 columns) and the whole of w, and writes the same rows of the
  result (all 256 columns). Inside the body the operands are recast to their own shapes and x's block is rounded to the
  narrower format, both the identity on the extended reals, and the product is taken into a zero accumulator. So the
  block holds at (p, j)

      ∑ₖ x (2000 t + p, k) · w (k, j),

  which is entry (2000 t + p, j) of the whole product. The 25 blocks of 2000 rows tile the 50000 rows, so the array ends
  holding the whole product.

  * `idx6`: the three windows' block indices at point t, decided over the grid.
  * `pay6_apply`, `pay6_at`: the body's value at an index of the block, as the sum over k.
  * `mm_block6`: that value is an entry of the whole product once the two blocks are read off the arrays.
  * `flushed6_eq`: what point t writes back is block t of the whole product.
  * `mem_blk6`, `cover6`: row r lies in the block of point r / 2000.
  * `arr6`: the array after the region is the whole product.
-/
import proofs.«154903_j85899345920190_1_alg».proof.Proof.Gen.KernelIdeal.Frame
import proofs.«154903_j85899345920190_1_alg».proof.Proof.Spec
import proofs.«154903_j85899345920190_1_alg».proof.Proof.LibPlainDot
import proofs.«154903_j85899345920190_1_alg».proof.Proof.LibDotStd
import Idealize.ShloMosaic.Lib.Pipeline.Value
import Idealize.ShloMosaic.Lib.ValueIdx

noncomputable section

namespace Cert.KernelIdeal.Hand

open Idealize.ShloMosaic Idealize.ShloMosaic.ValueIdx Idealize.ShloMosaic.TcCoe Idealize.SL.Sem Cert.KernelIdeal Cert.KernelIdeal.Gen
open Idealize.ShloMosaic.Pipeline (Dat)

variable (V : (c : Dev nD) → (b : Ref sig .tc) → Buf (Elt Ideal) ((c : Thread nD τ).loc b))

/-- The zero offsets of a whole block, as a constant function. -/
theorem hz6 : (![0, 0] : Fin 2 → Nat) = fun _ => 0 := funext fun a => by fin_cases a <;> rfl

/-- The product's dimension numbers are in the standard orientation: no batch axes, x keeps its rows and contracts its
    columns, w contracts its rows and keeps its columns. -/
theorem std6 : Cert.LibDotStd.Std dot_S2000x128_S128x256_S2000x256_1_0_0_1_n_n := ⟨rfl, rfl, rfl, rfl, rfl, rfl⟩

/-- The block indices at point t: x's block is (t, 0), w's is (0, 0), the result's is (t, 0). -/
theorem idx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- The body's value at (p, j): ∑ₖ x₀ (p, k) · x₁ (k, j), the recasts and the rounding being the identity. -/
theorem pay6_apply (x0 : Vec Ideal S2000x128 .f32) (x1 : Vec Ideal S128x256 .bf16) (p : Fin 2000) (j : Fin 256) :
    k6_pay1 x0 x1 (ix2 p j) = ∑ k : Fin 128, x0 (ix2 p k) * x1 (ix2 k j) := by
  unfold k6_pay1
  simp only [shapeCast_self]
  exact Cert.LibDotStd.matmul_std_apply std6 none _ _ p j

/-- The same at any index y of the block, through its two coordinates. -/
theorem pay6_at (x0 : Vec Ideal S2000x128 .f32) (x1 : Vec Ideal S128x256 .bf16) (y : S2000x256.Idx) :
    k6_pay1 x0 x1 y = ∑ k : Fin 128, x0 (ix2 (y 0) k) * x1 (ix2 k (y 1)) :=
  (congrArg (k6_pay1 x0 x1) (eq_ix2 y)).trans (pay6_apply x0 x1 (y 0) (y 1))

/-- When row y₀ of the block x₀ is row i₀ of X and column y₁ of the block x₁ is column i₁ of W, the body's value at y
    is entry i of the product X · W. -/
theorem mm_block6 (X : S50000x128.Idx → EReal) (W : S128x256.Idx → EReal)
    (x0 : Vec Ideal S2000x128 .f32) (x1 : Vec Ideal S128x256 .bf16) (i : S50000x256.Idx) (y : S2000x256.Idx)
    (h0 : ∀ k : Fin 128, x0 (ix2 (y 0) k) = X (ix2 (i 0) k))
    (h1 : ∀ k : Fin 128, x1 (ix2 k (y 1)) = W (ix2 k (i 1))) :
    k6_pay1 x0 x1 y = Cert.Spec.mm X W i :=
  (pay6_at x0 x1 y).trans ((Finset.sum_congr rfl fun k _ => by rw [h0 k, h1 k]).trans
    ((congrArg (Cert.Spec.mm X W) (eq_ix2 i)).trans (Cert.Spec.mm_apply X W (i 0) (i 1))).symm)

/-- What point t writes back is block t of the product: at (p, j) of the block both sides are
    ∑ₖ x (2000 t + p, k) · w (k, j), x's block starting at row 2000 t and column 0, w's at row 0 and column 0, the
    result's at row 2000 t and column 0. -/
theorem flushed6_eq (c : Dev nD) (t : Fin cfg6.N) :
    (dat6 (F := Ideal) V c).flushed 2 t
      = ((cfg6.win 2).blk t).view.read (Elt Ideal) (Cert.Spec.mm (V c main_v112) (V c main_v18)) := by
  show (cfg6.win 2).cut (grid6.coords t) ((dat6 V c).after 2 t) = _
  rw [after6_2]
  unfold out6_2
  rw [View.canon_unit_zero hz6]
  simp only [View.ld_unit_zero (S := S2000x128) hz6, View.ld_unit_zero (S := S128x256) hz6]
  obtain ⟨e0, e1, e2, e3, e4, e5⟩ := idx6 t
  funext y
  have hy0 : (y 0).val < 2000 := (y 0).isLt
  have hy1 : (y 1).val < 256 := (y 1).isLt
  rw [View.read_apply]
  refine mm_block6 (V c main_v112) (V c main_v18) (iblk6 V c 0 t) (iblk6 V c 1 t)
    (((cfg6.win 2).blk t).view.emb y) ((cfg6.win 2).xinj (grid6.coords t) y) (fun k => ?_) (fun k => ?_)
  · -- x's block at (y₀, k) is x at (2000 t + y₀, k)
    unfold iblk6
    rw [View.read_apply]
    refine congrArg (V c main_v112 : S50000x128.Idx → EReal) (funext fun a => Fin.ext ?_)
    match a with
    | ⟨0, _⟩ =>
      show win6_0.index t (0 : Fin 2) * 2000 + 1 * (y 0).val = win6_2.index t (0 : Fin 2) * 2000 + 1 * (y 0).val
      omega
    | ⟨1, _⟩ =>
      show win6_0.index t (1 : Fin 2) * 128 + 1 * k.val = k.val
      omega
  · -- w's block at (k, y₁) is w at (k, y₁)
    unfold iblk6
    rw [View.read_apply]
    refine congrArg (V c main_v18 : S128x256.Idx → EReal) (funext fun a => Fin.ext ?_)
    match a with
    | ⟨0, _⟩ =>
      show win6_1.index t (0 : Fin 2) * 128 + 1 * k.val = k.val
      omega
    | ⟨1, _⟩ =>
      show win6_1.index t (1 : Fin 2) * 256 + 1 * (y 1).val = win6_2.index t (1 : Fin 2) * 256 + 1 * (y 1).val
      omega

/-- An index of the result lies in point t's block iff each coordinate lies in the block's range on its axis. -/
theorem mem_blk6 (t : Fin cfg6.N) (i : S50000x256.Idx) :
    i ∈ ((cfg6.win 2).blk t).view.set ↔ ∀ a : Fin 2, win6_2.index t a * S2000x256.size a ≤ (i a).val
      ∧ (i a).val < win6_2.index t a * S2000x256.size a + S2000x256.size a := by
  show i ∈ ((View.whole main_v113).slice (win6_2.rect t)).set ↔ _
  rw [View.set_slice_whole, Rect.mem_set_unit]
  exact Iff.rfl

/-- The blocks tile the result: row r lies in the block of point r / 2000, which is below 25 since r is below 50000,
    and every column lies in the one block of columns. -/
theorem cover6 (i : S50000x256.Idx) :
    ∃ t : Fin cfg6.N, (cfg6.win 2).flush t = true ∧ i ∈ ((cfg6.win 2).blk t).view.set := by
  have hi0 : (i 0).val < 50000 := (i 0).isLt
  have hi1 : (i 1).val < 256 := (i 1).isLt
  have hN : cfg6.N = 25 := N_6
  obtain ⟨t, ht⟩ : ∃ t : Fin cfg6.N, t.val = (i 0).val / 2000 := ⟨⟨(i 0).val / 2000, by rw [hN]; omega⟩, rfl⟩
  obtain ⟨-, -, -, -, e4, e5⟩ := idx6 t
  refine ⟨t, flush6_2 t, ?_⟩
  rw [mem_blk6]
  intro a
  match a with
  | ⟨0, _⟩ =>
    show win6_2.index t (0 : Fin 2) * 2000 ≤ (i 0).val ∧ (i 0).val < win6_2.index t (0 : Fin 2) * 2000 + 2000
    omega
  | ⟨1, _⟩ =>
    show win6_2.index t (1 : Fin 2) * 256 ≤ (i 1).val ∧ (i 1).val < win6_2.index t (1 : Fin 2) * 256 + 256
    omega

/-- The array after the region is the product of the two arrays as the region found them. -/
theorem arr6 (c : Dev nD) :
    (dat6 (F := Ideal) V c).arrAt 2 cfg6.N = Cert.Spec.mm (V c main_v112) (V c main_v18) :=
  (dat6 V c).arrAt_eq_of_cover 2 (Cert.Spec.mm (V c main_v112) (V c main_v18)) (fun t _ => flushed6_eq V c t) cover6

end Cert.KernelIdeal.Hand

end
-- ==== Proof.Region7.lean ====
/-
  The eighth region: a one-row matrix b : [1, 256] added along the rows of h : [50000, 256], written 2000 rows at a
  time over 25 grid points.

  Block t of the output holds, at (p, j),  h (2000·t + p, j) + b (0, j) : that is block t of the whole-array function
  bias h b,  (r, j) ↦ h (r, j) + b (0, j).  The 25 blocks of 2000 rows tile the 50000 rows (row r lies in block
  r / 2000), so the output array ends holding  bias h b.
-/
import proofs.«154903_j85899345920190_1_alg».proof.Proof.Gen.KernelIdeal.Frame
import proofs.«154903_j85899345920190_1_alg».proof.Proof.Spec
import Idealize.ShloMosaic.Lib.Pipeline.Value
import Idealize.ShloMosaic.Lib.ValueIdx
import Idealize.ShloMosaic.Lib.ValueLayout
import Idealize.ShloMosaic.Signature.View
import Idealize.ShloMosaic.Shape

noncomputable section

namespace Cert.KernelIdeal.Hand

open Idealize.ShloMosaic Idealize.ShloMosaic.ValueIdx Idealize.ShloMosaic.TcCoe Idealize.SL.Sem Cert.KernelIdeal Cert.KernelIdeal.Gen
open Idealize.ShloMosaic.Pipeline (Dat)

variable (V : (c : Dev nD) → (b : Ref sig .tc) → Buf (Elt Ideal) ((c : Thread nD τ).loc b))

/-- The zero offsets, however spelt. -/
theorem zeroOff7 : (![0, 0] : Fin 2 → Nat) = fun _ => 0 := funext fun a => by fin_cases a <;> rfl

/-- The stored value at row p, column j of a block: the block's entry plus the one-row operand's entry in that column. -/
theorem pay7_apply (x0 : Vec Ideal S2000x256 .f32) (x1 : Vec Ideal S1x256 .f32) (p : Fin 2000) (j : Fin 256) :
    k7_pay1 x0 x1 (ix2 p j) = x0 (ix2 p j) + x1 (ix2 (0 : Fin 1) j) := by
  have hb : broadcastTo S2000x256 x1 broadcasts_S1x256_S2000x256 (ix2 p j) = x1 (ix2 (0 : Fin 1) j) :=
    broadcastTo_1b_ab_apply x1 broadcasts_S1x256_S2000x256 p j
  unfold k7_pay1
  simp only [shapeCast_self]
  rw [addf_apply, hb]

/-- The block indices at grid point t: the row-block index is t for the input and the output, the one-row operand stays
    at block (0, 0). -/
theorem idx7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- Row p, column q of the input's block at grid point t is row 2000·t + p, column q of the input array. -/
theorem in7_apply (c : Dev nD) (t : Fin cfg7.N) (p : Fin 2000) (q : Fin 256) (hrow : 2000 * t.val + p.val < 50000) :
    (iblk7 V c 0 t : Vec Ideal S2000x256 .f32) (ix2 p q)
      = (V c main_v141 : S50000x256.Idx → EReal) (ix2 (⟨2000 * t.val + p.val, hrow⟩ : Fin 50000) q) := by
  obtain ⟨e00, e01, -⟩ := idx7 t
  show (V c main_v141 : S50000x256.Idx → EReal) (((cfg7.win 0).blk t).view.emb (ix2 p q)) = _
  refine congrArg (V c main_v141 : S50000x256.Idx → EReal) ?_
  funext a; apply Fin.ext
  match a with
  | ⟨0, _⟩ => show win7_0.index t (0 : Fin 2) * 2000 + 1 * p.val = 2000 * t.val + p.val; omega
  | ⟨1, _⟩ => show win7_0.index t (1 : Fin 2) * 256 + 1 * q.val = q.val; omega

/-- Column q of the one-row operand's block at any grid point is column q of the one-row array. -/
theorem row7_apply (c : Dev nD) (t : Fin cfg7.N) (q : Fin 256) :
    (iblk7 V c 1 t : Vec Ideal S1x256 .f32) (ix2 (0 : Fin 1) q) = (V c main_v22 : S1x256.Idx → EReal) (ix2 (0 : Fin 1) q) := by
  obtain ⟨-, -, e10, e11, -⟩ := idx7 t
  show (V c main_v22 : S1x256.Idx → EReal) (((cfg7.win 1).blk t).view.emb (ix2 (0 : Fin 1) q)) = _
  refine congrArg (V c main_v22 : S1x256.Idx → EReal) ?_
  funext a; apply Fin.ext
  match a with
  | ⟨0, _⟩ => show win7_1.index t (0 : Fin 2) * 1 + 1 * 0 = 0; omega
  | ⟨1, _⟩ => show win7_1.index t (1 : Fin 2) * 256 + 1 * q.val = q.val; omega

/-- What grid point t writes back is block t of the whole-array function. -/
theorem flushed7 (c : Dev nD) (t : Fin cfg7.N) :
    (dat7 (F := Ideal) V c).flushed 2 t
      = ((cfg7.win 2).blk t).view.read (Elt Ideal) (Cert.Spec.bias (V c main_v141) (V c main_v22)) := by
  show (cfg7.win 2).cut (grid7.coords t) ((dat7 V c).after 2 t) = _
  rw [after7_2]
  unfold out7_2
  rw [View.canon_unit_zero zeroOff7]
  simp only [View.ld_unit_zero (S := S2000x256) zeroOff7, View.ld_unit_zero (S := S1x256) zeroOff7]
  obtain ⟨-, -, -, -, e20, e21⟩ := idx7 t
  have ht : t.val < 25 := lt_of_lt_of_eq t.isLt N_7
  funext y
  obtain ⟨p, q, rfl⟩ : ∃ (p : Fin 2000) (q : Fin 256), y = ix2 p q := ⟨y 0, y 1, eq_ix2 y⟩
  have hrow : 2000 * t.val + p.val < 50000 := by have := p.isLt; omega
  show k7_pay1 (iblk7 V c 0 t) (iblk7 V c 1 t) (ix2 p q) = _
  refine (pay7_apply (iblk7 V c 0 t) (iblk7 V c 1 t) p q).trans ?_
  rw [in7_apply V c t p q hrow, row7_apply V c t q]
  have h2 : ((cfg7.win 2).blk t).view.emb (ix2 p q) = (ix2 (⟨2000 * t.val + p.val, hrow⟩ : Fin 50000) q : S50000x256.Idx) := by
    funext a; apply Fin.ext
    match a with
    | ⟨0, _⟩ => show win7_2.index t (0 : Fin 2) * 2000 + 1 * p.val = 2000 * t.val + p.val; omega
    | ⟨1, _⟩ => show win7_2.index t (1 : Fin 2) * 256 + 1 * q.val = q.val; omega
  show _ = Cert.Spec.bias (V c main_v141) (V c main_v22) (((cfg7.win 2).blk t).view.emb (ix2 p q))
  rw [h2]
  rfl

/-- An index of the array is in grid point t's block iff each coordinate is in the block's range on its axis. -/
theorem mem_blk7 (t : Fin cfg7.N) (i : S50000x256.Idx) :
    i ∈ ((cfg7.win 2).blk t).view.set ↔ ∀ a : Fin 2, win7_2.index t a * S2000x256.size a ≤ (i a).val ∧ (i a).val < win7_2.index t a * S2000x256.size a + S2000x256.size a := by
  show i ∈ ((View.whole main_v142).slice (win7_2.rect t)).set ↔ _
  rw [View.set_slice_whole, Rect.mem_set_unit]
  exact Iff.rfl

/-- The 25 blocks of 2000 rows tile the 50000 rows: row r is in block r / 2000. -/
theorem cover7 (i : S50000x256.Idx) :
    ∃ t : Fin cfg7.N, (cfg7.win 2).flush t = true ∧ i ∈ ((cfg7.win 2).blk t).view.set := by
  have hi0 : (i 0).val < 50000 := (i 0).isLt
  have hi1 : (i 1).val < 256 := (i 1).isLt
  have hN : cfg7.N = 25 := N_7
  refine ⟨⟨(i 0).val / 2000, by rw [hN]; omega⟩, flush7_2 _, ?_⟩
  rw [mem_blk7]
  obtain ⟨-, -, -, -, e20, e21⟩ := idx7 ⟨(i 0).val / 2000, by rw [hN]; omega⟩
  intro a
  match a with
  | ⟨0, _⟩ =>
    show win7_2.index _ (0 : Fin 2) * 2000 ≤ (i 0).val ∧ (i 0).val < win7_2.index _ (0 : Fin 2) * 2000 + 2000
    rw [e20]; show (i 0).val / 2000 * 2000 ≤ (i 0).val ∧ (i 0).val < (i 0).val / 2000 * 2000 + 2000; omega
  | ⟨1, _⟩ =>
    show win7_2.index _ (1 : Fin 2) * 256 ≤ (i 1).val ∧ (i 1).val < win7_2.index _ (1 : Fin 2) * 256 + 256
    rw [e21]; omega

/-- The output array after the region: the bias added along the rows. -/
theorem arr7 (c : Dev nD) : (dat7 (F := Ideal) V c).arrAt 2 cfg7.N = Cert.Spec.bias (V c main_v141) (V c main_v22) :=
  (dat7 (F := Ideal) V c).arrAt_eq_of_cover 2 (Cert.Spec.bias (V c main_v141) (V c main_v22)) (fun t _ => flushed7 V c t) cover7

end Cert.KernelIdeal.Hand

end
-- ==== Proof.KChain.lean ====
/-
  The kernel's two results as functions of its arguments.

  @main alternates host operations and eight pipelined regions. The buffer contents at each of the sixteen boundaries
  are a fold from the launch memory (the generated frame's W0 … W15). Reading that fold at a buffer walks it back: a
  region leaves in its output array the whole-array function of its two input arrays (a matrix product, a bias added
  along the rows, or that followed by the exponential linear unit: the region modules), and leaves every other buffer as
  it found it; a stretch of host operations leaves in its last buffer the layer's aggregation of the array it reads
  (carried as one function, never opened) and leaves a buffer it does not write as it found it. So layer after layer

      h ↦ bias (agg (mm h W) ) b   (followed by the unit in layers one and three),

  and the second layer's value is the first result, the fourth layer's the second.
-/
import proofs.«154903_j85899345920190_1_alg».proof.Proof.Gen.KernelIdeal.Frame
import proofs.«154903_j85899345920190_1_alg».proof.Proof.Spec
import proofs.«154903_j85899345920190_1_alg».proof.Proof.AggK
import proofs.«154903_j85899345920190_1_alg».proof.Proof.Region0
import proofs.«154903_j85899345920190_1_alg».proof.Proof.Region1
import proofs.«154903_j85899345920190_1_alg».proof.Proof.Region2
import proofs.«154903_j85899345920190_1_alg».proof.Proof.Region3
import proofs.«154903_j85899345920190_1_alg».proof.Proof.Region4
import proofs.«154903_j85899345920190_1_alg».proof.Proof.Region5
import proofs.«154903_j85899345920190_1_alg».proof.Proof.Region6
import proofs.«154903_j85899345920190_1_alg».proof.Proof.Region7
import Idealize.ShloMosaic.Lib.StableHlo.Run
import Idealize.ShloMosaic.Lib.Pipeline.Frame
import Idealize.ShloMosaic.PureOps.Ideal

noncomputable section
namespace Cert.KernelIdeal.Hand
open Idealize.ShloMosaic Idealize.ShloMosaic.TcCoe Idealize.SL.Sem Cert.KernelIdeal Cert.KernelIdeal.Gen Idealize.ShloMosaic.StableHlo

variable (m : (ℓ : Loc nD τ sig) → Buf (Elt Ideal) ℓ) (ρ : Dev nD → PrngReg) (c : Dev nD)

/-- The ten argument arrays as launched on core c, at their literal types. -/
abbrev aX : FVec Ideal S50000x256 .f32 := m ((c : Thread nD τ).loc main_arg0)
abbrev aE : IVec S2x800000 32 := m ((c : Thread nD τ).loc main_arg1)
abbrev aW1 : FVec Ideal S256x128 .f32 := m ((c : Thread nD τ).loc main_arg2)
abbrev ab1 : FVec Ideal S128 .f32 := m ((c : Thread nD τ).loc main_arg3)
abbrev aW2 : FVec Ideal S128x64 .f32 := m ((c : Thread nD τ).loc main_arg4)
abbrev ab2 : FVec Ideal S64 .f32 := m ((c : Thread nD τ).loc main_arg5)
abbrev aW3 : FVec Ideal S64x128 .f32 := m ((c : Thread nD τ).loc main_arg6)
abbrev ab3 : FVec Ideal S128 .f32 := m ((c : Thread nD τ).loc main_arg7)
abbrev aW4 : FVec Ideal S128x256 .f32 := m ((c : Thread nD τ).loc main_arg8)
abbrev ab4 : FVec Ideal S256 .f32 := m ((c : Thread nD τ).loc main_arg9)

/-- The graph's source and target indices and the inverse square root degrees, from the edge list. -/
abbrev kRow : IVec S850000 32 := rowOf (aE m c)
abbrev kCol : IVec S850000 32 := colOf (aE m c)
abbrev kDinv : FVec Ideal S50000 .f32 := dinvOf (degOf (colOf (aE m c)))

/-- The weights as the regions read them (converted: the identity on the extended reals) and the biases as one row. -/
abbrev kW1 : FVec Ideal S256x128 .bf16 := truncf .bf16 (aW1 m c) bitsLt_bf16_f32
abbrev kW2 : FVec Ideal S128x64 .bf16 := truncf .bf16 (aW2 m c) bitsLt_bf16_f32
abbrev kW3 : FVec Ideal S64x128 .bf16 := truncf .bf16 (aW3 m c) bitsLt_bf16_f32
abbrev kW4 : FVec Ideal S128x256 .bf16 := truncf .bf16 (aW4 m c) bitsLt_bf16_f32
abbrev kb1 : FVec Ideal S1x128 .f32 := shapeCast S1x128 (ab1 m c) shapeCasts_S128_S1x128
abbrev kb2 : FVec Ideal S1x64 .f32 := shapeCast S1x64 (ab2 m c) shapeCasts_S64_S1x64
abbrev kb3 : FVec Ideal S1x128 .f32 := shapeCast S1x128 (ab3 m c) shapeCasts_S128_S1x128
abbrev kb4 : FVec Ideal S1x256 .f32 := shapeCast S1x256 (ab4 m c) shapeCasts_S256_S1x256

/-- The four layers, value by value. -/
abbrev kP1 : FVec Ideal S50000x128 .f32 := Cert.Spec.mm (aX m c) (kW1 m c)
abbrev kA1 : FVec Ideal S50000x128 .f32 := agg128 (kRow m c) (kCol m c) (kDinv m c) (kP1 m c)
abbrev kH1 : FVec Ideal S50000x128 .f32 := Cert.Spec.biasElu (kA1 m c) (kb1 m c)
abbrev kP2 : FVec Ideal S50000x64 .f32 := Cert.Spec.mm (kH1 m c) (kW2 m c)
abbrev kA2 : FVec Ideal S50000x64 .f32 := agg64 (kRow m c) (kCol m c) (kDinv m c) (kP2 m c)
abbrev kH2 : FVec Ideal S50000x64 .f32 := Cert.Spec.bias (kA2 m c) (kb2 m c)
abbrev kP3 : FVec Ideal S50000x128 .f32 := Cert.Spec.mm (kH2 m c) (kW3 m c)
abbrev kA3 : FVec Ideal S50000x128 .f32 := agg128 (kRow m c) (kCol m c) (kDinv m c) (kP3 m c)
abbrev kH3 : FVec Ideal S50000x128 .f32 := Cert.Spec.biasElu (kA3 m c) (kb3 m c)
abbrev kP4 : FVec Ideal S50000x256 .f32 := Cert.Spec.mm (kH3 m c) (kW4 m c)
abbrev kA4 : FVec Ideal S50000x256 .f32 := agg256 (kRow m c) (kCol m c) (kDinv m c) (kP4 m c)
abbrev kH4 : FVec Ideal S50000x256 .f32 := Cert.Spec.bias (kA4 m c) (kb4 m c)

/-- A buffer that no operation of a line writes keeps its contents through the line. -/
macro "keeps" l:ident : tactic =>
  `(tactic| (refine StableHlo.after_of_forall_not_mem _ _ (List.forall_iff_forall_mem.mp ?_)
             simp only [$l:ident, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-- No operation of the line writes the buffer. -/
macro "nowrite" l:ident : tactic =>
  `(tactic| (refine List.forall_iff_forall_mem.mp ?_
             simp only [$l:ident, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-- "No operation of the line writes buffer b." -/
abbrev NW (ops : List (HloOp τ sig (Elt Ideal))) (b : Ref sig .tc) : Prop :=
  ∀ op ∈ ops, (Proc.devRef .tc b : DevRef τ sig) ∉ op.writes

/-! ## Before the first region: the graph's indices, the degrees, the weights converted and the biases laid as rows -/

section Prologue
variable (Vv : Valuation τ sig (Elt Ideal))

theorem h0_v3 : after hostOps0 Vv (Proc.devRef .tc main_v3) = rowOf (Vv (Proc.devRef .tc main_arg1)) := by
  simp only [hostOps0]; after_results; all_goals rfl
theorem h0_v6 : after hostOps0 Vv (Proc.devRef .tc main_v6) = colOf (Vv (Proc.devRef .tc main_arg1)) := by
  simp only [hostOps0]; after_results; all_goals rfl
theorem h0_v12 : after hostOps0 Vv (Proc.devRef .tc main_v12)
    = cmpf .ogt (degOf (F := Ideal) (colOf (Vv (Proc.devRef .tc main_arg1)))) (broadcastInDim S50000 ![] bcast_S_S50000 (constant S_ .f32 0x00000000#32)) := by
  simp only [hostOps0]; after_results; all_goals rfl
theorem h0_v13 : after hostOps0 Vv (Proc.devRef .tc main_v13) = Host.rsqrt (degOf (F := Ideal) (colOf (Vv (Proc.devRef .tc main_arg1)))) := by
  simp only [hostOps0]; after_results; all_goals rfl
theorem h0_cst2 : after hostOps0 Vv (Proc.devRef .tc main_cst_2) = (constant S_ .f32 0x00000000#32 : FVec Ideal S_ .f32) := by
  simp only [hostOps0]; after_results; all_goals rfl

/-- The outlined choice: where the degree is positive its inverse square root, elsewhere the scalar laid over the nodes. -/
theorem h01_v14 : after hostOps0_1 Vv (Proc.devRef .tc main_v14)
    = select (Vv (Proc.devRef .tc main_v12) : IVec S50000 1) (Vv (Proc.devRef .tc main_v13) : FVec Ideal S50000 .f32)
        (broadcastInDim S50000 ![] bcast_S_S50000 (Vv (Proc.devRef .tc main_cst_2) : FVec Ideal S_ .f32)) := by
  simp only [hostOps0_1]; after_results; all_goals rfl

theorem h02_v15 : after hostOps0_2 Vv (Proc.devRef .tc main_v15) = (truncf .bf16 (Vv (Proc.devRef .tc main_arg2) : FVec Ideal S256x128 .f32) bitsLt_bf16_f32 : FVec Ideal S256x128 .bf16) := by
  simp only [hostOps0_2]; after_results; all_goals rfl
theorem h02_v16 : after hostOps0_2 Vv (Proc.devRef .tc main_v16) = (truncf .bf16 (Vv (Proc.devRef .tc main_arg4) : FVec Ideal S128x64 .f32) bitsLt_bf16_f32 : FVec Ideal S128x64 .bf16) := by
  simp only [hostOps0_2]; after_results; all_goals rfl
theorem h02_v17 : after hostOps0_2 Vv (Proc.devRef .tc main_v17) = (truncf .bf16 (Vv (Proc.devRef .tc main_arg6) : FVec Ideal S64x128 .f32) bitsLt_bf16_f32 : FVec Ideal S64x128 .bf16) := by
  simp only [hostOps0_2]; after_results; all_goals rfl
theorem h02_v18 : after hostOps0_2 Vv (Proc.devRef .tc main_v18) = (truncf .bf16 (Vv (Proc.devRef .tc main_arg8) : FVec Ideal S128x256 .f32) bitsLt_bf16_f32 : FVec Ideal S128x256 .bf16) := by
  simp only [hostOps0_2]; after_results; all_goals rfl
theorem h02_v19 : after hostOps0_2 Vv (Proc.devRef .tc main_v19) = (shapeCast S1x128 (Vv (Proc.devRef .tc main_arg3) : FVec Ideal S128 .f32) shapeCasts_S128_S1x128 : FVec Ideal S1x128 .f32) := by
  simp only [hostOps0_2]; after_results; all_goals rfl
theorem h02_v20 : after hostOps0_2 Vv (Proc.devRef .tc main_v20) = (shapeCast S1x64 (Vv (Proc.devRef .tc main_arg5) : FVec Ideal S64 .f32) shapeCasts_S64_S1x64 : FVec Ideal S1x64 .f32) := by
  simp only [hostOps0_2]; after_results; all_goals rfl
theorem h02_v21 : after hostOps0_2 Vv (Proc.devRef .tc main_v21) = (shapeCast S1x128 (Vv (Proc.devRef .tc main_arg7) : FVec Ideal S128 .f32) shapeCasts_S128_S1x128 : FVec Ideal S1x128 .f32) := by
  simp only [hostOps0_2]; after_results; all_goals rfl
theorem h02_v22 : after hostOps0_2 Vv (Proc.devRef .tc main_v22) = (shapeCast S1x256 (Vv (Proc.devRef .tc main_arg9) : FVec Ideal S256 .f32) shapeCasts_S256_S1x256 : FVec Ideal S1x256 .f32) := by
  simp only [hostOps0_2]; after_results; all_goals rfl

end Prologue

/-- A buffer the first two stretches do not write is as launched after them. -/
theorem W2_keep (b : Ref sig .tc) (h0 : NW hostOps0 b) (h1 : NW hostOps0_1 b) :
    W2 m ρ c (Proc.devRef .tc b) = W0 m ρ c (Proc.devRef .tc b) :=
  (StableHlo.after_of_forall_not_mem _ _ h1).trans (StableHlo.after_of_forall_not_mem _ _ h0)

theorem W3_v3 : W3 m ρ c (Proc.devRef .tc main_v3) = kRow m c :=
  (StableHlo.after_of_forall_not_mem hostOps0_2 (W2 m ρ c) (by nowrite hostOps0_2)).trans
    ((StableHlo.after_of_forall_not_mem hostOps0_1 (W1 m ρ c) (by nowrite hostOps0_1)).trans (h0_v3 (W0 m ρ c)))
theorem W3_v6 : W3 m ρ c (Proc.devRef .tc main_v6) = kCol m c :=
  (StableHlo.after_of_forall_not_mem hostOps0_2 (W2 m ρ c) (by nowrite hostOps0_2)).trans
    ((StableHlo.after_of_forall_not_mem hostOps0_1 (W1 m ρ c) (by nowrite hostOps0_1)).trans (h0_v6 (W0 m ρ c)))

theorem W2_v14 : W2 m ρ c (Proc.devRef .tc main_v14) = kDinv m c := by
  refine (h01_v14 (W1 m ρ c)).trans ?_
  rw [show W1 m ρ c = StableHlo.after hostOps0 (W0 m ρ c) from rfl, h0_v12, h0_v13, h0_cst2]
  rfl
theorem W3_v14 : W3 m ρ c (Proc.devRef .tc main_v14) = kDinv m c :=
  (StableHlo.after_of_forall_not_mem hostOps0_2 (W2 m ρ c) (by nowrite hostOps0_2)).trans (W2_v14 m ρ c)

theorem W3_arg0 : W3 m ρ c (Proc.devRef .tc main_arg0) = aX m c :=
  (StableHlo.after_of_forall_not_mem hostOps0_2 (W2 m ρ c) (by nowrite hostOps0_2)).trans
    (W2_keep m ρ c main_arg0 (by nowrite hostOps0) (by nowrite hostOps0_1))

theorem W3_v15 : W3 m ρ c (Proc.devRef .tc main_v15) = kW1 m c := by
  refine (h02_v15 (W2 m ρ c)).trans ?_
  rw [W2_keep m ρ c main_arg2 (by nowrite hostOps0) (by nowrite hostOps0_1)]
theorem W3_v16 : W3 m ρ c (Proc.devRef .tc main_v16) = kW2 m c := by
  refine (h02_v16 (W2 m ρ c)).trans ?_
  rw [W2_keep m ρ c main_arg4 (by nowrite hostOps0) (by nowrite hostOps0_1)]
theorem W3_v17 : W3 m ρ c (Proc.devRef .tc main_v17) = kW3 m c := by
  refine (h02_v17 (W2 m ρ c)).trans ?_
  rw [W2_keep m ρ c main_arg6 (by nowrite hostOps0) (by nowrite hostOps0_1)]
theorem W3_v18 : W3 m ρ c (Proc.devRef .tc main_v18) = kW4 m c := by
  refine (h02_v18 (W2 m ρ c)).trans ?_
  rw [W2_keep m ρ c main_arg8 (by nowrite hostOps0) (by nowrite hostOps0_1)]
theorem W3_v19 : W3 m ρ c (Proc.devRef .tc main_v19) = kb1 m c := by
  refine (h02_v19 (W2 m ρ c)).trans ?_
  rw [W2_keep m ρ c main_arg3 (by nowrite hostOps0) (by nowrite hostOps0_1)]
theorem W3_v20 : W3 m ρ c (Proc.devRef .tc main_v20) = kb2 m c := by
  refine (h02_v20 (W2 m ρ c)).trans ?_
  rw [W2_keep m ρ c main_arg5 (by nowrite hostOps0) (by nowrite hostOps0_1)]
theorem W3_v21 : W3 m ρ c (Proc.devRef .tc main_v21) = kb3 m c := by
  refine (h02_v21 (W2 m ρ c)).trans ?_
  rw [W2_keep m ρ c main_arg7 (by nowrite hostOps0) (by nowrite hostOps0_1)]
theorem W3_v22 : W3 m ρ c (Proc.devRef .tc main_v22) = kb4 m c := by
  refine (h02_v22 (W2 m ρ c)).trans ?_
  rw [W2_keep m ρ c main_arg9 (by nowrite hostOps0) (by nowrite hostOps0_1)]

/-! ## Carrying a buffer from the first region's entry: a region leaves what is none of its arrays, a stretch what it does not write -/

section Carry
variable (b : Ref sig .tc)
variable (r0 : ∀ w, Pipeline.arrRef spec0 w ≠ b) (s1 : NW hostOps1 b) (r1 : ∀ w, Pipeline.arrRef spec1 w ≠ b)
  (r2 : ∀ w, Pipeline.arrRef spec2 w ≠ b) (s3 : NW hostOps3 b) (r3 : ∀ w, Pipeline.arrRef spec3 w ≠ b)
  (r4 : ∀ w, Pipeline.arrRef spec4 w ≠ b) (s5 : NW hostOps5 b) (r5 : ∀ w, Pipeline.arrRef spec5 w ≠ b)
  (r6 : ∀ w, Pipeline.arrRef spec6 w ≠ b) (s7 : NW hostOps7 b)
include r0 in
theorem carry4 : W4 m ρ c (Proc.devRef .tc b) = W3 m ρ c (Proc.devRef .tc b) := W4_of_ne m ρ c b r0
include r0 s1 in
theorem carry5 : W5 m ρ c (Proc.devRef .tc b) = W3 m ρ c (Proc.devRef .tc b) :=
  (StableHlo.after_of_forall_not_mem hostOps1 (W4 m ρ c) s1).trans (carry4 m ρ c b r0)
include r0 s1 r1 in
theorem carry6 : W6 m ρ c (Proc.devRef .tc b) = W3 m ρ c (Proc.devRef .tc b) :=
  (W6_of_ne m ρ c b r1).trans (carry5 m ρ c b r0 s1)
include r0 s1 r1 r2 in
theorem carry7 : W7 m ρ c (Proc.devRef .tc b) = W3 m ρ c (Proc.devRef .tc b) :=
  (W7_of_ne m ρ c b r2).trans (carry6 m ρ c b r0 s1 r1)
include r0 s1 r1 r2 s3 in
theorem carry8 : W8 m ρ c (Proc.devRef .tc b) = W3 m ρ c (Proc.devRef .tc b) :=
  (StableHlo.after_of_forall_not_mem hostOps3 (W7 m ρ c) s3).trans (carry7 m ρ c b r0 s1 r1 r2)
include r0 s1 r1 r2 s3 r3 in
theorem carry9 : W9 m ρ c (Proc.devRef .tc b) = W3 m ρ c (Proc.devRef .tc b) :=
  (W9_of_ne m ρ c b r3).trans (carry8 m ρ c b r0 s1 r1 r2 s3)
include r0 s1 r1 r2 s3 r3 r4 in
theorem carry10 : W10 m ρ c (Proc.devRef .tc b) = W3 m ρ c (Proc.devRef .tc b) :=
  (W10_of_ne m ρ c b r4).trans (carry9 m ρ c b r0 s1 r1 r2 s3 r3)
include r0 s1 r1 r2 s3 r3 r4 s5 in
theorem carry11 : W11 m ρ c (Proc.devRef .tc b) = W3 m ρ c (Proc.devRef .tc b) :=
  (StableHlo.after_of_forall_not_mem hostOps5 (W10 m ρ c) s5).trans (carry10 m ρ c b r0 s1 r1 r2 s3 r3 r4)
include r0 s1 r1 r2 s3 r3 r4 s5 r5 in
theorem carry12 : W12 m ρ c (Proc.devRef .tc b) = W3 m ρ c (Proc.devRef .tc b) :=
  (W12_of_ne m ρ c b r5).trans (carry11 m ρ c b r0 s1 r1 r2 s3 r3 r4 s5)
include r0 s1 r1 r2 s3 r3 r4 s5 r5 r6 in
theorem carry13 : W13 m ρ c (Proc.devRef .tc b) = W3 m ρ c (Proc.devRef .tc b) :=
  (W13_of_ne m ρ c b r6).trans (carry12 m ρ c b r0 s1 r1 r2 s3 r3 r4 s5 r5)
include r0 s1 r1 r2 s3 r3 r4 s5 r5 r6 s7 in
theorem carry14 : W14 m ρ c (Proc.devRef .tc b) = W3 m ρ c (Proc.devRef .tc b) :=
  (StableHlo.after_of_forall_not_mem hostOps7 (W13 m ρ c) s7).trans (carry13 m ρ c b r0 s1 r1 r2 s3 r3 r4 s5 r5 r6)
end Carry

/-! The stretches between the regions write none of the buffers carried across them. -/
theorem nw1_v3 : NW hostOps1 main_v3 := by nowrite hostOps1
theorem nw1_v6 : NW hostOps1 main_v6 := by nowrite hostOps1
theorem nw1_v14 : NW hostOps1 main_v14 := by nowrite hostOps1
theorem nw1_v16 : NW hostOps1 main_v16 := by nowrite hostOps1
theorem nw1_v17 : NW hostOps1 main_v17 := by nowrite hostOps1
theorem nw1_v18 : NW hostOps1 main_v18 := by nowrite hostOps1
theorem nw1_v19 : NW hostOps1 main_v19 := by nowrite hostOps1
theorem nw1_v20 : NW hostOps1 main_v20 := by nowrite hostOps1
theorem nw1_v21 : NW hostOps1 main_v21 := by nowrite hostOps1
theorem nw1_v22 : NW hostOps1 main_v22 := by nowrite hostOps1
theorem nw3_v3 : NW hostOps3 main_v3 := by nowrite hostOps3
theorem nw3_v6 : NW hostOps3 main_v6 := by nowrite hostOps3
theorem nw3_v14 : NW hostOps3 main_v14 := by nowrite hostOps3
theorem nw3_v17 : NW hostOps3 main_v17 := by nowrite hostOps3
theorem nw3_v18 : NW hostOps3 main_v18 := by nowrite hostOps3
theorem nw3_v20 : NW hostOps3 main_v20 := by nowrite hostOps3
theorem nw3_v21 : NW hostOps3 main_v21 := by nowrite hostOps3
theorem nw3_v22 : NW hostOps3 main_v22 := by nowrite hostOps3
theorem nw5_v3 : NW hostOps5 main_v3 := by nowrite hostOps5
theorem nw5_v6 : NW hostOps5 main_v6 := by nowrite hostOps5
theorem nw5_v14 : NW hostOps5 main_v14 := by nowrite hostOps5
theorem nw5_v18 : NW hostOps5 main_v18 := by nowrite hostOps5
theorem nw5_v21 : NW hostOps5 main_v21 := by nowrite hostOps5
theorem nw5_v22 : NW hostOps5 main_v22 := by nowrite hostOps5
theorem nw5_v82 : NW hostOps5 main_v82 := by nowrite hostOps5
theorem nw7_v22 : NW hostOps7 main_v22 := by nowrite hostOps7
theorem nw7_v82 : NW hostOps7 main_v82 := by nowrite hostOps7

/-! ## A layer's aggregation: what each stretch between two regions leaves, from any contents -/

section Stretches
variable (Vv : Valuation τ sig (Elt Ideal))
set_option maxHeartbeats 4000000 in
theorem h1_v51 : after hostOps1 Vv (Proc.devRef .tc main_v51)
    = agg128 (F := Ideal) (Vv (Proc.devRef .tc main_v3)) (Vv (Proc.devRef .tc main_v6)) (Vv (Proc.devRef .tc main_v14)) (Vv (Proc.devRef .tc main_v23)) := by
  after_results_simp
  all_goals rfl
set_option maxHeartbeats 4000000 in
theorem h3_v81 : after hostOps3 Vv (Proc.devRef .tc main_v81)
    = agg64 (F := Ideal) (Vv (Proc.devRef .tc main_v3)) (Vv (Proc.devRef .tc main_v6)) (Vv (Proc.devRef .tc main_v14)) (Vv (Proc.devRef .tc main_v53)) := by
  after_results_simp
  all_goals rfl
set_option maxHeartbeats 4000000 in
theorem h5_v111 : after hostOps5 Vv (Proc.devRef .tc main_v111)
    = agg128 (F := Ideal) (Vv (Proc.devRef .tc main_v3)) (Vv (Proc.devRef .tc main_v6)) (Vv (Proc.devRef .tc main_v14)) (Vv (Proc.devRef .tc main_v83)) := by
  after_results_simp
  all_goals rfl
set_option maxHeartbeats 4000000 in
theorem h7_v141 : after hostOps7 Vv (Proc.devRef .tc main_v141)
    = agg256 (F := Ideal) (Vv (Proc.devRef .tc main_v3)) (Vv (Proc.devRef .tc main_v6)) (Vv (Proc.devRef .tc main_v14)) (Vv (Proc.devRef .tc main_v113)) := by
  after_results_simp
  all_goals rfl
end Stretches

/-! ## Layer one -/

theorem W4_v23 : W4 m ρ c (Proc.devRef .tc main_v23) = kP1 m c := by
  refine (W4_arr m ρ c 2).trans ((arr0 (V3 m ρ) c).trans ?_)
  show Cert.Spec.mm (W3 m ρ c (Proc.devRef .tc main_arg0)) (W3 m ρ c (Proc.devRef .tc main_v15)) = _
  rw [W3_arg0, W3_v15]
theorem W4_v3 : W4 m ρ c (Proc.devRef .tc main_v3) = kRow m c :=
  (carry4 m ρ c main_v3 (by decide)).trans (W3_v3 m ρ c)
theorem W4_v6 : W4 m ρ c (Proc.devRef .tc main_v6) = kCol m c :=
  (carry4 m ρ c main_v6 (by decide)).trans (W3_v6 m ρ c)
theorem W4_v14 : W4 m ρ c (Proc.devRef .tc main_v14) = kDinv m c :=
  (carry4 m ρ c main_v14 (by decide)).trans (W3_v14 m ρ c)
theorem W5_v51 : W5 m ρ c (Proc.devRef .tc main_v51) = kA1 m c := by
  refine (h1_v51 (W4 m ρ c)).trans ?_
  rw [W4_v3, W4_v6, W4_v14, W4_v23]
theorem W5_v19 : W5 m ρ c (Proc.devRef .tc main_v19) = kb1 m c :=
  (carry5 m ρ c main_v19 (by decide) nw1_v19).trans (W3_v19 m ρ c)
theorem W6_v52 : W6 m ρ c (Proc.devRef .tc main_v52) = kH1 m c := by
  refine (W6_arr m ρ c 2).trans ((arr1 (V5 m ρ) c).trans ?_)
  show Cert.Spec.biasElu (W5 m ρ c (Proc.devRef .tc main_v51)) (W5 m ρ c (Proc.devRef .tc main_v19)) = _
  rw [W5_v51, W5_v19]

/-! ## Layer two: the first result -/

theorem W6_v16 : W6 m ρ c (Proc.devRef .tc main_v16) = kW2 m c :=
  (carry6 m ρ c main_v16 (by decide) nw1_v16 (by decide)).trans (W3_v16 m ρ c)
theorem W7_v53 : W7 m ρ c (Proc.devRef .tc main_v53) = kP2 m c := by
  refine (W7_arr m ρ c 2).trans ((arr2 (V6 m ρ) c).trans ?_)
  show Cert.Spec.mm (W6 m ρ c (Proc.devRef .tc main_v52)) (W6 m ρ c (Proc.devRef .tc main_v16)) = _
  rw [W6_v52, W6_v16]
theorem W7_v3 : W7 m ρ c (Proc.devRef .tc main_v3) = kRow m c :=
  (carry7 m ρ c main_v3 (by decide) nw1_v3 (by decide) (by decide)).trans (W3_v3 m ρ c)
theorem W7_v6 : W7 m ρ c (Proc.devRef .tc main_v6) = kCol m c :=
  (carry7 m ρ c main_v6 (by decide) nw1_v6 (by decide) (by decide)).trans (W3_v6 m ρ c)
theorem W7_v14 : W7 m ρ c (Proc.devRef .tc main_v14) = kDinv m c :=
  (carry7 m ρ c main_v14 (by decide) nw1_v14 (by decide) (by decide)).trans (W3_v14 m ρ c)
theorem W8_v81 : W8 m ρ c (Proc.devRef .tc main_v81) = kA2 m c := by
  refine (h3_v81 (W7 m ρ c)).trans ?_
  rw [W7_v3, W7_v6, W7_v14, W7_v53]
theorem W8_v20 : W8 m ρ c (Proc.devRef .tc main_v20) = kb2 m c :=
  (carry8 m ρ c main_v20 (by decide) nw1_v20 (by decide) (by decide) nw3_v20).trans (W3_v20 m ρ c)
theorem W9_v82 : W9 m ρ c (Proc.devRef .tc main_v82) = kH2 m c := by
  refine (W9_arr m ρ c 2).trans ((arr3 (V8 m ρ) c).trans ?_)
  show Cert.Spec.bias (W8 m ρ c (Proc.devRef .tc main_v81)) (W8 m ρ c (Proc.devRef .tc main_v20)) = _
  rw [W8_v81, W8_v20]

/-! ## Layer three -/

theorem W9_v17 : W9 m ρ c (Proc.devRef .tc main_v17) = kW3 m c :=
  (carry9 m ρ c main_v17 (by decide) nw1_v17 (by decide) (by decide) nw3_v17 (by decide)).trans (W3_v17 m ρ c)
theorem W10_v83 : W10 m ρ c (Proc.devRef .tc main_v83) = kP3 m c := by
  refine (W10_arr m ρ c 2).trans ((arr4 (V9 m ρ) c).trans ?_)
  show Cert.Spec.mm (W9 m ρ c (Proc.devRef .tc main_v82)) (W9 m ρ c (Proc.devRef .tc main_v17)) = _
  rw [W9_v82, W9_v17]
theorem W10_v3 : W10 m ρ c (Proc.devRef .tc main_v3) = kRow m c :=
  (carry10 m ρ c main_v3 (by decide) nw1_v3 (by decide) (by decide) nw3_v3 (by decide) (by decide)).trans (W3_v3 m ρ c)
theorem W10_v6 : W10 m ρ c (Proc.devRef .tc main_v6) = kCol m c :=
  (carry10 m ρ c main_v6 (by decide) nw1_v6 (by decide) (by decide) nw3_v6 (by decide) (by decide)).trans (W3_v6 m ρ c)
theorem W10_v14 : W10 m ρ c (Proc.devRef .tc main_v14) = kDinv m c :=
  (carry10 m ρ c main_v14 (by decide) nw1_v14 (by decide) (by decide) nw3_v14 (by decide) (by decide)).trans (W3_v14 m ρ c)
theorem W11_v111 : W11 m ρ c (Proc.devRef .tc main_v111) = kA3 m c := by
  refine (h5_v111 (W10 m ρ c)).trans ?_
  rw [W10_v3, W10_v6, W10_v14, W10_v83]
theorem W11_v21 : W11 m ρ c (Proc.devRef .tc main_v21) = kb3 m c :=
  (carry11 m ρ c main_v21 (by decide) nw1_v21 (by decide) (by decide) nw3_v21 (by decide) (by decide) nw5_v21).trans (W3_v21 m ρ c)
theorem W12_v112 : W12 m ρ c (Proc.devRef .tc main_v112) = kH3 m c := by
  refine (W12_arr m ρ c 2).trans ((arr5 (V11 m ρ) c).trans ?_)
  show Cert.Spec.biasElu (W11 m ρ c (Proc.devRef .tc main_v111)) (W11 m ρ c (Proc.devRef .tc main_v21)) = _
  rw [W11_v111, W11_v21]

/-! ## Layer four: the second result -/

theorem W12_v18 : W12 m ρ c (Proc.devRef .tc main_v18) = kW4 m c :=
  (carry12 m ρ c main_v18 (by decide) nw1_v18 (by decide) (by decide) nw3_v18 (by decide) (by decide) nw5_v18 (by decide)).trans (W3_v18 m ρ c)
theorem W13_v113 : W13 m ρ c (Proc.devRef .tc main_v113) = kP4 m c := by
  refine (W13_arr m ρ c 2).trans ((arr6 (V12 m ρ) c).trans ?_)
  show Cert.Spec.mm (W12 m ρ c (Proc.devRef .tc main_v112)) (W12 m ρ c (Proc.devRef .tc main_v18)) = _
  rw [W12_v112, W12_v18]
theorem W13_v3 : W13 m ρ c (Proc.devRef .tc main_v3) = kRow m c :=
  (carry13 m ρ c main_v3 (by decide) nw1_v3 (by decide) (by decide) nw3_v3 (by decide) (by decide) nw5_v3 (by decide) (by decide)).trans (W3_v3 m ρ c)
theorem W13_v6 : W13 m ρ c (Proc.devRef .tc main_v6) = kCol m c :=
  (carry13 m ρ c main_v6 (by decide) nw1_v6 (by decide) (by decide) nw3_v6 (by decide) (by decide) nw5_v6 (by decide) (by decide)).trans (W3_v6 m ρ c)
theorem W13_v14 : W13 m ρ c (Proc.devRef .tc main_v14) = kDinv m c :=
  (carry13 m ρ c main_v14 (by decide) nw1_v14 (by decide) (by decide) nw3_v14 (by decide) (by decide) nw5_v14 (by decide) (by decide)).trans (W3_v14 m ρ c)
theorem W14_v141 : W14 m ρ c (Proc.devRef .tc main_v141) = kA4 m c := by
  refine (h7_v141 (W13 m ρ c)).trans ?_
  rw [W13_v3, W13_v6, W13_v14, W13_v113]
theorem W14_v22 : W14 m ρ c (Proc.devRef .tc main_v22) = kb4 m c :=
  (carry14 m ρ c main_v22 (by decide) nw1_v22 (by decide) (by decide) nw3_v22 (by decide) (by decide) nw5_v22 (by decide) (by decide) nw7_v22).trans (W3_v22 m ρ c)

/-- The second result at the last boundary: the fourth layer's value. -/
theorem W15_v142 : W15 m ρ c (Proc.devRef .tc main_v142) = kH4 m c := by
  refine (W15_arr m ρ c 2).trans ((arr7 (V14 m ρ) c).trans ?_)
  show Cert.Spec.bias (W14 m ρ c (Proc.devRef .tc main_v141)) (W14 m ρ c (Proc.devRef .tc main_v22)) = _
  rw [W14_v141, W14_v22]

/-- The first result at the last boundary: the second layer's value, which the third layer's product reads through an
    input window and nothing after it writes. -/
theorem W15_v82 : W15 m ρ c (Proc.devRef .tc main_v82) = kH2 m c :=
  calc W15 m ρ c (Proc.devRef .tc main_v82)
    _ = W14 m ρ c (Proc.devRef .tc main_v82) := W15_of_ne m ρ c main_v82 (by decide)
    _ = W13 m ρ c (Proc.devRef .tc main_v82) := StableHlo.after_of_forall_not_mem hostOps7 (W13 m ρ c) nw7_v82
    _ = W12 m ρ c (Proc.devRef .tc main_v82) := W13_of_ne m ρ c main_v82 (by decide)
    _ = W11 m ρ c (Proc.devRef .tc main_v82) := W12_of_ne m ρ c main_v82 (by decide)
    _ = W10 m ρ c (Proc.devRef .tc main_v82) := StableHlo.after_of_forall_not_mem hostOps5 (W10 m ρ c) nw5_v82
    _ = W9 m ρ c (Proc.devRef .tc main_v82) := (W10_arr m ρ c 0).trans (((dat4 (V9 m ρ) c).arrAt_in 0 rfl _).trans (A_eq4 (V9 m ρ) c 0))
    _ = kH2 m c := W9_v82 m ρ c

end Cert.KernelIdeal.Hand

end
-- ==== Proof.RefRun.lean ====
/-
  The run of the reference program `Cert.ReferenceIdeal`, read back as a list of host operations.

  @main is a straight line of 178 statements, three of them calls: @_where once and @elu twice, and @elu itself calls
  @_where_0 and @_where_1. A call executes the callee's body on its operands, over buffers of that call's own (the
  records `main_call0`, `main_call1`, `main_call2` and the records nested in the last two). So @main is the straight
  line in which every call is replaced by the callee's operations with the operands substituted: 207 operations.

  They are listed twice. Once in the five stretches at whose ends a value is read (`opsPre`, `opsL1`, … `opsL4`; their
  concatenation is `ops`), and once as the printed program groups its statements (`win0`, `win1`, `win2`: the three
  definitions @main runs in order). The two groupings are the same list (`win_eq`). Each printed definition is the
  sequence of its group (`part0_eq` … `part2_eq`): unfolding the called functions at their calls, and reassociating the
  sequencing so that a callee's last step is followed by the caller's next one, leaves the same chain of steps on both
  sides. Sequences of concatenated lists compose (`seq_append`), which gives `main_eq`; every operation touches
  TensorCore buffers only (`ops_sub`), the signature scopes no buffer and no semaphore, and so the run of a straight line
  (`run_seq`) applies: `run_main`.
-/
import proofs.«154903_j85899345920190_1_alg».proof.Proof.Gen.ReferenceIdeal
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The operations, in the five stretches at whose ends a value is read -/

/-- the operations up to and including the call of @_where that yields %14 (main_v14): %0 … %13, %cst_2 and @_where's three -/
abbrev opsPre : List (HloOp τ sig (Elt F)) :=
  [ StableHlo.nullary main_v0 (iotaInDim S50000 32 0),
    StableHlo.unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v4 main_v5 rfl shapeCasts_S1x800000_S800000,
    StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x3F800000#32),
    StableHlo.unary main_cst main_v7 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S850000x1 ![0] bcast_S850000_S850000x1_0 : (⟨S850000, .i32⟩ : BufTy).Contents (Elt F) → (⟨S850000x1, .i32⟩ : BufTy).Contents (Elt F)),
    StableHlo.ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.unary main_v10 main_v13 (Host.rsqrt : (⟨S50000, .f32⟩ : BufTy).Contents (Elt F) → (⟨S50000, .f32⟩ : BufTy).Contents (Elt F)),
    StableHlo.nullary main_cst_2 (constant S_ .f32 0x00000000#32),
    StableHlo.TRef.unary (.of main_cst_2) main_call0.v0 id,
    StableHlo.TRef.unary main_call0.v0 main_call0.v1 (broadcastInDim S50000 ![] bcast_S_S50000),
    StableHlo.TRef.ternary (.of main_v12) (.of main_v13) main_call0.v1 main_call0.v2 select ]

/-- %15 (the first dot_general, main_v15) … through the call of @elu that yields %47 (main_v47), @elu's and its callees' operations inline -/
abbrev opsL1 : List (HloOp τ sig (Elt F)) :=
  [ StableHlo.binary main_arg0 main_arg2 main_v15 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.nullary main_c (constantI S_ 32 0#32),
    StableHlo.unary main_c main_v16 (broadcastInDim S850000 ![] bcast_S_S850000 : (⟨S_, .i32⟩ : BufTy).Contents (Elt F) → (⟨S850000, .i32⟩ : BufTy).Contents (Elt F)),
    StableHlo.binary main_v3 main_v16 main_v17 (cmpi .slt : (⟨S850000, .i32⟩ : BufTy).Contents (Elt F) → (⟨S850000, .i32⟩ : BufTy).Contents (Elt F) → (⟨S850000, .i1⟩ : BufTy).Contents (Elt F)),
    StableHlo.nullary main_c_3 (constantI S_ 32 50000#32),
    StableHlo.unary main_c_3 main_v18 (broadcastInDim S850000 ![] bcast_S_S850000 : (⟨S_, .i32⟩ : BufTy).Contents (Elt F) → (⟨S850000, .i32⟩ : BufTy).Contents (Elt F)),
    StableHlo.binary main_v3 main_v18 main_v19 (addi : (⟨S850000, .i32⟩ : BufTy).Contents (Elt F) → (⟨S850000, .i32⟩ : BufTy).Contents (Elt F) → (⟨S850000, .i32⟩ : BufTy).Contents (Elt F)),
    StableHlo.ternary main_v17 main_v19 main_v3 main_v20 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v20 main_v21 (broadcastInDim S850000x1 ![0] bcast_S850000_S850000x1_0 : (⟨S850000, .i32⟩ : BufTy).Contents (Elt F) → (⟨S850000x1, .i32⟩ : BufTy).Contents (Elt F)),
    StableHlo.binary main_v14 main_v21 main_v22 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_4 (constantI S_ 32 0#32),
    StableHlo.unary main_c_4 main_v23 (broadcastInDim S850000 ![] bcast_S_S850000 : (⟨S_, .i32⟩ : BufTy).Contents (Elt F) → (⟨S850000, .i32⟩ : BufTy).Contents (Elt F)),
    StableHlo.binary main_v6 main_v23 main_v24 (cmpi .slt : (⟨S850000, .i32⟩ : BufTy).Contents (Elt F) → (⟨S850000, .i32⟩ : BufTy).Contents (Elt F) → (⟨S850000, .i1⟩ : BufTy).Contents (Elt F)),
    StableHlo.nullary main_c_5 (constantI S_ 32 50000#32),
    StableHlo.unary main_c_5 main_v25 (broadcastInDim S850000 ![] bcast_S_S850000 : (⟨S_, .i32⟩ : BufTy).Contents (Elt F) → (⟨S850000, .i32⟩ : BufTy).Contents (Elt F)),
    StableHlo.binary main_v6 main_v25 main_v26 (addi : (⟨S850000, .i32⟩ : BufTy).Contents (Elt F) → (⟨S850000, .i32⟩ : BufTy).Contents (Elt F) → (⟨S850000, .i32⟩ : BufTy).Contents (Elt F)),
    StableHlo.ternary main_v24 main_v26 main_v6 main_v27 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v27 main_v28 (broadcastInDim S850000x1 ![0] bcast_S850000_S850000x1_0 : (⟨S850000, .i32⟩ : BufTy).Contents (Elt F) → (⟨S850000x1, .i32⟩ : BufTy).Contents (Elt F)),
    StableHlo.binary main_v14 main_v28 main_v29 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v22 main_v29 main_v30 (mulf : (⟨S850000, .f32⟩ : BufTy).Contents (Elt F) → (⟨S850000, .f32⟩ : BufTy).Contents (Elt F) → (⟨S850000, .f32⟩ : BufTy).Contents (Elt F)),
    StableHlo.unary main_v30 main_v31 (broadcastInDim S850000x1 ![0] bcast_S850000_S850000x1_0 : (⟨S850000, .f32⟩ : BufTy).Contents (Elt F) → (⟨S850000x1, .f32⟩ : BufTy).Contents (Elt F)),
    StableHlo.nullary main_c_6 (constantI S_ 32 0#32),
    StableHlo.unary main_c_6 main_v32 (broadcastInDim S850000 ![] bcast_S_S850000 : (⟨S_, .i32⟩ : BufTy).Contents (Elt F) → (⟨S850000, .i32⟩ : BufTy).Contents (Elt F)),
    StableHlo.binary main_v3 main_v32 main_v33 (cmpi .slt : (⟨S850000, .i32⟩ : BufTy).Contents (Elt F) → (⟨S850000, .i32⟩ : BufTy).Contents (Elt F) → (⟨S850000, .i1⟩ : BufTy).Contents (Elt F)),
    StableHlo.nullary main_c_7 (constantI S_ 32 50000#32),
    StableHlo.unary main_c_7 main_v34 (broadcastInDim S850000 ![] bcast_S_S850000 : (⟨S_, .i32⟩ : BufTy).Contents (Elt F) → (⟨S850000, .i32⟩ : BufTy).Contents (Elt F)),
    StableHlo.binary main_v3 main_v34 main_v35 (addi : (⟨S850000, .i32⟩ : BufTy).Contents (Elt F) → (⟨S850000, .i32⟩ : BufTy).Contents (Elt F) → (⟨S850000, .i32⟩ : BufTy).Contents (Elt F)),
    StableHlo.ternary main_v33 main_v35 main_v3 main_v36 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v36 main_v37 (broadcastInDim S850000x1 ![0] bcast_S850000_S850000x1_0 : (⟨S850000, .i32⟩ : BufTy).Contents (Elt F) → (⟨S850000x1, .i32⟩ : BufTy).Contents (Elt F)),
    StableHlo.binary main_v15 main_v37 main_v38 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v31 main_v39 (broadcastInDim S850000x128 ![0, 1] bcast_S850000x1_S850000x128_0_1 : (⟨S850000x1, .f32⟩ : BufTy).Contents (Elt F) → (⟨S850000x128, .f32⟩ : BufTy).Contents (Elt F)),
    StableHlo.binary main_v38 main_v39 main_v40 (mulf : (⟨S850000x128, .f32⟩ : BufTy).Contents (Elt F) → (⟨S850000x128, .f32⟩ : BufTy).Contents (Elt F) → (⟨S850000x128, .f32⟩ : BufTy).Contents (Elt F)),
    StableHlo.nullary main_cst_8 (constant S_ .f32 0x00000000#32),
    StableHlo.unary main_cst_8 main_v41 (broadcastInDim S50000x128 ![] bcast_S_S50000x128 : (⟨S_, .f32⟩ : BufTy).Contents (Elt F) → (⟨S50000x128, .f32⟩ : BufTy).Contents (Elt F)),
    StableHlo.unary main_v6 main_v42 (broadcastInDim S850000x1 ![0] bcast_S850000_S850000x1_0 : (⟨S850000, .i32⟩ : BufTy).Contents (Elt F) → (⟨S850000x1, .i32⟩ : BufTy).Contents (Elt F)),
    StableHlo.ternary main_v41 main_v42 main_v40 main_v43 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg3 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S50000x128 ![0, 1] bcast_S1x128_S50000x128_0_1 : (⟨S1x128, .f32⟩ : BufTy).Contents (Elt F) → (⟨S50000x128, .f32⟩ : BufTy).Contents (Elt F)),
    StableHlo.binary main_v43 main_v45 main_v46 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (.of main_v46) main_call1.v0 main_call1.v1 (cmpf .ogt),
    StableHlo.TRef.nullary main_call1.cst_0 (constant S_ .f32 0x00000000#32),
    StableHlo.TRef.unary main_call1.cst_0 main_call1.v2 (broadcastInDim S50000x128 ![] bcast_S_S50000x128),
    StableHlo.TRef.binary (.of main_v46) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S50000x128 ![] bcast_S_S50000x128),
    StableHlo.TRef.ternary main_call1.v3 main_call1.call0.v1 (.of main_v46) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S50000x128 ![] bcast_S_S50000x128),
    StableHlo.TRef.binary main_call1.v6 main_call1.v5 main_call1.v7 mulf,
    StableHlo.TRef.ternary main_call1.v1 (.of main_v46) main_call1.v7 main_call1.call1.v0 select ]

/-- %48 (dot_general, main_v48) … %79 (the add that yields main_v79) -/
abbrev opsL2 : List (HloOp τ sig (Elt F)) :=
  [ StableHlo.binary main_v47 main_arg4 main_v48 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.nullary main_c_9 (constantI S_ 32 0#32),
    StableHlo.unary main_c_9 main_v49 (broadcastInDim S850000 ![] bcast_S_S850000 : (⟨S_, .i32⟩ : BufTy).Contents (Elt F) → (⟨S850000, .i32⟩ : BufTy).Contents (Elt F)),
    StableHlo.binary main_v3 main_v49 main_v50 (cmpi .slt : (⟨S850000, .i32⟩ : BufTy).Contents (Elt F) → (⟨S850000, .i32⟩ : BufTy).Contents (Elt F) → (⟨S850000, .i1⟩ : BufTy).Contents (Elt F)),
    StableHlo.nullary main_c_10 (constantI S_ 32 50000#32),
    StableHlo.unary main_c_10 main_v51 (broadcastInDim S850000 ![] bcast_S_S850000 : (⟨S_, .i32⟩ : BufTy).Contents (Elt F) → (⟨S850000, .i32⟩ : BufTy).Contents (Elt F)),
    StableHlo.binary main_v3 main_v51 main_v52 (addi : (⟨S850000, .i32⟩ : BufTy).Contents (Elt F) → (⟨S850000, .i32⟩ : BufTy).Contents (Elt F) → (⟨S850000, .i32⟩ : BufTy).Contents (Elt F)),
    StableHlo.ternary main_v50 main_v52 main_v3 main_v53 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v53 main_v54 (broadcastInDim S850000x1 ![0] bcast_S850000_S850000x1_0 : (⟨S850000, .i32⟩ : BufTy).Contents (Elt F) → (⟨S850000x1, .i32⟩ : BufTy).Contents (Elt F)),
    StableHlo.binary main_v14 main_v54 main_v55 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_11 (constantI S_ 32 0#32),
    StableHlo.unary main_c_11 main_v56 (broadcastInDim S850000 ![] bcast_S_S850000 : (⟨S_, .i32⟩ : BufTy).Contents (Elt F) → (⟨S850000, .i32⟩ : BufTy).Contents (Elt F)),
    StableHlo.binary main_v6 main_v56 main_v57 (cmpi .slt : (⟨S850000, .i32⟩ : BufTy).Contents (Elt F) → (⟨S850000, .i32⟩ : BufTy).Contents (Elt F) → (⟨S850000, .i1⟩ : BufTy).Contents (Elt F)),
    StableHlo.nullary main_c_12 (constantI S_ 32 50000#32),
    StableHlo.unary main_c_12 main_v58 (broadcastInDim S850000 ![] bcast_S_S850000 : (⟨S_, .i32⟩ : BufTy).Contents (Elt F) → (⟨S850000, .i32⟩ : BufTy).Contents (Elt F)),
    StableHlo.binary main_v6 main_v58 main_v59 (addi : (⟨S850000, .i32⟩ : BufTy).Contents (Elt F) → (⟨S850000, .i32⟩ : BufTy).Contents (Elt F) → (⟨S850000, .i32⟩ : BufTy).Contents (Elt F)),
    StableHlo.ternary main_v57 main_v59 main_v6 main_v60 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v60 main_v61 (broadcastInDim S850000x1 ![0] bcast_S850000_S850000x1_0 : (⟨S850000, .i32⟩ : BufTy).Contents (Elt F) → (⟨S850000x1, .i32⟩ : BufTy).Contents (Elt F)),
    StableHlo.binary main_v14 main_v61 main_v62 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v55 main_v62 main_v63 (mulf : (⟨S850000, .f32⟩ : BufTy).Contents (Elt F) → (⟨S850000, .f32⟩ : BufTy).Contents (Elt F) → (⟨S850000, .f32⟩ : BufTy).Contents (Elt F)),
    StableHlo.unary main_v63 main_v64 (broadcastInDim S850000x1 ![0] bcast_S850000_S850000x1_0 : (⟨S850000, .f32⟩ : BufTy).Contents (Elt F) → (⟨S850000x1, .f32⟩ : BufTy).Contents (Elt F)),
    StableHlo.nullary main_c_13 (constantI S_ 32 0#32),
    StableHlo.unary main_c_13 main_v65 (broadcastInDim S850000 ![] bcast_S_S850000 : (⟨S_, .i32⟩ : BufTy).Contents (Elt F) → (⟨S850000, .i32⟩ : BufTy).Contents (Elt F)),
    StableHlo.binary main_v3 main_v65 main_v66 (cmpi .slt : (⟨S850000, .i32⟩ : BufTy).Contents (Elt F) → (⟨S850000, .i32⟩ : BufTy).Contents (Elt F) → (⟨S850000, .i1⟩ : BufTy).Contents (Elt F)),
    StableHlo.nullary main_c_14 (constantI S_ 32 50000#32),
    StableHlo.unary main_c_14 main_v67 (broadcastInDim S850000 ![] bcast_S_S850000 : (⟨S_, .i32⟩ : BufTy).Contents (Elt F) → (⟨S850000, .i32⟩ : BufTy).Contents (Elt F)),
    StableHlo.binary main_v3 main_v67 main_v68 (addi : (⟨S850000, .i32⟩ : BufTy).Contents (Elt F) → (⟨S850000, .i32⟩ : BufTy).Contents (Elt F) → (⟨S850000, .i32⟩ : BufTy).Contents (Elt F)),
    StableHlo.ternary main_v66 main_v68 main_v3 main_v69 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v69 main_v70 (broadcastInDim S850000x1 ![0] bcast_S850000_S850000x1_0 : (⟨S850000, .i32⟩ : BufTy).Contents (Elt F) → (⟨S850000x1, .i32⟩ : BufTy).Contents (Elt F)),
    StableHlo.binary main_v48 main_v70 main_v71 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    StableHlo.unary main_v64 main_v72 (broadcastInDim S850000x64 ![0, 1] bcast_S850000x1_S850000x64_0_1 : (⟨S850000x1, .f32⟩ : BufTy).Contents (Elt F) → (⟨S850000x64, .f32⟩ : BufTy).Contents (Elt F)),
    StableHlo.binary main_v71 main_v72 main_v73 (mulf : (⟨S850000x64, .f32⟩ : BufTy).Contents (Elt F) → (⟨S850000x64, .f32⟩ : BufTy).Contents (Elt F) → (⟨S850000x64, .f32⟩ : BufTy).Contents (Elt F)),
    StableHlo.nullary main_cst_15 (constant S_ .f32 0x00000000#32),
    StableHlo.unary main_cst_15 main_v74 (broadcastInDim S50000x64 ![] bcast_S_S50000x64 : (⟨S_, .f32⟩ : BufTy).Contents (Elt F) → (⟨S50000x64, .f32⟩ : BufTy).Contents (Elt F)),
    StableHlo.unary main_v6 main_v75 (broadcastInDim S850000x1 ![0] bcast_S850000_S850000x1_0 : (⟨S850000, .i32⟩ : BufTy).Contents (Elt F) → (⟨S850000x1, .i32⟩ : BufTy).Contents (Elt F)),
    StableHlo.ternary main_v74 main_v75 main_v73 main_v76 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    StableHlo.unary main_arg5 main_v77 (broadcastInDim S1x64 ![1] bcast_S64_S1x64_1 : (⟨S64, .f32⟩ : BufTy).Contents (Elt F) → (⟨S1x64, .f32⟩ : BufTy).Contents (Elt F)),
    StableHlo.unary main_v77 main_v78 (broadcastInDim S50000x64 ![0, 1] bcast_S1x64_S50000x64_0_1 : (⟨S1x64, .f32⟩ : BufTy).Contents (Elt F) → (⟨S50000x64, .f32⟩ : BufTy).Contents (Elt F)),
    StableHlo.binary main_v76 main_v78 main_v79 (addf : (⟨S50000x64, .f32⟩ : BufTy).Contents (Elt F) → (⟨S50000x64, .f32⟩ : BufTy).Contents (Elt F) → (⟨S50000x64, .f32⟩ : BufTy).Contents (Elt F)) ]

/-- %80 (dot_general, main_v80) … through the call of @elu that yields %112 (main_v112) -/
abbrev opsL3 : List (HloOp τ sig (Elt F)) :=
  [ StableHlo.binary main_v79 main_arg6 main_v80 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    StableHlo.nullary main_c_16 (constantI S_ 32 0#32),
    StableHlo.unary main_c_16 main_v81 (broadcastInDim S850000 ![] bcast_S_S850000 : (⟨S_, .i32⟩ : BufTy).Contents (Elt F) → (⟨S850000, .i32⟩ : BufTy).Contents (Elt F)),
    StableHlo.binary main_v3 main_v81 main_v82 (cmpi .slt : (⟨S850000, .i32⟩ : BufTy).Contents (Elt F) → (⟨S850000, .i32⟩ : BufTy).Contents (Elt F) → (⟨S850000, .i1⟩ : BufTy).Contents (Elt F)),
    StableHlo.nullary main_c_17 (constantI S_ 32 50000#32),
    StableHlo.unary main_c_17 main_v83 (broadcastInDim S850000 ![] bcast_S_S850000 : (⟨S_, .i32⟩ : BufTy).Contents (Elt F) → (⟨S850000, .i32⟩ : BufTy).Contents (Elt F)),
    StableHlo.binary main_v3 main_v83 main_v84 (addi : (⟨S850000, .i32⟩ : BufTy).Contents (Elt F) → (⟨S850000, .i32⟩ : BufTy).Contents (Elt F) → (⟨S850000, .i32⟩ : BufTy).Contents (Elt F)),
    StableHlo.ternary main_v82 main_v84 main_v3 main_v85 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v85 main_v86 (broadcastInDim S850000x1 ![0] bcast_S850000_S850000x1_0 : (⟨S850000, .i32⟩ : BufTy).Contents (Elt F) → (⟨S850000x1, .i32⟩ : BufTy).Contents (Elt F)),
    StableHlo.binary main_v14 main_v86 main_v87 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_18 (constantI S_ 32 0#32),
    StableHlo.unary main_c_18 main_v88 (broadcastInDim S850000 ![] bcast_S_S850000 : (⟨S_, .i32⟩ : BufTy).Contents (Elt F) → (⟨S850000, .i32⟩ : BufTy).Contents (Elt F)),
    StableHlo.binary main_v6 main_v88 main_v89 (cmpi .slt : (⟨S850000, .i32⟩ : BufTy).Contents (Elt F) → (⟨S850000, .i32⟩ : BufTy).Contents (Elt F) → (⟨S850000, .i1⟩ : BufTy).Contents (Elt F)),
    StableHlo.nullary main_c_19 (constantI S_ 32 50000#32),
    StableHlo.unary main_c_19 main_v90 (broadcastInDim S850000 ![] bcast_S_S850000 : (⟨S_, .i32⟩ : BufTy).Contents (Elt F) → (⟨S850000, .i32⟩ : BufTy).Contents (Elt F)),
    StableHlo.binary main_v6 main_v90 main_v91 (addi : (⟨S850000, .i32⟩ : BufTy).Contents (Elt F) → (⟨S850000, .i32⟩ : BufTy).Contents (Elt F) → (⟨S850000, .i32⟩ : BufTy).Contents (Elt F)),
    StableHlo.ternary main_v89 main_v91 main_v6 main_v92 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v92 main_v93 (broadcastInDim S850000x1 ![0] bcast_S850000_S850000x1_0 : (⟨S850000, .i32⟩ : BufTy).Contents (Elt F) → (⟨S850000x1, .i32⟩ : BufTy).Contents (Elt F)),
    StableHlo.binary main_v14 main_v93 main_v94 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v87 main_v94 main_v95 (mulf : (⟨S850000, .f32⟩ : BufTy).Contents (Elt F) → (⟨S850000, .f32⟩ : BufTy).Contents (Elt F) → (⟨S850000, .f32⟩ : BufTy).Contents (Elt F)),
    StableHlo.unary main_v95 main_v96 (broadcastInDim S850000x1 ![0] bcast_S850000_S850000x1_0 : (⟨S850000, .f32⟩ : BufTy).Contents (Elt F) → (⟨S850000x1, .f32⟩ : BufTy).Contents (Elt F)),
    StableHlo.nullary main_c_20 (constantI S_ 32 0#32),
    StableHlo.unary main_c_20 main_v97 (broadcastInDim S850000 ![] bcast_S_S850000 : (⟨S_, .i32⟩ : BufTy).Contents (Elt F) → (⟨S850000, .i32⟩ : BufTy).Contents (Elt F)),
    StableHlo.binary main_v3 main_v97 main_v98 (cmpi .slt : (⟨S850000, .i32⟩ : BufTy).Contents (Elt F) → (⟨S850000, .i32⟩ : BufTy).Contents (Elt F) → (⟨S850000, .i1⟩ : BufTy).Contents (Elt F)),
    StableHlo.nullary main_c_21 (constantI S_ 32 50000#32),
    StableHlo.unary main_c_21 main_v99 (broadcastInDim S850000 ![] bcast_S_S850000 : (⟨S_, .i32⟩ : BufTy).Contents (Elt F) → (⟨S850000, .i32⟩ : BufTy).Contents (Elt F)),
    StableHlo.binary main_v3 main_v99 main_v100 (addi : (⟨S850000, .i32⟩ : BufTy).Contents (Elt F) → (⟨S850000, .i32⟩ : BufTy).Contents (Elt F) → (⟨S850000, .i32⟩ : BufTy).Contents (Elt F)),
    StableHlo.ternary main_v98 main_v100 main_v3 main_v101 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v101 main_v102 (broadcastInDim S850000x1 ![0] bcast_S850000_S850000x1_0 : (⟨S850000, .i32⟩ : BufTy).Contents (Elt F) → (⟨S850000x1, .i32⟩ : BufTy).Contents (Elt F)),
    StableHlo.binary main_v80 main_v102 main_v103 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v96 main_v104 (broadcastInDim S850000x128 ![0, 1] bcast_S850000x1_S850000x128_0_1 : (⟨S850000x1, .f32⟩ : BufTy).Contents (Elt F) → (⟨S850000x128, .f32⟩ : BufTy).Contents (Elt F)),
    StableHlo.binary main_v103 main_v104 main_v105 (mulf : (⟨S850000x128, .f32⟩ : BufTy).Contents (Elt F) → (⟨S850000x128, .f32⟩ : BufTy).Contents (Elt F) → (⟨S850000x128, .f32⟩ : BufTy).Contents (Elt F)),
    StableHlo.nullary main_cst_22 (constant S_ .f32 0x00000000#32),
    StableHlo.unary main_cst_22 main_v106 (broadcastInDim S50000x128 ![] bcast_S_S50000x128 : (⟨S_, .f32⟩ : BufTy).Contents (Elt F) → (⟨S50000x128, .f32⟩ : BufTy).Contents (Elt F)),
    StableHlo.unary main_v6 main_v107 (broadcastInDim S850000x1 ![0] bcast_S850000_S850000x1_0 : (⟨S850000, .i32⟩ : BufTy).Contents (Elt F) → (⟨S850000x1, .i32⟩ : BufTy).Contents (Elt F)),
    StableHlo.ternary main_v106 main_v107 main_v105 main_v108 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg7 main_v109 (broadcastInDim S1x128 ![1] bcast_S128_S1x128_1 : (⟨S128, .f32⟩ : BufTy).Contents (Elt F) → (⟨S1x128, .f32⟩ : BufTy).Contents (Elt F)),
    StableHlo.unary main_v109 main_v110 (broadcastInDim S50000x128 ![0, 1] bcast_S1x128_S50000x128_0_1 : (⟨S1x128, .f32⟩ : BufTy).Contents (Elt F) → (⟨S50000x128, .f32⟩ : BufTy).Contents (Elt F)),
    StableHlo.binary main_v108 main_v110 main_v111 (addf : (⟨S50000x128, .f32⟩ : BufTy).Contents (Elt F) → (⟨S50000x128, .f32⟩ : BufTy).Contents (Elt F) → (⟨S50000x128, .f32⟩ : BufTy).Contents (Elt F)),
    StableHlo.TRef.nullary main_call2.cst (constant S_ .f32 0x00000000#32),
    StableHlo.TRef.unary main_call2.cst main_call2.v0 (broadcastInDim S50000x128 ![] bcast_S_S50000x128),
    StableHlo.TRef.binary (.of main_v111) main_call2.v0 main_call2.v1 (cmpf .ogt),
    StableHlo.TRef.nullary main_call2.cst_0 (constant S_ .f32 0x00000000#32),
    StableHlo.TRef.unary main_call2.cst_0 main_call2.v2 (broadcastInDim S50000x128 ![] bcast_S_S50000x128),
    StableHlo.TRef.binary (.of main_v111) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S50000x128 ![] bcast_S_S50000x128),
    StableHlo.TRef.ternary main_call2.v3 main_call2.call0.v1 (.of main_v111) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S50000x128 ![] bcast_S_S50000x128),
    StableHlo.TRef.binary main_call2.v6 main_call2.v5 main_call2.v7 mulf,
    StableHlo.TRef.ternary main_call2.v1 (.of main_v111) main_call2.v7 main_call2.call1.v0 select ]

/-- %113 (dot_general, main_v113) … %144 (the add that yields main_v144) -/
abbrev opsL4 : List (HloOp τ sig (Elt F)) :=
  [ StableHlo.binary main_v112 main_arg8 main_v113 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.nullary main_c_23 (constantI S_ 32 0#32),
    StableHlo.unary main_c_23 main_v114 (broadcastInDim S850000 ![] bcast_S_S850000 : (⟨S_, .i32⟩ : BufTy).Contents (Elt F) → (⟨S850000, .i32⟩ : BufTy).Contents (Elt F)),
    StableHlo.binary main_v3 main_v114 main_v115 (cmpi .slt : (⟨S850000, .i32⟩ : BufTy).Contents (Elt F) → (⟨S850000, .i32⟩ : BufTy).Contents (Elt F) → (⟨S850000, .i1⟩ : BufTy).Contents (Elt F)),
    StableHlo.nullary main_c_24 (constantI S_ 32 50000#32),
    StableHlo.unary main_c_24 main_v116 (broadcastInDim S850000 ![] bcast_S_S850000 : (⟨S_, .i32⟩ : BufTy).Contents (Elt F) → (⟨S850000, .i32⟩ : BufTy).Contents (Elt F)),
    StableHlo.binary main_v3 main_v116 main_v117 (addi : (⟨S850000, .i32⟩ : BufTy).Contents (Elt F) → (⟨S850000, .i32⟩ : BufTy).Contents (Elt F) → (⟨S850000, .i32⟩ : BufTy).Contents (Elt F)),
    StableHlo.ternary main_v115 main_v117 main_v3 main_v118 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v118 main_v119 (broadcastInDim S850000x1 ![0] bcast_S850000_S850000x1_0 : (⟨S850000, .i32⟩ : BufTy).Contents (Elt F) → (⟨S850000x1, .i32⟩ : BufTy).Contents (Elt F)),
    StableHlo.binary main_v14 main_v119 main_v120 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_25 (constantI S_ 32 0#32),
    StableHlo.unary main_c_25 main_v121 (broadcastInDim S850000 ![] bcast_S_S850000 : (⟨S_, .i32⟩ : BufTy).Contents (Elt F) → (⟨S850000, .i32⟩ : BufTy).Contents (Elt F)),
    StableHlo.binary main_v6 main_v121 main_v122 (cmpi .slt : (⟨S850000, .i32⟩ : BufTy).Contents (Elt F) → (⟨S850000, .i32⟩ : BufTy).Contents (Elt F) → (⟨S850000, .i1⟩ : BufTy).Contents (Elt F)),
    StableHlo.nullary main_c_26 (constantI S_ 32 50000#32),
    StableHlo.unary main_c_26 main_v123 (broadcastInDim S850000 ![] bcast_S_S850000 : (⟨S_, .i32⟩ : BufTy).Contents (Elt F) → (⟨S850000, .i32⟩ : BufTy).Contents (Elt F)),
    StableHlo.binary main_v6 main_v123 main_v124 (addi : (⟨S850000, .i32⟩ : BufTy).Contents (Elt F) → (⟨S850000, .i32⟩ : BufTy).Contents (Elt F) → (⟨S850000, .i32⟩ : BufTy).Contents (Elt F)),
    StableHlo.ternary main_v122 main_v124 main_v6 main_v125 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v125 main_v126 (broadcastInDim S850000x1 ![0] bcast_S850000_S850000x1_0 : (⟨S850000, .i32⟩ : BufTy).Contents (Elt F) → (⟨S850000x1, .i32⟩ : BufTy).Contents (Elt F)),
    StableHlo.binary main_v14 main_v126 main_v127 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v120 main_v127 main_v128 (mulf : (⟨S850000, .f32⟩ : BufTy).Contents (Elt F) → (⟨S850000, .f32⟩ : BufTy).Contents (Elt F) → (⟨S850000, .f32⟩ : BufTy).Contents (Elt F)),
    StableHlo.unary main_v128 main_v129 (broadcastInDim S850000x1 ![0] bcast_S850000_S850000x1_0 : (⟨S850000, .f32⟩ : BufTy).Contents (Elt F) → (⟨S850000x1, .f32⟩ : BufTy).Contents (Elt F)),
    StableHlo.nullary main_c_27 (constantI S_ 32 0#32),
    StableHlo.unary main_c_27 main_v130 (broadcastInDim S850000 ![] bcast_S_S850000 : (⟨S_, .i32⟩ : BufTy).Contents (Elt F) → (⟨S850000, .i32⟩ : BufTy).Contents (Elt F)),
    StableHlo.binary main_v3 main_v130 main_v131 (cmpi .slt : (⟨S850000, .i32⟩ : BufTy).Contents (Elt F) → (⟨S850000, .i32⟩ : BufTy).Contents (Elt F) → (⟨S850000, .i1⟩ : BufTy).Contents (Elt F)),
    StableHlo.nullary main_c_28 (constantI S_ 32 50000#32),
    StableHlo.unary main_c_28 main_v132 (broadcastInDim S850000 ![] bcast_S_S850000 : (⟨S_, .i32⟩ : BufTy).Contents (Elt F) → (⟨S850000, .i32⟩ : BufTy).Contents (Elt F)),
    StableHlo.binary main_v3 main_v132 main_v133 (addi : (⟨S850000, .i32⟩ : BufTy).Contents (Elt F) → (⟨S850000, .i32⟩ : BufTy).Contents (Elt F) → (⟨S850000, .i32⟩ : BufTy).Contents (Elt F)),
    StableHlo.ternary main_v131 main_v133 main_v3 main_v134 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v134 main_v135 (broadcastInDim S850000x1 ![0] bcast_S850000_S850000x1_0 : (⟨S850000, .i32⟩ : BufTy).Contents (Elt F) → (⟨S850000x1, .i32⟩ : BufTy).Contents (Elt F)),
    StableHlo.binary main_v113 main_v135 main_v136 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    StableHlo.unary main_v129 main_v137 (broadcastInDim S850000x256 ![0, 1] bcast_S850000x1_S850000x256_0_1 : (⟨S850000x1, .f32⟩ : BufTy).Contents (Elt F) → (⟨S850000x256, .f32⟩ : BufTy).Contents (Elt F)),
    StableHlo.binary main_v136 main_v137 main_v138 (mulf : (⟨S850000x256, .f32⟩ : BufTy).Contents (Elt F) → (⟨S850000x256, .f32⟩ : BufTy).Contents (Elt F) → (⟨S850000x256, .f32⟩ : BufTy).Contents (Elt F)),
    StableHlo.nullary main_cst_29 (constant S_ .f32 0x00000000#32),
    StableHlo.unary main_cst_29 main_v139 (broadcastInDim S50000x256 ![] bcast_S_S50000x256 : (⟨S_, .f32⟩ : BufTy).Contents (Elt F) → (⟨S50000x256, .f32⟩ : BufTy).Contents (Elt F)),
    StableHlo.unary main_v6 main_v140 (broadcastInDim S850000x1 ![0] bcast_S850000_S850000x1_0 : (⟨S850000, .i32⟩ : BufTy).Contents (Elt F) → (⟨S850000x1, .i32⟩ : BufTy).Contents (Elt F)),
    StableHlo.ternary main_v139 main_v140 main_v138 main_v141 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    StableHlo.unary main_arg9 main_v142 (broadcastInDim S1x256 ![1] bcast_S256_S1x256_1 : (⟨S256, .f32⟩ : BufTy).Contents (Elt F) → (⟨S1x256, .f32⟩ : BufTy).Contents (Elt F)),
    StableHlo.unary main_v142 main_v143 (broadcastInDim S50000x256 ![0, 1] bcast_S1x256_S50000x256_0_1 : (⟨S1x256, .f32⟩ : BufTy).Contents (Elt F) → (⟨S50000x256, .f32⟩ : BufTy).Contents (Elt F)),
    StableHlo.binary main_v141 main_v143 main_v144 (addf : (⟨S50000x256, .f32⟩ : BufTy).Contents (Elt F) → (⟨S50000x256, .f32⟩ : BufTy).Contents (Elt F) → (⟨S50000x256, .f32⟩ : BufTy).Contents (Elt F)) ]

/-- @main's 207 operations, in order. -/
abbrev ops : List (HloOp τ sig (Elt F)) := opsPre ++ (opsL1 ++ (opsL2 ++ (opsL3 ++ opsL4)))

/-! ## The same operations, as the printed program groups its statements -/

/-- statements 1 … 60: %0 … %48, the calls of @_where and of the first @elu replaced by their operations -/
abbrev win0 : List (HloOp τ sig (Elt F)) :=
  [ StableHlo.nullary main_v0 (iotaInDim S50000 32 0),
    StableHlo.unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v4 main_v5 rfl shapeCasts_S1x800000_S800000,
    StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x3F800000#32),
    StableHlo.unary main_cst main_v7 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S850000x1 ![0] bcast_S850000_S850000x1_0 : (⟨S850000, .i32⟩ : BufTy).Contents (Elt F) → (⟨S850000x1, .i32⟩ : BufTy).Contents (Elt F)),
    StableHlo.ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.unary main_v10 main_v13 (Host.rsqrt : (⟨S50000, .f32⟩ : BufTy).Contents (Elt F) → (⟨S50000, .f32⟩ : BufTy).Contents (Elt F)),
    StableHlo.nullary main_cst_2 (constant S_ .f32 0x00000000#32),
    StableHlo.TRef.unary (.of main_cst_2) main_call0.v0 id,
    StableHlo.TRef.unary main_call0.v0 main_call0.v1 (broadcastInDim S50000 ![] bcast_S_S50000),
    StableHlo.TRef.ternary (.of main_v12) (.of main_v13) main_call0.v1 main_call0.v2 select,
    StableHlo.binary main_arg0 main_arg2 main_v15 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.nullary main_c (constantI S_ 32 0#32),
    StableHlo.unary main_c main_v16 (broadcastInDim S850000 ![] bcast_S_S850000 : (⟨S_, .i32⟩ : BufTy).Contents (Elt F) → (⟨S850000, .i32⟩ : BufTy).Contents (Elt F)),
    StableHlo.binary main_v3 main_v16 main_v17 (cmpi .slt : (⟨S850000, .i32⟩ : BufTy).Contents (Elt F) → (⟨S850000, .i32⟩ : BufTy).Contents (Elt F) → (⟨S850000, .i1⟩ : BufTy).Contents (Elt F)),
    StableHlo.nullary main_c_3 (constantI S_ 32 50000#32),
    StableHlo.unary main_c_3 main_v18 (broadcastInDim S850000 ![] bcast_S_S850000 : (⟨S_, .i32⟩ : BufTy).Contents (Elt F) → (⟨S850000, .i32⟩ : BufTy).Contents (Elt F)),
    StableHlo.binary main_v3 main_v18 main_v19 (addi : (⟨S850000, .i32⟩ : BufTy).Contents (Elt F) → (⟨S850000, .i32⟩ : BufTy).Contents (Elt F) → (⟨S850000, .i32⟩ : BufTy).Contents (Elt F)),
    StableHlo.ternary main_v17 main_v19 main_v3 main_v20 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v20 main_v21 (broadcastInDim S850000x1 ![0] bcast_S850000_S850000x1_0 : (⟨S850000, .i32⟩ : BufTy).Contents (Elt F) → (⟨S850000x1, .i32⟩ : BufTy).Contents (Elt F)),
    StableHlo.binary main_v14 main_v21 main_v22 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_4 (constantI S_ 32 0#32),
    StableHlo.unary main_c_4 main_v23 (broadcastInDim S850000 ![] bcast_S_S850000 : (⟨S_, .i32⟩ : BufTy).Contents (Elt F) → (⟨S850000, .i32⟩ : BufTy).Contents (Elt F)),
    StableHlo.binary main_v6 main_v23 main_v24 (cmpi .slt : (⟨S850000, .i32⟩ : BufTy).Contents (Elt F) → (⟨S850000, .i32⟩ : BufTy).Contents (Elt F) → (⟨S850000, .i1⟩ : BufTy).Contents (Elt F)),
    StableHlo.nullary main_c_5 (constantI S_ 32 50000#32),
    StableHlo.unary main_c_5 main_v25 (broadcastInDim S850000 ![] bcast_S_S850000 : (⟨S_, .i32⟩ : BufTy).Contents (Elt F) → (⟨S850000, .i32⟩ : BufTy).Contents (Elt F)),
    StableHlo.binary main_v6 main_v25 main_v26 (addi : (⟨S850000, .i32⟩ : BufTy).Contents (Elt F) → (⟨S850000, .i32⟩ : BufTy).Contents (Elt F) → (⟨S850000, .i32⟩ : BufTy).Contents (Elt F)),
    StableHlo.ternary main_v24 main_v26 main_v6 main_v27 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v27 main_v28 (broadcastInDim S850000x1 ![0] bcast_S850000_S850000x1_0 : (⟨S850000, .i32⟩ : BufTy).Contents (Elt F) → (⟨S850000x1, .i32⟩ : BufTy).Contents (Elt F)),
    StableHlo.binary main_v14 main_v28 main_v29 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v22 main_v29 main_v30 (mulf : (⟨S850000, .f32⟩ : BufTy).Contents (Elt F) → (⟨S850000, .f32⟩ : BufTy).Contents (Elt F) → (⟨S850000, .f32⟩ : BufTy).Contents (Elt F)),
    StableHlo.unary main_v30 main_v31 (broadcastInDim S850000x1 ![0] bcast_S850000_S850000x1_0 : (⟨S850000, .f32⟩ : BufTy).Contents (Elt F) → (⟨S850000x1, .f32⟩ : BufTy).Contents (Elt F)),
    StableHlo.nullary main_c_6 (constantI S_ 32 0#32),
    StableHlo.unary main_c_6 main_v32 (broadcastInDim S850000 ![] bcast_S_S850000 : (⟨S_, .i32⟩ : BufTy).Contents (Elt F) → (⟨S850000, .i32⟩ : BufTy).Contents (Elt F)),
    StableHlo.binary main_v3 main_v32 main_v33 (cmpi .slt : (⟨S850000, .i32⟩ : BufTy).Contents (Elt F) → (⟨S850000, .i32⟩ : BufTy).Contents (Elt F) → (⟨S850000, .i1⟩ : BufTy).Contents (Elt F)),
    StableHlo.nullary main_c_7 (constantI S_ 32 50000#32),
    StableHlo.unary main_c_7 main_v34 (broadcastInDim S850000 ![] bcast_S_S850000 : (⟨S_, .i32⟩ : BufTy).Contents (Elt F) → (⟨S850000, .i32⟩ : BufTy).Contents (Elt F)),
    StableHlo.binary main_v3 main_v34 main_v35 (addi : (⟨S850000, .i32⟩ : BufTy).Contents (Elt F) → (⟨S850000, .i32⟩ : BufTy).Contents (Elt F) → (⟨S850000, .i32⟩ : BufTy).Contents (Elt F)),
    StableHlo.ternary main_v33 main_v35 main_v3 main_v36 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v36 main_v37 (broadcastInDim S850000x1 ![0] bcast_S850000_S850000x1_0 : (⟨S850000, .i32⟩ : BufTy).Contents (Elt F) → (⟨S850000x1, .i32⟩ : BufTy).Contents (Elt F)),
    StableHlo.binary main_v15 main_v37 main_v38 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v31 main_v39 (broadcastInDim S850000x128 ![0, 1] bcast_S850000x1_S850000x128_0_1 : (⟨S850000x1, .f32⟩ : BufTy).Contents (Elt F) → (⟨S850000x128, .f32⟩ : BufTy).Contents (Elt F)),
    StableHlo.binary main_v38 main_v39 main_v40 (mulf : (⟨S850000x128, .f32⟩ : BufTy).Contents (Elt F) → (⟨S850000x128, .f32⟩ : BufTy).Contents (Elt F) → (⟨S850000x128, .f32⟩ : BufTy).Contents (Elt F)),
    StableHlo.nullary main_cst_8 (constant S_ .f32 0x00000000#32),
    StableHlo.unary main_cst_8 main_v41 (broadcastInDim S50000x128 ![] bcast_S_S50000x128 : (⟨S_, .f32⟩ : BufTy).Contents (Elt F) → (⟨S50000x128, .f32⟩ : BufTy).Contents (Elt F)),
    StableHlo.unary main_v6 main_v42 (broadcastInDim S850000x1 ![0] bcast_S850000_S850000x1_0 : (⟨S850000, .i32⟩ : BufTy).Contents (Elt F) → (⟨S850000x1, .i32⟩ : BufTy).Contents (Elt F)),
    StableHlo.ternary main_v41 main_v42 main_v40 main_v43 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg3 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S50000x128 ![0, 1] bcast_S1x128_S50000x128_0_1 : (⟨S1x128, .f32⟩ : BufTy).Contents (Elt F) → (⟨S50000x128, .f32⟩ : BufTy).Contents (Elt F)),
    StableHlo.binary main_v43 main_v45 main_v46 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (.of main_v46) main_call1.v0 main_call1.v1 (cmpf .ogt),
    StableHlo.TRef.nullary main_call1.cst_0 (constant S_ .f32 0x00000000#32),
    StableHlo.TRef.unary main_call1.cst_0 main_call1.v2 (broadcastInDim S50000x128 ![] bcast_S_S50000x128),
    StableHlo.TRef.binary (.of main_v46) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S50000x128 ![] bcast_S_S50000x128),
    StableHlo.TRef.ternary main_call1.v3 main_call1.call0.v1 (.of main_v46) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S50000x128 ![] bcast_S_S50000x128),
    StableHlo.TRef.binary main_call1.v6 main_call1.v5 main_call1.v7 mulf,
    StableHlo.TRef.ternary main_call1.v1 (.of main_v46) main_call1.v7 main_call1.call1.v0 select,
    StableHlo.binary main_v47 main_arg4 main_v48 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)) ]

/-- statements 61 … 120: %c_9 … %c_20 -/
abbrev win1 : List (HloOp τ sig (Elt F)) :=
  [ StableHlo.nullary main_c_9 (constantI S_ 32 0#32),
    StableHlo.unary main_c_9 main_v49 (broadcastInDim S850000 ![] bcast_S_S850000 : (⟨S_, .i32⟩ : BufTy).Contents (Elt F) → (⟨S850000, .i32⟩ : BufTy).Contents (Elt F)),
    StableHlo.binary main_v3 main_v49 main_v50 (cmpi .slt : (⟨S850000, .i32⟩ : BufTy).Contents (Elt F) → (⟨S850000, .i32⟩ : BufTy).Contents (Elt F) → (⟨S850000, .i1⟩ : BufTy).Contents (Elt F)),
    StableHlo.nullary main_c_10 (constantI S_ 32 50000#32),
    StableHlo.unary main_c_10 main_v51 (broadcastInDim S850000 ![] bcast_S_S850000 : (⟨S_, .i32⟩ : BufTy).Contents (Elt F) → (⟨S850000, .i32⟩ : BufTy).Contents (Elt F)),
    StableHlo.binary main_v3 main_v51 main_v52 (addi : (⟨S850000, .i32⟩ : BufTy).Contents (Elt F) → (⟨S850000, .i32⟩ : BufTy).Contents (Elt F) → (⟨S850000, .i32⟩ : BufTy).Contents (Elt F)),
    StableHlo.ternary main_v50 main_v52 main_v3 main_v53 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v53 main_v54 (broadcastInDim S850000x1 ![0] bcast_S850000_S850000x1_0 : (⟨S850000, .i32⟩ : BufTy).Contents (Elt F) → (⟨S850000x1, .i32⟩ : BufTy).Contents (Elt F)),
    StableHlo.binary main_v14 main_v54 main_v55 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_11 (constantI S_ 32 0#32),
    StableHlo.unary main_c_11 main_v56 (broadcastInDim S850000 ![] bcast_S_S850000 : (⟨S_, .i32⟩ : BufTy).Contents (Elt F) → (⟨S850000, .i32⟩ : BufTy).Contents (Elt F)),
    StableHlo.binary main_v6 main_v56 main_v57 (cmpi .slt : (⟨S850000, .i32⟩ : BufTy).Contents (Elt F) → (⟨S850000, .i32⟩ : BufTy).Contents (Elt F) → (⟨S850000, .i1⟩ : BufTy).Contents (Elt F)),
    StableHlo.nullary main_c_12 (constantI S_ 32 50000#32),
    StableHlo.unary main_c_12 main_v58 (broadcastInDim S850000 ![] bcast_S_S850000 : (⟨S_, .i32⟩ : BufTy).Contents (Elt F) → (⟨S850000, .i32⟩ : BufTy).Contents (Elt F)),
    StableHlo.binary main_v6 main_v58 main_v59 (addi : (⟨S850000, .i32⟩ : BufTy).Contents (Elt F) → (⟨S850000, .i32⟩ : BufTy).Contents (Elt F) → (⟨S850000, .i32⟩ : BufTy).Contents (Elt F)),
    StableHlo.ternary main_v57 main_v59 main_v6 main_v60 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v60 main_v61 (broadcastInDim S850000x1 ![0] bcast_S850000_S850000x1_0 : (⟨S850000, .i32⟩ : BufTy).Contents (Elt F) → (⟨S850000x1, .i32⟩ : BufTy).Contents (Elt F)),
    StableHlo.binary main_v14 main_v61 main_v62 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v55 main_v62 main_v63 (mulf : (⟨S850000, .f32⟩ : BufTy).Contents (Elt F) → (⟨S850000, .f32⟩ : BufTy).Contents (Elt F) → (⟨S850000, .f32⟩ : BufTy).Contents (Elt F)),
    StableHlo.unary main_v63 main_v64 (broadcastInDim S850000x1 ![0] bcast_S850000_S850000x1_0 : (⟨S850000, .f32⟩ : BufTy).Contents (Elt F) → (⟨S850000x1, .f32⟩ : BufTy).Contents (Elt F)),
    StableHlo.nullary main_c_13 (constantI S_ 32 0#32),
    StableHlo.unary main_c_13 main_v65 (broadcastInDim S850000 ![] bcast_S_S850000 : (⟨S_, .i32⟩ : BufTy).Contents (Elt F) → (⟨S850000, .i32⟩ : BufTy).Contents (Elt F)),
    StableHlo.binary main_v3 main_v65 main_v66 (cmpi .slt : (⟨S850000, .i32⟩ : BufTy).Contents (Elt F) → (⟨S850000, .i32⟩ : BufTy).Contents (Elt F) → (⟨S850000, .i1⟩ : BufTy).Contents (Elt F)),
    StableHlo.nullary main_c_14 (constantI S_ 32 50000#32),
    StableHlo.unary main_c_14 main_v67 (broadcastInDim S850000 ![] bcast_S_S850000 : (⟨S_, .i32⟩ : BufTy).Contents (Elt F) → (⟨S850000, .i32⟩ : BufTy).Contents (Elt F)),
    StableHlo.binary main_v3 main_v67 main_v68 (addi : (⟨S850000, .i32⟩ : BufTy).Contents (Elt F) → (⟨S850000, .i32⟩ : BufTy).Contents (Elt F) → (⟨S850000, .i32⟩ : BufTy).Contents (Elt F)),
    StableHlo.ternary main_v66 main_v68 main_v3 main_v69 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v69 main_v70 (broadcastInDim S850000x1 ![0] bcast_S850000_S850000x1_0 : (⟨S850000, .i32⟩ : BufTy).Contents (Elt F) → (⟨S850000x1, .i32⟩ : BufTy).Contents (Elt F)),
    StableHlo.binary main_v48 main_v70 main_v71 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    StableHlo.unary main_v64 main_v72 (broadcastInDim S850000x64 ![0, 1] bcast_S850000x1_S850000x64_0_1 : (⟨S850000x1, .f32⟩ : BufTy).Contents (Elt F) → (⟨S850000x64, .f32⟩ : BufTy).Contents (Elt F)),
    StableHlo.binary main_v71 main_v72 main_v73 (mulf : (⟨S850000x64, .f32⟩ : BufTy).Contents (Elt F) → (⟨S850000x64, .f32⟩ : BufTy).Contents (Elt F) → (⟨S850000x64, .f32⟩ : BufTy).Contents (Elt F)),
    StableHlo.nullary main_cst_15 (constant S_ .f32 0x00000000#32),
    StableHlo.unary main_cst_15 main_v74 (broadcastInDim S50000x64 ![] bcast_S_S50000x64 : (⟨S_, .f32⟩ : BufTy).Contents (Elt F) → (⟨S50000x64, .f32⟩ : BufTy).Contents (Elt F)),
    StableHlo.unary main_v6 main_v75 (broadcastInDim S850000x1 ![0] bcast_S850000_S850000x1_0 : (⟨S850000, .i32⟩ : BufTy).Contents (Elt F) → (⟨S850000x1, .i32⟩ : BufTy).Contents (Elt F)),
    StableHlo.ternary main_v74 main_v75 main_v73 main_v76 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    StableHlo.unary main_arg5 main_v77 (broadcastInDim S1x64 ![1] bcast_S64_S1x64_1 : (⟨S64, .f32⟩ : BufTy).Contents (Elt F) → (⟨S1x64, .f32⟩ : BufTy).Contents (Elt F)),
    StableHlo.unary main_v77 main_v78 (broadcastInDim S50000x64 ![0, 1] bcast_S1x64_S50000x64_0_1 : (⟨S1x64, .f32⟩ : BufTy).Contents (Elt F) → (⟨S50000x64, .f32⟩ : BufTy).Contents (Elt F)),
    StableHlo.binary main_v76 main_v78 main_v79 (addf : (⟨S50000x64, .f32⟩ : BufTy).Contents (Elt F) → (⟨S50000x64, .f32⟩ : BufTy).Contents (Elt F) → (⟨S50000x64, .f32⟩ : BufTy).Contents (Elt F)),
    StableHlo.binary main_v79 main_arg6 main_v80 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    StableHlo.nullary main_c_16 (constantI S_ 32 0#32),
    StableHlo.unary main_c_16 main_v81 (broadcastInDim S850000 ![] bcast_S_S850000 : (⟨S_, .i32⟩ : BufTy).Contents (Elt F) → (⟨S850000, .i32⟩ : BufTy).Contents (Elt F)),
    StableHlo.binary main_v3 main_v81 main_v82 (cmpi .slt : (⟨S850000, .i32⟩ : BufTy).Contents (Elt F) → (⟨S850000, .i32⟩ : BufTy).Contents (Elt F) → (⟨S850000, .i1⟩ : BufTy).Contents (Elt F)),
    StableHlo.nullary main_c_17 (constantI S_ 32 50000#32),
    StableHlo.unary main_c_17 main_v83 (broadcastInDim S850000 ![] bcast_S_S850000 : (⟨S_, .i32⟩ : BufTy).Contents (Elt F) → (⟨S850000, .i32⟩ : BufTy).Contents (Elt F)),
    StableHlo.binary main_v3 main_v83 main_v84 (addi : (⟨S850000, .i32⟩ : BufTy).Contents (Elt F) → (⟨S850000, .i32⟩ : BufTy).Contents (Elt F) → (⟨S850000, .i32⟩ : BufTy).Contents (Elt F)),
    StableHlo.ternary main_v82 main_v84 main_v3 main_v85 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v85 main_v86 (broadcastInDim S850000x1 ![0] bcast_S850000_S850000x1_0 : (⟨S850000, .i32⟩ : BufTy).Contents (Elt F) → (⟨S850000x1, .i32⟩ : BufTy).Contents (Elt F)),
    StableHlo.binary main_v14 main_v86 main_v87 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_18 (constantI S_ 32 0#32),
    StableHlo.unary main_c_18 main_v88 (broadcastInDim S850000 ![] bcast_S_S850000 : (⟨S_, .i32⟩ : BufTy).Contents (Elt F) → (⟨S850000, .i32⟩ : BufTy).Contents (Elt F)),
    StableHlo.binary main_v6 main_v88 main_v89 (cmpi .slt : (⟨S850000, .i32⟩ : BufTy).Contents (Elt F) → (⟨S850000, .i32⟩ : BufTy).Contents (Elt F) → (⟨S850000, .i1⟩ : BufTy).Contents (Elt F)),
    StableHlo.nullary main_c_19 (constantI S_ 32 50000#32),
    StableHlo.unary main_c_19 main_v90 (broadcastInDim S850000 ![] bcast_S_S850000 : (⟨S_, .i32⟩ : BufTy).Contents (Elt F) → (⟨S850000, .i32⟩ : BufTy).Contents (Elt F)),
    StableHlo.binary main_v6 main_v90 main_v91 (addi : (⟨S850000, .i32⟩ : BufTy).Contents (Elt F) → (⟨S850000, .i32⟩ : BufTy).Contents (Elt F) → (⟨S850000, .i32⟩ : BufTy).Contents (Elt F)),
    StableHlo.ternary main_v89 main_v91 main_v6 main_v92 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v92 main_v93 (broadcastInDim S850000x1 ![0] bcast_S850000_S850000x1_0 : (⟨S850000, .i32⟩ : BufTy).Contents (Elt F) → (⟨S850000x1, .i32⟩ : BufTy).Contents (Elt F)),
    StableHlo.binary main_v14 main_v93 main_v94 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v87 main_v94 main_v95 (mulf : (⟨S850000, .f32⟩ : BufTy).Contents (Elt F) → (⟨S850000, .f32⟩ : BufTy).Contents (Elt F) → (⟨S850000, .f32⟩ : BufTy).Contents (Elt F)),
    StableHlo.unary main_v95 main_v96 (broadcastInDim S850000x1 ![0] bcast_S850000_S850000x1_0 : (⟨S850000, .f32⟩ : BufTy).Contents (Elt F) → (⟨S850000x1, .f32⟩ : BufTy).Contents (Elt F)),
    StableHlo.nullary main_c_20 (constantI S_ 32 0#32) ]

/-- statements 121 … 177: %97 … %144, the call of the second @elu replaced by its operations -/
abbrev win2 : List (HloOp τ sig (Elt F)) :=
  [ StableHlo.unary main_c_20 main_v97 (broadcastInDim S850000 ![] bcast_S_S850000 : (⟨S_, .i32⟩ : BufTy).Contents (Elt F) → (⟨S850000, .i32⟩ : BufTy).Contents (Elt F)),
    StableHlo.binary main_v3 main_v97 main_v98 (cmpi .slt : (⟨S850000, .i32⟩ : BufTy).Contents (Elt F) → (⟨S850000, .i32⟩ : BufTy).Contents (Elt F) → (⟨S850000, .i1⟩ : BufTy).Contents (Elt F)),
    StableHlo.nullary main_c_21 (constantI S_ 32 50000#32),
    StableHlo.unary main_c_21 main_v99 (broadcastInDim S850000 ![] bcast_S_S850000 : (⟨S_, .i32⟩ : BufTy).Contents (Elt F) → (⟨S850000, .i32⟩ : BufTy).Contents (Elt F)),
    StableHlo.binary main_v3 main_v99 main_v100 (addi : (⟨S850000, .i32⟩ : BufTy).Contents (Elt F) → (⟨S850000, .i32⟩ : BufTy).Contents (Elt F) → (⟨S850000, .i32⟩ : BufTy).Contents (Elt F)),
    StableHlo.ternary main_v98 main_v100 main_v3 main_v101 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v101 main_v102 (broadcastInDim S850000x1 ![0] bcast_S850000_S850000x1_0 : (⟨S850000, .i32⟩ : BufTy).Contents (Elt F) → (⟨S850000x1, .i32⟩ : BufTy).Contents (Elt F)),
    StableHlo.binary main_v80 main_v102 main_v103 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v96 main_v104 (broadcastInDim S850000x128 ![0, 1] bcast_S850000x1_S850000x128_0_1 : (⟨S850000x1, .f32⟩ : BufTy).Contents (Elt F) → (⟨S850000x128, .f32⟩ : BufTy).Contents (Elt F)),
    StableHlo.binary main_v103 main_v104 main_v105 (mulf : (⟨S850000x128, .f32⟩ : BufTy).Contents (Elt F) → (⟨S850000x128, .f32⟩ : BufTy).Contents (Elt F) → (⟨S850000x128, .f32⟩ : BufTy).Contents (Elt F)),
    StableHlo.nullary main_cst_22 (constant S_ .f32 0x00000000#32),
    StableHlo.unary main_cst_22 main_v106 (broadcastInDim S50000x128 ![] bcast_S_S50000x128 : (⟨S_, .f32⟩ : BufTy).Contents (Elt F) → (⟨S50000x128, .f32⟩ : BufTy).Contents (Elt F)),
    StableHlo.unary main_v6 main_v107 (broadcastInDim S850000x1 ![0] bcast_S850000_S850000x1_0 : (⟨S850000, .i32⟩ : BufTy).Contents (Elt F) → (⟨S850000x1, .i32⟩ : BufTy).Contents (Elt F)),
    StableHlo.ternary main_v106 main_v107 main_v105 main_v108 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg7 main_v109 (broadcastInDim S1x128 ![1] bcast_S128_S1x128_1 : (⟨S128, .f32⟩ : BufTy).Contents (Elt F) → (⟨S1x128, .f32⟩ : BufTy).Contents (Elt F)),
    StableHlo.unary main_v109 main_v110 (broadcastInDim S50000x128 ![0, 1] bcast_S1x128_S50000x128_0_1 : (⟨S1x128, .f32⟩ : BufTy).Contents (Elt F) → (⟨S50000x128, .f32⟩ : BufTy).Contents (Elt F)),
    StableHlo.binary main_v108 main_v110 main_v111 (addf : (⟨S50000x128, .f32⟩ : BufTy).Contents (Elt F) → (⟨S50000x128, .f32⟩ : BufTy).Contents (Elt F) → (⟨S50000x128, .f32⟩ : BufTy).Contents (Elt F)),
    StableHlo.TRef.nullary main_call2.cst (constant S_ .f32 0x00000000#32),
    StableHlo.TRef.unary main_call2.cst main_call2.v0 (broadcastInDim S50000x128 ![] bcast_S_S50000x128),
    StableHlo.TRef.binary (.of main_v111) main_call2.v0 main_call2.v1 (cmpf .ogt),
    StableHlo.TRef.nullary main_call2.cst_0 (constant S_ .f32 0x00000000#32),
    StableHlo.TRef.unary main_call2.cst_0 main_call2.v2 (broadcastInDim S50000x128 ![] bcast_S_S50000x128),
    StableHlo.TRef.binary (.of main_v111) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S50000x128 ![] bcast_S_S50000x128),
    StableHlo.TRef.ternary main_call2.v3 main_call2.call0.v1 (.of main_v111) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S50000x128 ![] bcast_S_S50000x128),
    StableHlo.TRef.binary main_call2.v6 main_call2.v5 main_call2.v7 mulf,
    StableHlo.TRef.ternary main_call2.v1 (.of main_v111) main_call2.v7 main_call2.call1.v0 select,
    StableHlo.binary main_v112 main_arg8 main_v113 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.nullary main_c_23 (constantI S_ 32 0#32),
    StableHlo.unary main_c_23 main_v114 (broadcastInDim S850000 ![] bcast_S_S850000 : (⟨S_, .i32⟩ : BufTy).Contents (Elt F) → (⟨S850000, .i32⟩ : BufTy).Contents (Elt F)),
    StableHlo.binary main_v3 main_v114 main_v115 (cmpi .slt : (⟨S850000, .i32⟩ : BufTy).Contents (Elt F) → (⟨S850000, .i32⟩ : BufTy).Contents (Elt F) → (⟨S850000, .i1⟩ : BufTy).Contents (Elt F)),
    StableHlo.nullary main_c_24 (constantI S_ 32 50000#32),
    StableHlo.unary main_c_24 main_v116 (broadcastInDim S850000 ![] bcast_S_S850000 : (⟨S_, .i32⟩ : BufTy).Contents (Elt F) → (⟨S850000, .i32⟩ : BufTy).Contents (Elt F)),
    StableHlo.binary main_v3 main_v116 main_v117 (addi : (⟨S850000, .i32⟩ : BufTy).Contents (Elt F) → (⟨S850000, .i32⟩ : BufTy).Contents (Elt F) → (⟨S850000, .i32⟩ : BufTy).Contents (Elt F)),
    StableHlo.ternary main_v115 main_v117 main_v3 main_v118 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v118 main_v119 (broadcastInDim S850000x1 ![0] bcast_S850000_S850000x1_0 : (⟨S850000, .i32⟩ : BufTy).Contents (Elt F) → (⟨S850000x1, .i32⟩ : BufTy).Contents (Elt F)),
    StableHlo.binary main_v14 main_v119 main_v120 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_25 (constantI S_ 32 0#32),
    StableHlo.unary main_c_25 main_v121 (broadcastInDim S850000 ![] bcast_S_S850000 : (⟨S_, .i32⟩ : BufTy).Contents (Elt F) → (⟨S850000, .i32⟩ : BufTy).Contents (Elt F)),
    StableHlo.binary main_v6 main_v121 main_v122 (cmpi .slt : (⟨S850000, .i32⟩ : BufTy).Contents (Elt F) → (⟨S850000, .i32⟩ : BufTy).Contents (Elt F) → (⟨S850000, .i1⟩ : BufTy).Contents (Elt F)),
    StableHlo.nullary main_c_26 (constantI S_ 32 50000#32),
    StableHlo.unary main_c_26 main_v123 (broadcastInDim S850000 ![] bcast_S_S850000 : (⟨S_, .i32⟩ : BufTy).Contents (Elt F) → (⟨S850000, .i32⟩ : BufTy).Contents (Elt F)),
    StableHlo.binary main_v6 main_v123 main_v124 (addi : (⟨S850000, .i32⟩ : BufTy).Contents (Elt F) → (⟨S850000, .i32⟩ : BufTy).Contents (Elt F) → (⟨S850000, .i32⟩ : BufTy).Contents (Elt F)),
    StableHlo.ternary main_v122 main_v124 main_v6 main_v125 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v125 main_v126 (broadcastInDim S850000x1 ![0] bcast_S850000_S850000x1_0 : (⟨S850000, .i32⟩ : BufTy).Contents (Elt F) → (⟨S850000x1, .i32⟩ : BufTy).Contents (Elt F)),
    StableHlo.binary main_v14 main_v126 main_v127 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v120 main_v127 main_v128 (mulf : (⟨S850000, .f32⟩ : BufTy).Contents (Elt F) → (⟨S850000, .f32⟩ : BufTy).Contents (Elt F) → (⟨S850000, .f32⟩ : BufTy).Contents (Elt F)),
    StableHlo.unary main_v128 main_v129 (broadcastInDim S850000x1 ![0] bcast_S850000_S850000x1_0 : (⟨S850000, .f32⟩ : BufTy).Contents (Elt F) → (⟨S850000x1, .f32⟩ : BufTy).Contents (Elt F)),
    StableHlo.nullary main_c_27 (constantI S_ 32 0#32),
    StableHlo.unary main_c_27 main_v130 (broadcastInDim S850000 ![] bcast_S_S850000 : (⟨S_, .i32⟩ : BufTy).Contents (Elt F) → (⟨S850000, .i32⟩ : BufTy).Contents (Elt F)),
    StableHlo.binary main_v3 main_v130 main_v131 (cmpi .slt : (⟨S850000, .i32⟩ : BufTy).Contents (Elt F) → (⟨S850000, .i32⟩ : BufTy).Contents (Elt F) → (⟨S850000, .i1⟩ : BufTy).Contents (Elt F)),
    StableHlo.nullary main_c_28 (constantI S_ 32 50000#32),
    StableHlo.unary main_c_28 main_v132 (broadcastInDim S850000 ![] bcast_S_S850000 : (⟨S_, .i32⟩ : BufTy).Contents (Elt F) → (⟨S850000, .i32⟩ : BufTy).Contents (Elt F)),
    StableHlo.binary main_v3 main_v132 main_v133 (addi : (⟨S850000, .i32⟩ : BufTy).Contents (Elt F) → (⟨S850000, .i32⟩ : BufTy).Contents (Elt F) → (⟨S850000, .i32⟩ : BufTy).Contents (Elt F)),
    StableHlo.ternary main_v131 main_v133 main_v3 main_v134 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v134 main_v135 (broadcastInDim S850000x1 ![0] bcast_S850000_S850000x1_0 : (⟨S850000, .i32⟩ : BufTy).Contents (Elt F) → (⟨S850000x1, .i32⟩ : BufTy).Contents (Elt F)),
    StableHlo.binary main_v113 main_v135 main_v136 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    StableHlo.unary main_v129 main_v137 (broadcastInDim S850000x256 ![0, 1] bcast_S850000x1_S850000x256_0_1 : (⟨S850000x1, .f32⟩ : BufTy).Contents (Elt F) → (⟨S850000x256, .f32⟩ : BufTy).Contents (Elt F)),
    StableHlo.binary main_v136 main_v137 main_v138 (mulf : (⟨S850000x256, .f32⟩ : BufTy).Contents (Elt F) → (⟨S850000x256, .f32⟩ : BufTy).Contents (Elt F) → (⟨S850000x256, .f32⟩ : BufTy).Contents (Elt F)),
    StableHlo.nullary main_cst_29 (constant S_ .f32 0x00000000#32),
    StableHlo.unary main_cst_29 main_v139 (broadcastInDim S50000x256 ![] bcast_S_S50000x256 : (⟨S_, .f32⟩ : BufTy).Contents (Elt F) → (⟨S50000x256, .f32⟩ : BufTy).Contents (Elt F)),
    StableHlo.unary main_v6 main_v140 (broadcastInDim S850000x1 ![0] bcast_S850000_S850000x1_0 : (⟨S850000, .i32⟩ : BufTy).Contents (Elt F) → (⟨S850000x1, .i32⟩ : BufTy).Contents (Elt F)),
    StableHlo.ternary main_v139 main_v140 main_v138 main_v141 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    StableHlo.unary main_arg9 main_v142 (broadcastInDim S1x256 ![1] bcast_S256_S1x256_1 : (⟨S256, .f32⟩ : BufTy).Contents (Elt F) → (⟨S1x256, .f32⟩ : BufTy).Contents (Elt F)),
    StableHlo.unary main_v142 main_v143 (broadcastInDim S50000x256 ![0, 1] bcast_S1x256_S50000x256_0_1 : (⟨S1x256, .f32⟩ : BufTy).Contents (Elt F) → (⟨S50000x256, .f32⟩ : BufTy).Contents (Elt F)),
    StableHlo.binary main_v141 main_v143 main_v144 (addf : (⟨S50000x256, .f32⟩ : BufTy).Contents (Elt F) → (⟨S50000x256, .f32⟩ : BufTy).Contents (Elt F) → (⟨S50000x256, .f32⟩ : BufTy).Contents (Elt F)) ]

set_option maxRecDepth 8192 in
/-- Both groupings list the same 207 operations in the same order: concatenation of literal lists computes. -/
theorem win_eq : (win0 ++ (win1 ++ win2) : List (HloOp τ sig (Elt F))) = ops := rfl

/-! ## @main is the sequence of its operations -/

set_option maxRecDepth 8192 in
/-- The first printed definition is the sequence of its group: @_where's, @elu's, @_where_0's and @_where_1's bodies
    unfolded at their calls, and the sequencing reassociated (`bind_assoc`; a body's closing `pure` is absorbed,
    `pure_bind`), both sides are one chain of steps. -/
theorem part0_eq (c : Dev nD) : main_part0 (F := F) c = seq win0 := by
  simp only [main_part0, fn_where.body, fn_elu.body, fn_where_0.body, fn_where_1.body, seq, bind_assoc, pure_bind]
  rfl

set_option maxRecDepth 8192 in
/-- The second printed definition calls nothing: it is the sequence of its statements as it stands. -/
theorem part1_eq (c : Dev nD) : main_part1 (F := F) c = seq win1 := rfl

set_option maxRecDepth 8192 in
/-- The third, as the first: the second call of @elu unfolded; the two chains are then the same term. -/
theorem part2_eq (c : Dev nD) : main_part2 (F := F) c = seq win2 := by
  simp only [main_part2, fn_elu.body, fn_where_0.body, fn_where_1.body, seq, bind_assoc, pure_bind]

/-- @main runs its three definitions in order, and a sequence of concatenated lists is the sequences in order. -/
theorem main_eq (c : Dev nD) : main (F := F) c = seq ops := by
  rw [← win_eq, seq_append, seq_append, ← part0_eq c, ← part1_eq c, ← part2_eq c]
  rfl

/-- The contents after all the operations are the contents after each stretch in turn. -/
theorem after_ops (V : Valuation τ sig (Elt F)) :
    after ops V = after opsL4 (after opsL3 (after opsL2 (after opsL1 (after opsPre V)))) := by
  simp only [ops, StableHlo.after_append]

/-! ## The run -/

theorem scopedRefs_eq : (Finset.univ.filter fun b : Ref sig .tc => b.isScoped) = ∅ := by decide
theorem scopedSems_eq : (Finset.univ.filter fun sm : SemLoc sig => sm.isScoped .tc) = ∅ := by decide

/-! Every operation is one of the builders over TensorCore references, and a builder touches only the references it is
    given: stretch by stretch, then for the concatenation. -/

theorem opsPre_sub : (opsPre : List (HloOp τ sig (Elt F))).Forall fun op => op.bufs ⊆ tcRefs τ sig := by
  simp only [opsPre, List.Forall, nullary_bufs_sub, unary_bufs_sub, binary_bufs_sub, ternary_bufs_sub, reshape_bufs_sub, and_self]
theorem opsL1_sub : (opsL1 : List (HloOp τ sig (Elt F))).Forall fun op => op.bufs ⊆ tcRefs τ sig := by
  simp only [opsL1, List.Forall, nullary_bufs_sub, unary_bufs_sub, binary_bufs_sub, ternary_bufs_sub, and_self]
theorem opsL2_sub : (opsL2 : List (HloOp τ sig (Elt F))).Forall fun op => op.bufs ⊆ tcRefs τ sig := by
  simp only [opsL2, List.Forall, nullary_bufs_sub, unary_bufs_sub, binary_bufs_sub, ternary_bufs_sub, and_self]
theorem opsL3_sub : (opsL3 : List (HloOp τ sig (Elt F))).Forall fun op => op.bufs ⊆ tcRefs τ sig := by
  simp only [opsL3, List.Forall, nullary_bufs_sub, unary_bufs_sub, binary_bufs_sub, ternary_bufs_sub, and_self]
theorem opsL4_sub : (opsL4 : List (HloOp τ sig (Elt F))).Forall fun op => op.bufs ⊆ tcRefs τ sig := by
  simp only [opsL4, List.Forall, nullary_bufs_sub, unary_bufs_sub, binary_bufs_sub, ternary_bufs_sub, and_self]

theorem ops_sub : (ops : List (HloOp τ sig (Elt F))).Forall fun op => op.bufs ⊆ tcRefs τ sig :=
  List.forall_append.mpr ⟨opsPre_sub, List.forall_append.mpr ⟨opsL1_sub, List.forall_append.mpr ⟨opsL2_sub,
    List.forall_append.mpr ⟨opsL3_sub, opsL4_sub⟩⟩⟩⟩

/-- At the compiled mesh, for any float values, from any memory with zero counters: every weakly fair execution of @main
    on the TensorCores terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.AggR.lean ====
/-
  The graph side of every layer, which both programs compute with the same host operations: from the edge list, the
  source and target index of every edge followed by one self loop per node; the degree of a node (the number of edges
  that end at it) and its inverse square root (zero where the degree is not positive); and the aggregation of a layer,

      agg h (v, j) = ∑ over edges e with target v of  h (source e, j) · dinv (source e) · dinv (target e),

  as a gather of rows, a product with the edge weight laid along the row, and a scatter-add over the targets. An index
  below zero counts from the end (`wrap`). These are carried as whole functions: nothing here looks inside a gather or
  a scatter.
-/
import proofs.«154903_j85899345920190_1_alg».proof.Proof.Gen.ReferenceIdeal

noncomputable section

namespace Cert.ReferenceIdeal.Hand

open Idealize.ShloMosaic Cert.ReferenceIdeal Cert.ReferenceIdeal.Gen

variable {F : FTy → Type} [FloatOps F]

/-- The source index of every edge, then the nodes themselves (the self loops). -/
def rowOf (E : IVec S2x800000 32) : IVec S850000 32 :=
  concatenate S850000 0
    [⟨S800000, shapeCast S800000 (extractStridedSlice S1x800000 ![0, 0] E slices_S2x800000_S1x800000_0_0) shapeCasts_S1x800000_S800000⟩,
      ⟨S50000, iotaInDim S50000 32 0⟩]
    concatenates_S800000_S50000_S850000_d0

/-- The target index of every edge, then the nodes themselves. -/
def colOf (E : IVec S2x800000 32) : IVec S850000 32 :=
  concatenate S850000 0
    [⟨S800000, shapeCast S800000 (extractStridedSlice S1x800000 ![1, 0] E slices_S2x800000_S1x800000_1_0) shapeCasts_S1x800000_S800000⟩,
      ⟨S50000, iotaInDim S50000 32 0⟩]
    concatenates_S800000_S50000_S850000_d0

/-- The degree: one added at its target for every edge. -/
def degOf (col : IVec S850000 32) : FVec F S50000 .f32 :=
  Host.scatterAdd scatter_S50000_S850000x1_S850000_n_0_0_1
    (broadcastInDim S50000 ![] bcast_S_S50000 (constant S_ .f32 0x00000000#32))
    (broadcastInDim S850000x1 ![0] bcast_S850000_S850000x1_0 col)
    (broadcastInDim S850000 ![] bcast_S_S850000 (constant S_ .f32 0x3F800000#32))

/-- The inverse square root of the degree where it is positive, zero elsewhere. -/
def dinvOf (deg : FVec F S50000 .f32) : FVec F S50000 .f32 :=
  select (cmpf .ogt deg (broadcastInDim S50000 ![] bcast_S_S50000 (constant S_ .f32 0x00000000#32))) (Host.rsqrt deg)
    (broadcastInDim S50000 ![] bcast_S_S50000 (constant S_ .f32 0x00000000#32))

/-- An index below zero counts from the end of the 50000 nodes. -/
def wrap (r : IVec S850000 32) : IVec S850000 32 :=
  select (cmpi .slt r (broadcastInDim S850000 ![] bcast_S_S850000 (constantI S_ 32 0#32)))
    (addi r (broadcastInDim S850000 ![] bcast_S_S850000 (constantI S_ 32 50000#32))) r

/-- The weight of an edge: the product of its two ends' inverse square root degrees. -/
def edgeNorm (row col : IVec S850000 32) (dinv : FVec F S50000 .f32) : FVec F S850000 .f32 :=
  mulf
    (Host.gather gather_S50000_S850000x1_S850000_n_0_n_n_0_1_1 dinv (broadcastInDim S850000x1 ![0] bcast_S850000_S850000x1_0 (wrap row)))
    (Host.gather gather_S50000_S850000x1_S850000_n_0_n_n_0_1_1 dinv (broadcastInDim S850000x1 ![0] bcast_S850000_S850000x1_0 (wrap col)))

/-- A layer's aggregation over rows of width 128. -/
def agg128 (row col : IVec S850000 32) (dinv : FVec F S50000 .f32) (h : FVec F S50000x128 .f32) : FVec F S50000x128 .f32 :=
  Host.scatterAdd scatter_S50000x128_S850000x1_S850000x128_1_0_0_1
    (broadcastInDim S50000x128 ![] bcast_S_S50000x128 (constant S_ .f32 0x00000000#32))
    (broadcastInDim S850000x1 ![0] bcast_S850000_S850000x1_0 col)
    (mulf
      (Host.gather gather_S50000x128_S850000x1_S850000x128_1_0_n_n_0_1_1128 h (broadcastInDim S850000x1 ![0] bcast_S850000_S850000x1_0 (wrap row)))
      (broadcastInDim S850000x128 ![0, 1] bcast_S850000x1_S850000x128_0_1
        (broadcastInDim S850000x1 ![0] bcast_S850000_S850000x1_0 (edgeNorm row col dinv))))

/-- A layer's aggregation over rows of width 64. -/
def agg64 (row col : IVec S850000 32) (dinv : FVec F S50000 .f32) (h : FVec F S50000x64 .f32) : FVec F S50000x64 .f32 :=
  Host.scatterAdd scatter_S50000x64_S850000x1_S850000x64_1_0_0_1
    (broadcastInDim S50000x64 ![] bcast_S_S50000x64 (constant S_ .f32 0x00000000#32))
    (broadcastInDim S850000x1 ![0] bcast_S850000_S850000x1_0 col)
    (mulf
      (Host.gather gather_S50000x64_S850000x1_S850000x64_1_0_n_n_0_1_164 h (broadcastInDim S850000x1 ![0] bcast_S850000_S850000x1_0 (wrap row)))
      (broadcastInDim S850000x64 ![0, 1] bcast_S850000x1_S850000x64_0_1
        (broadcastInDim S850000x1 ![0] bcast_S850000_S850000x1_0 (edgeNorm row col dinv))))

/-- A layer's aggregation over rows of width 256. -/
def agg256 (row col : IVec S850000 32) (dinv : FVec F S50000 .f32) (h : FVec F S50000x256 .f32) : FVec F S50000x256 .f32 :=
  Host.scatterAdd scatter_S50000x256_S850000x1_S850000x256_1_0_0_1
    (broadcastInDim S50000x256 ![] bcast_S_S50000x256 (constant S_ .f32 0x00000000#32))
    (broadcastInDim S850000x1 ![0] bcast_S850000_S850000x1_0 col)
    (mulf
      (Host.gather gather_S50000x256_S850000x1_S850000x256_1_0_n_n_0_1_1256 h (broadcastInDim S850000x1 ![0] bcast_S850000_S850000x1_0 (wrap row)))
      (broadcastInDim S850000x256 ![0, 1] bcast_S850000x1_S850000x256_0_1
        (broadcastInDim S850000x1 ![0] bcast_S850000_S850000x1_0 (edgeNorm row col dinv))))

end Cert.ReferenceIdeal.Hand

end
-- ==== Proof.LibTypedRef.lean ====
/-
  A TYPED REFERENCE'S TRANSPORTS ARE THE IDENTITY. A typed reference pairs a buffer with the tensor type its contents
  have and a proof that the buffer's own type is that type; contents are carried between the two types along that proof.
  Destructuring the reference and substituting the proof shows: carrying there and back is the identity, and either
  transport alone is heterogeneously equal to its argument (so, where the two types are definitionally one, equal to it).
  At any signature, any tensor type, any values.
-/
import Idealize.ShloMosaic.Lib.StableHlo

namespace Cert.LibTypedRef

open Idealize.ShloMosaic Idealize.ShloMosaic.StableHlo

variable {sg : RefSig} {T : BufTy} {Val : EltTy → Type}

/-- Carried to the buffer's type and back: unchanged. -/
theorem ofBuf_toBuf (x : TRef sg T) (v : T.Contents Val) : x.ofBuf (x.toBuf v) = v := by
  obtain ⟨r, h, h1, h2⟩ := x
  subst h
  rfl

/-- Carried back from the buffer's type and there again: unchanged. -/
theorem toBuf_ofBuf (x : TRef sg T) (v : x.ref.ty.Contents Val) : x.toBuf (x.ofBuf v) = v := by
  obtain ⟨r, h, h1, h2⟩ := x
  subst h
  rfl

/-- Contents carried to the buffer's type are the contents. -/
theorem toBuf_heq (x : TRef sg T) (v : T.Contents Val) : HEq (x.toBuf v) v := by
  obtain ⟨r, h, h1, h2⟩ := x
  subst h
  rfl

/-- Contents carried from the buffer's type are the contents. -/
theorem ofBuf_heq (x : TRef sg T) (v : x.ref.ty.Contents Val) : HEq (x.ofBuf v) v := by
  obtain ⟨r, h, h1, h2⟩ := x
  subst h
  rfl

end Cert.LibTypedRef
-- ==== Proof.RefValue.lean ====
/-
  The reference's two results as functions of its arguments.

  The reference is one line of host operations (the run module). Read at a buffer, the contents after a stretch of that
  line are the stretch's operations composed; a buffer a stretch does not write keeps its contents. Layer by layer the
  composed term is: the host's matrix product, which read at an index is the sum over the contracted axis; the layer's
  aggregation over the edges (the same host operations as in the kernel's program: carried as one function); the bias,
  laid as one row and then down the rows, added; and in layers one and three the outlined exponential linear unit,
  which chooses  v  where  v > 0  and  1 · (e^(0 or v) - 1)  elsewhere: the unit itself.
-/
import proofs.«154903_j85899345920190_1_alg».proof.Proof.RefRun
import proofs.«154903_j85899345920190_1_alg».proof.Proof.AggR
import proofs.«154903_j85899345920190_1_alg».proof.Proof.Spec
import proofs.«154903_j85899345920190_1_alg».proof.Proof.LibDotStd
import proofs.«154903_j85899345920190_1_alg».proof.Proof.LibTypedRef
import Idealize.ShloMosaic.Lib.StableHlo.Run
import Idealize.ShloMosaic.Lib.Pipeline.Frame
import Idealize.ShloMosaic.Lib.KernelVsHost
import Idealize.ShloMosaic.Lib.ValueIdx
import Idealize.ShloMosaic.PureOps.Ideal.Laws

noncomputable section

namespace Cert.RefLemmas

open Idealize.ShloMosaic Idealize.ShloMosaic.ValueIdx

/-- The host's matrix product in the standard orientation is the matrix product, index by index. -/
theorem hostDot_eq_mm {M K N : ℕ} (d : DotDims ⟨2, ![M, K]⟩ ⟨2, ![K, N]⟩ ⟨2, ![M, N]⟩) (h : Cert.LibDotStd.Std d)
    (x : FVec Ideal ⟨2, ![M, K]⟩ .f32) (w : FVec Ideal ⟨2, ![K, N]⟩ .f32) :
    Host.dotGeneral d none x w = Cert.Spec.mm x w := by
  rw [← matmul_zero_eq_dotGeneral]
  funext i
  obtain ⟨p, j, rfl⟩ : ∃ (p : Fin M) (j : Fin N), i = ix2 p j := ⟨i 0, i 1, eq_ix2 i⟩
  exact (Cert.LibDotStd.matmul_std_apply h none x w p j).trans (Cert.Spec.mm_apply x w p j).symm

/-- A one-row matrix laid down the rows and added is the bias added along the rows. -/
theorem addBias_eq {M N : ℕ} (h1 : (⟨2, ![1, N]⟩ : Shape).BroadcastsInDim ⟨2, ![M, N]⟩ ![0, 1])
    (A : FVec Ideal ⟨2, ![M, N]⟩ .f32) (y : FVec Ideal ⟨2, ![1, N]⟩ .f32) :
    addf A (broadcastInDim ⟨2, ![M, N]⟩ ![0, 1] h1 y) = Cert.Spec.bias A y := by
  funext i
  obtain ⟨p, j, rfl⟩ : ∃ (p : Fin M) (j : Fin N), i = ix2 p j := ⟨i 0, i 1, eq_ix2 i⟩
  show A (ix2 p j) + broadcastInDim ⟨2, ![M, N]⟩ ![0, 1] h1 y (ix2 p j) = _
  rw [broadcastInDim_oneRow_apply h1 y p j]
  rfl

/-- Over a whole array: the reference's spelling of the exponential linear unit (choose v where v > 0, elsewhere one
    times the exponential of the inner choice less one) is the unit at every index. -/
theorem eluArr_eq {s : Shape} (hb : (⟨0, ![]⟩ : Shape).BroadcastsInDim s ![]) (x : FVec Ideal s .f32) :
    select (cmpf .ogt x (broadcastInDim s ![] hb (constant ⟨0, ![]⟩ .f32 0x00000000#32))) x
      (mulf (broadcastInDim s ![] hb (constant ⟨0, ![]⟩ .f32 0x3F800000#32))
        (Host.expm1 (select (cmpf .ogt x (broadcastInDim s ![] hb (constant ⟨0, ![]⟩ .f32 0x00000000#32)))
          (broadcastInDim s ![] hb (id (constant ⟨0, ![]⟩ .f32 0x00000000#32))) x)))
    = fun i => Cert.Spec.elu (x i) := by
  funext i
  show Scalar.select (Ideal.cmp .ogt (x i) (Ideal.ofBits .f32 0x00000000#32)) (x i)
      (Ideal.ofBits .f32 0x3F800000#32 *
        (Ideal.exp (Scalar.select (Ideal.cmp .ogt (x i) (Ideal.ofBits .f32 0x00000000#32)) (Ideal.ofBits .f32 0x00000000#32) (x i)) - 1))
    = Cert.Spec.elu (x i)
  rw [Cert.Spec.ofBits_zero, Cert.Spec.ofBits_one]
  exact Cert.Spec.elu_host (x i)

end Cert.RefLemmas

namespace Cert.ReferenceIdeal.Hand

open Idealize.ShloMosaic Idealize.ShloMosaic.TcCoe Idealize.SL.Sem Cert.ReferenceIdeal Cert.ReferenceIdeal.Gen Idealize.ShloMosaic.StableHlo

/-- No operation of the line writes the buffer. -/
macro "nowrite" l:ident : tactic =>
  `(tactic| (refine List.forall_iff_forall_mem.mp ?_
             simp only [$l:ident, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-- "No operation of the line writes buffer b." -/
abbrev NW (ops : List (HloOp τ sig (Elt Ideal))) (b : Ref sig .tc) : Prop :=
  ∀ op ∈ ops, (Proc.devRef .tc b : DevRef τ sig) ∉ op.writes

/-- The dimension numbers of the four products are in the standard orientation. -/
theorem std1 : Cert.LibDotStd.Std dot_S50000x256_S256x128_S50000x128_1_0_0_1_n_n := ⟨rfl, rfl, rfl, rfl, rfl, rfl⟩
theorem std2 : Cert.LibDotStd.Std dot_S50000x128_S128x64_S50000x64_1_0_0_1_n_n := ⟨rfl, rfl, rfl, rfl, rfl, rfl⟩
theorem std3 : Cert.LibDotStd.Std dot_S50000x64_S64x128_S50000x128_1_0_0_1_n_n := ⟨rfl, rfl, rfl, rfl, rfl, rfl⟩
theorem std4 : Cert.LibDotStd.Std dot_S50000x128_S128x256_S50000x256_1_0_0_1_n_n := ⟨rfl, rfl, rfl, rfl, rfl, rfl⟩

section Stretches
variable (Vv : Valuation τ sig (Elt Ideal))

/-! ## Before the first layer -/

theorem rpre_v3 : after opsPre Vv (Proc.devRef .tc main_v3) = rowOf (Vv (Proc.devRef .tc main_arg1)) := by
  simp only [opsPre]; after_results; all_goals rfl
theorem rpre_v6 : after opsPre Vv (Proc.devRef .tc main_v6) = colOf (Vv (Proc.devRef .tc main_arg1)) := by
  simp only [opsPre]; after_results; all_goals rfl

/-! ## Layers two and four: product, aggregation, bias -/

set_option maxHeartbeats 8000000 in
theorem rL2_v79 : after opsL2 Vv (Proc.devRef .tc main_v79)
    = Cert.Spec.bias (agg64 (F := Ideal) (Vv (Proc.devRef .tc main_v3)) (Vv (Proc.devRef .tc main_v6)) (Vv (Proc.devRef .tc main_v14))
        (Cert.Spec.mm (Vv (Proc.devRef .tc main_v47) : FVec Ideal S50000x128 .f32) (Vv (Proc.devRef .tc main_arg4) : FVec Ideal S128x64 .f32)))
        (broadcastInDim S1x64 ![1] bcast_S64_S1x64_1 (Vv (Proc.devRef .tc main_arg5) : FVec Ideal S64 .f32)) := by
  after_results_simp
  rw [Cert.RefLemmas.hostDot_eq_mm dot_S50000x128_S128x64_S50000x64_1_0_0_1_n_n std2]
  exact Cert.RefLemmas.addBias_eq bcast_S1x64_S50000x64_0_1 _ _

set_option maxHeartbeats 8000000 in
theorem rL4_v144 : after opsL4 Vv (Proc.devRef .tc main_v144)
    = Cert.Spec.bias (agg256 (F := Ideal) (Vv (Proc.devRef .tc main_v3)) (Vv (Proc.devRef .tc main_v6)) (Vv (Proc.devRef .tc main_v14))
        (Cert.Spec.mm (Vv (Proc.devRef .tc main_v112) : FVec Ideal S50000x128 .f32) (Vv (Proc.devRef .tc main_arg8) : FVec Ideal S128x256 .f32)))
        (broadcastInDim S1x256 ![1] bcast_S256_S1x256_1 (Vv (Proc.devRef .tc main_arg9) : FVec Ideal S256 .f32)) := by
  after_results_simp
  rw [Cert.RefLemmas.hostDot_eq_mm dot_S50000x128_S128x256_S50000x256_1_0_0_1_n_n std4]
  exact Cert.RefLemmas.addBias_eq bcast_S1x256_S50000x256_0_1 _ _

/-! The typed references of the outlined functions carry contents between a buffer's type and the tensor type it is: at
    these literal buffers the two types are one and the carrying is the identity. -/
theorem ofBuf_v12 (v) : (StableHlo.TRef.of main_v12 : StableHlo.TRef sig ⟨S50000, .i1⟩).ofBuf (Val := Elt Ideal) v = v := rfl
theorem ofBuf_v13 (v) : (StableHlo.TRef.of main_v13 : StableHlo.TRef sig ⟨S50000, .f32⟩).ofBuf (Val := Elt Ideal) v = v := rfl
theorem ofBuf_cst2 (v) : (StableHlo.TRef.of main_cst_2 : StableHlo.TRef sig ⟨S_, .f32⟩).ofBuf (Val := Elt Ideal) v = v := rfl
theorem toBuf_v14 (v) : (StableHlo.TRef.of main_v14 : StableHlo.TRef sig ⟨S50000, .f32⟩).toBuf (Val := Elt Ideal) v = v := rfl
theorem ofBuf_v46 (v) : (StableHlo.TRef.of main_v46 : StableHlo.TRef sig ⟨S50000x128, .f32⟩).ofBuf (Val := Elt Ideal) v = v := rfl
theorem toBuf_v47 (v) : (StableHlo.TRef.of main_v47 : StableHlo.TRef sig ⟨S50000x128, .f32⟩).toBuf (Val := Elt Ideal) v = v := rfl
theorem ofBuf_v111 (v) : (StableHlo.TRef.of main_v111 : StableHlo.TRef sig ⟨S50000x128, .f32⟩).ofBuf (Val := Elt Ideal) v = v := rfl
theorem toBuf_v112 (v) : (StableHlo.TRef.of main_v112 : StableHlo.TRef sig ⟨S50000x128, .f32⟩).toBuf (Val := Elt Ideal) v = v := rfl

/-- The inverse square root degrees: the outlined choice over the degree's comparison with zero. -/
theorem rpre_v14 : after opsPre Vv (Proc.devRef .tc main_v14) = dinvOf (F := Ideal) (degOf (colOf (Vv (Proc.devRef .tc main_arg1)))) := by
  simp only [opsPre]; after_results
  simp only [Cert.LibTypedRef.ofBuf_toBuf]
  rw [toBuf_v14, ofBuf_v12, ofBuf_v13, ofBuf_cst2]
  rfl

/-! ## Layers one and three: product, aggregation, bias, the exponential linear unit -/

set_option maxHeartbeats 16000000 in
theorem rL1_v47 : after opsL1 Vv (Proc.devRef .tc main_v47)
    = Cert.Spec.biasElu (agg128 (F := Ideal) (Vv (Proc.devRef .tc main_v3)) (Vv (Proc.devRef .tc main_v6)) (Vv (Proc.devRef .tc main_v14))
        (Cert.Spec.mm (Vv (Proc.devRef .tc main_arg0) : FVec Ideal S50000x256 .f32) (Vv (Proc.devRef .tc main_arg2) : FVec Ideal S256x128 .f32)))
        (broadcastInDim S1x128 ![1] bcast_S128_S1x128_1 (Vv (Proc.devRef .tc main_arg3) : FVec Ideal S128 .f32)) := by
  after_results_simp
  -- the value the unit is applied to: the aggregation of the product, the bias added
  generalize hx : addf (F := Ideal) (Host.scatterAdd scatter_S50000x128_S850000x1_S850000x128_1_0_0_1 _ _ _) _ = x
  have hx' : x = Cert.Spec.bias (agg128 (F := Ideal) (Vv (Proc.devRef .tc main_v3)) (Vv (Proc.devRef .tc main_v6)) (Vv (Proc.devRef .tc main_v14))
        (Cert.Spec.mm (Vv (Proc.devRef .tc main_arg0) : FVec Ideal S50000x256 .f32) (Vv (Proc.devRef .tc main_arg2) : FVec Ideal S256x128 .f32)))
        (broadcastInDim S1x128 ![1] bcast_S128_S1x128_1 (Vv (Proc.devRef .tc main_arg3) : FVec Ideal S128 .f32)) := by
    rw [← hx, Cert.RefLemmas.hostDot_eq_mm dot_S50000x256_S256x128_S50000x128_1_0_0_1_n_n std1]
    exact Cert.RefLemmas.addBias_eq bcast_S1x128_S50000x128_0_1 _ _
  refine Eq.trans (b := fun i => Cert.Spec.elu (x i)) ?_ ?_
  · -- the outlined unit's buffers carry their contents unchanged
    simp only [Cert.LibTypedRef.ofBuf_toBuf]
    rw [toBuf_v47, ofBuf_v46]
    exact Cert.RefLemmas.eluArr_eq bcast_S_S50000x128 x
  · rw [hx']
    rfl

set_option maxHeartbeats 16000000 in
theorem rL3_v112 : after opsL3 Vv (Proc.devRef .tc main_v112)
    = Cert.Spec.biasElu (agg128 (F := Ideal) (Vv (Proc.devRef .tc main_v3)) (Vv (Proc.devRef .tc main_v6)) (Vv (Proc.devRef .tc main_v14))
        (Cert.Spec.mm (Vv (Proc.devRef .tc main_v79) : FVec Ideal S50000x64 .f32) (Vv (Proc.devRef .tc main_arg6) : FVec Ideal S64x128 .f32)))
        (broadcastInDim S1x128 ![1] bcast_S128_S1x128_1 (Vv (Proc.devRef .tc main_arg7) : FVec Ideal S128 .f32)) := by
  after_results_simp
  -- the value the unit is applied to: the aggregation of the product, the bias added
  generalize hx : addf (F := Ideal) (Host.scatterAdd scatter_S50000x128_S850000x1_S850000x128_1_0_0_1 _ _ _) _ = x
  have hx' : x = Cert.Spec.bias (agg128 (F := Ideal) (Vv (Proc.devRef .tc main_v3)) (Vv (Proc.devRef .tc main_v6)) (Vv (Proc.devRef .tc main_v14))
        (Cert.Spec.mm (Vv (Proc.devRef .tc main_v79) : FVec Ideal S50000x64 .f32) (Vv (Proc.devRef .tc main_arg6) : FVec Ideal S64x128 .f32)))
        (broadcastInDim S1x128 ![1] bcast_S128_S1x128_1 (Vv (Proc.devRef .tc main_arg7) : FVec Ideal S128 .f32)) := by
    rw [← hx, Cert.RefLemmas.hostDot_eq_mm dot_S50000x64_S64x128_S50000x128_1_0_0_1_n_n std3]
    exact Cert.RefLemmas.addBias_eq bcast_S1x128_S50000x128_0_1 _ _
  refine Eq.trans (b := fun i => Cert.Spec.elu (x i)) ?_ ?_
  · -- the outlined unit's buffers carry their contents unchanged
    simp only [Cert.LibTypedRef.ofBuf_toBuf]
    rw [toBuf_v112, ofBuf_v111]
    exact Cert.RefLemmas.eluArr_eq bcast_S_S50000x128 x
  · rw [hx']
    rfl

end Stretches

/-! ## The line from the launch contents -/

/-! No stretch writes a buffer it is listed with here (the arguments; the graph's indices and degrees after the first;
    the first result after the second layer). -/
theorem nwPre_arg0 : NW opsPre main_arg0 := by nowrite opsPre
theorem nwPre_arg1 : NW opsPre main_arg1 := by nowrite opsPre
theorem nwPre_arg2 : NW opsPre main_arg2 := by nowrite opsPre
theorem nwPre_arg3 : NW opsPre main_arg3 := by nowrite opsPre
theorem nwPre_arg4 : NW opsPre main_arg4 := by nowrite opsPre
theorem nwPre_arg5 : NW opsPre main_arg5 := by nowrite opsPre
theorem nwPre_arg6 : NW opsPre main_arg6 := by nowrite opsPre
theorem nwPre_arg7 : NW opsPre main_arg7 := by nowrite opsPre
theorem nwPre_arg8 : NW opsPre main_arg8 := by nowrite opsPre
theorem nwPre_arg9 : NW opsPre main_arg9 := by nowrite opsPre
theorem nwL1_v3 : NW opsL1 main_v3 := by nowrite opsL1
theorem nwL1_v6 : NW opsL1 main_v6 := by nowrite opsL1
theorem nwL1_v14 : NW opsL1 main_v14 := by nowrite opsL1
theorem nwL1_arg0 : NW opsL1 main_arg0 := by nowrite opsL1
theorem nwL1_arg1 : NW opsL1 main_arg1 := by nowrite opsL1
theorem nwL1_arg2 : NW opsL1 main_arg2 := by nowrite opsL1
theorem nwL1_arg3 : NW opsL1 main_arg3 := by nowrite opsL1
theorem nwL1_arg4 : NW opsL1 main_arg4 := by nowrite opsL1
theorem nwL1_arg5 : NW opsL1 main_arg5 := by nowrite opsL1
theorem nwL1_arg6 : NW opsL1 main_arg6 := by nowrite opsL1
theorem nwL1_arg7 : NW opsL1 main_arg7 := by nowrite opsL1
theorem nwL1_arg8 : NW opsL1 main_arg8 := by nowrite opsL1
theorem nwL1_arg9 : NW opsL1 main_arg9 := by nowrite opsL1
theorem nwL2_v3 : NW opsL2 main_v3 := by nowrite opsL2
theorem nwL2_v6 : NW opsL2 main_v6 := by nowrite opsL2
theorem nwL2_v14 : NW opsL2 main_v14 := by nowrite opsL2
theorem nwL2_arg0 : NW opsL2 main_arg0 := by nowrite opsL2
theorem nwL2_arg1 : NW opsL2 main_arg1 := by nowrite opsL2
theorem nwL2_arg2 : NW opsL2 main_arg2 := by nowrite opsL2
theorem nwL2_arg3 : NW opsL2 main_arg3 := by nowrite opsL2
theorem nwL2_arg4 : NW opsL2 main_arg4 := by nowrite opsL2
theorem nwL2_arg5 : NW opsL2 main_arg5 := by nowrite opsL2
theorem nwL2_arg6 : NW opsL2 main_arg6 := by nowrite opsL2
theorem nwL2_arg7 : NW opsL2 main_arg7 := by nowrite opsL2
theorem nwL2_arg8 : NW opsL2 main_arg8 := by nowrite opsL2
theorem nwL2_arg9 : NW opsL2 main_arg9 := by nowrite opsL2
theorem nwL3_v3 : NW opsL3 main_v3 := by nowrite opsL3
theorem nwL3_v6 : NW opsL3 main_v6 := by nowrite opsL3
theorem nwL3_v14 : NW opsL3 main_v14 := by nowrite opsL3
theorem nwL3_v79 : NW opsL3 main_v79 := by nowrite opsL3
theorem nwL3_arg0 : NW opsL3 main_arg0 := by nowrite opsL3
theorem nwL3_arg1 : NW opsL3 main_arg1 := by nowrite opsL3
theorem nwL3_arg2 : NW opsL3 main_arg2 := by nowrite opsL3
theorem nwL3_arg3 : NW opsL3 main_arg3 := by nowrite opsL3
theorem nwL3_arg4 : NW opsL3 main_arg4 := by nowrite opsL3
theorem nwL3_arg5 : NW opsL3 main_arg5 := by nowrite opsL3
theorem nwL3_arg6 : NW opsL3 main_arg6 := by nowrite opsL3
theorem nwL3_arg7 : NW opsL3 main_arg7 := by nowrite opsL3
theorem nwL3_arg8 : NW opsL3 main_arg8 := by nowrite opsL3
theorem nwL3_arg9 : NW opsL3 main_arg9 := by nowrite opsL3
theorem nwL4_v79 : NW opsL4 main_v79 := by nowrite opsL4
theorem nwL4_arg0 : NW opsL4 main_arg0 := by nowrite opsL4
theorem nwL4_arg1 : NW opsL4 main_arg1 := by nowrite opsL4
theorem nwL4_arg2 : NW opsL4 main_arg2 := by nowrite opsL4
theorem nwL4_arg3 : NW opsL4 main_arg3 := by nowrite opsL4
theorem nwL4_arg4 : NW opsL4 main_arg4 := by nowrite opsL4
theorem nwL4_arg5 : NW opsL4 main_arg5 := by nowrite opsL4
theorem nwL4_arg6 : NW opsL4 main_arg6 := by nowrite opsL4
theorem nwL4_arg7 : NW opsL4 main_arg7 := by nowrite opsL4
theorem nwL4_arg8 : NW opsL4 main_arg8 := by nowrite opsL4
theorem nwL4_arg9 : NW opsL4 main_arg9 := by nowrite opsL4

section Chain
variable (V0 : Valuation τ sig (Elt Ideal))

/-- The contents after the first stretch, after the first layer, the second, the third. -/
abbrev A1 : Valuation τ sig (Elt Ideal) := after opsPre V0
abbrev A2 : Valuation τ sig (Elt Ideal) := after opsL1 (A1 V0)
abbrev A3 : Valuation τ sig (Elt Ideal) := after opsL2 (A2 V0)
abbrev A4 : Valuation τ sig (Elt Ideal) := after opsL3 (A3 V0)

/-- The ten arguments, at their literal types. -/
abbrev rX : FVec Ideal S50000x256 .f32 := V0 (Proc.devRef .tc main_arg0)
abbrev rE : IVec S2x800000 32 := V0 (Proc.devRef .tc main_arg1)
abbrev rW1 : FVec Ideal S256x128 .f32 := V0 (Proc.devRef .tc main_arg2)
abbrev rb1 : FVec Ideal S128 .f32 := V0 (Proc.devRef .tc main_arg3)
abbrev rW2 : FVec Ideal S128x64 .f32 := V0 (Proc.devRef .tc main_arg4)
abbrev rb2 : FVec Ideal S64 .f32 := V0 (Proc.devRef .tc main_arg5)
abbrev rW3 : FVec Ideal S64x128 .f32 := V0 (Proc.devRef .tc main_arg6)
abbrev rb3 : FVec Ideal S128 .f32 := V0 (Proc.devRef .tc main_arg7)
abbrev rW4 : FVec Ideal S128x256 .f32 := V0 (Proc.devRef .tc main_arg8)
abbrev rb4 : FVec Ideal S256 .f32 := V0 (Proc.devRef .tc main_arg9)

abbrev rRow : IVec S850000 32 := rowOf (rE V0)
abbrev rCol : IVec S850000 32 := colOf (rE V0)
abbrev rDinv : FVec Ideal S50000 .f32 := dinvOf (degOf (colOf (rE V0)))

/-- The four layers, value by value. -/
abbrev rH1 : FVec Ideal S50000x128 .f32 :=
  Cert.Spec.biasElu (agg128 (rRow V0) (rCol V0) (rDinv V0) (Cert.Spec.mm (rX V0) (rW1 V0))) (broadcastInDim S1x128 ![1] bcast_S128_S1x128_1 (rb1 V0))
abbrev rH2 : FVec Ideal S50000x64 .f32 :=
  Cert.Spec.bias (agg64 (rRow V0) (rCol V0) (rDinv V0) (Cert.Spec.mm (rH1 V0) (rW2 V0))) (broadcastInDim S1x64 ![1] bcast_S64_S1x64_1 (rb2 V0))
abbrev rH3 : FVec Ideal S50000x128 .f32 :=
  Cert.Spec.biasElu (agg128 (rRow V0) (rCol V0) (rDinv V0) (Cert.Spec.mm (rH2 V0) (rW3 V0))) (broadcastInDim S1x128 ![1] bcast_S128_S1x128_1 (rb3 V0))
abbrev rH4 : FVec Ideal S50000x256 .f32 :=
  Cert.Spec.bias (agg256 (rRow V0) (rCol V0) (rDinv V0) (Cert.Spec.mm (rH3 V0) (rW4 V0))) (broadcastInDim S1x256 ![1] bcast_S256_S1x256_1 (rb4 V0))

/-- A buffer no stretch writes ends as launched. -/
theorem keep_all (b : Ref sig .tc) (hP : NW opsPre b) (h1 : NW opsL1 b) (h2 : NW opsL2 b) (h3 : NW opsL3 b) (h4 : NW opsL4 b) :
    after ops V0 (Proc.devRef .tc b) = V0 (Proc.devRef .tc b) := by
  rw [after_ops]
  exact (StableHlo.after_of_forall_not_mem opsL4 _ h4).trans ((StableHlo.after_of_forall_not_mem opsL3 _ h3).trans
    ((StableHlo.after_of_forall_not_mem opsL2 _ h2).trans ((StableHlo.after_of_forall_not_mem opsL1 _ h1).trans
      (StableHlo.after_of_forall_not_mem opsPre _ hP))))
theorem kept_arg0 : after ops V0 (Proc.devRef .tc main_arg0) = V0 (Proc.devRef .tc main_arg0) :=
  keep_all V0 main_arg0 nwPre_arg0 nwL1_arg0 nwL2_arg0 nwL3_arg0 nwL4_arg0
theorem kept_arg1 : after ops V0 (Proc.devRef .tc main_arg1) = V0 (Proc.devRef .tc main_arg1) :=
  keep_all V0 main_arg1 nwPre_arg1 nwL1_arg1 nwL2_arg1 nwL3_arg1 nwL4_arg1
theorem kept_arg2 : after ops V0 (Proc.devRef .tc main_arg2) = V0 (Proc.devRef .tc main_arg2) :=
  keep_all V0 main_arg2 nwPre_arg2 nwL1_arg2 nwL2_arg2 nwL3_arg2 nwL4_arg2
theorem kept_arg3 : after ops V0 (Proc.devRef .tc main_arg3) = V0 (Proc.devRef .tc main_arg3) :=
  keep_all V0 main_arg3 nwPre_arg3 nwL1_arg3 nwL2_arg3 nwL3_arg3 nwL4_arg3
theorem kept_arg4 : after ops V0 (Proc.devRef .tc main_arg4) = V0 (Proc.devRef .tc main_arg4) :=
  keep_all V0 main_arg4 nwPre_arg4 nwL1_arg4 nwL2_arg4 nwL3_arg4 nwL4_arg4
theorem kept_arg5 : after ops V0 (Proc.devRef .tc main_arg5) = V0 (Proc.devRef .tc main_arg5) :=
  keep_all V0 main_arg5 nwPre_arg5 nwL1_arg5 nwL2_arg5 nwL3_arg5 nwL4_arg5
theorem kept_arg6 : after ops V0 (Proc.devRef .tc main_arg6) = V0 (Proc.devRef .tc main_arg6) :=
  keep_all V0 main_arg6 nwPre_arg6 nwL1_arg6 nwL2_arg6 nwL3_arg6 nwL4_arg6
theorem kept_arg7 : after ops V0 (Proc.devRef .tc main_arg7) = V0 (Proc.devRef .tc main_arg7) :=
  keep_all V0 main_arg7 nwPre_arg7 nwL1_arg7 nwL2_arg7 nwL3_arg7 nwL4_arg7
theorem kept_arg8 : after ops V0 (Proc.devRef .tc main_arg8) = V0 (Proc.devRef .tc main_arg8) :=
  keep_all V0 main_arg8 nwPre_arg8 nwL1_arg8 nwL2_arg8 nwL3_arg8 nwL4_arg8
theorem kept_arg9 : after ops V0 (Proc.devRef .tc main_arg9) = V0 (Proc.devRef .tc main_arg9) :=
  keep_all V0 main_arg9 nwPre_arg9 nwL1_arg9 nwL2_arg9 nwL3_arg9 nwL4_arg9

/-! The graph's buffers and the arguments at each layer's entry. -/
theorem A1_v3 : A1 V0 (Proc.devRef .tc main_v3) = rRow V0 := rpre_v3 V0
theorem A1_v6 : A1 V0 (Proc.devRef .tc main_v6) = rCol V0 := rpre_v6 V0
theorem A1_v14 : A1 V0 (Proc.devRef .tc main_v14) = rDinv V0 := rpre_v14 V0
theorem A1_arg0 : A1 V0 (Proc.devRef .tc main_arg0) = V0 (Proc.devRef .tc main_arg0) := StableHlo.after_of_forall_not_mem opsPre V0 nwPre_arg0
theorem A1_arg2 : A1 V0 (Proc.devRef .tc main_arg2) = V0 (Proc.devRef .tc main_arg2) := StableHlo.after_of_forall_not_mem opsPre V0 nwPre_arg2
theorem A1_arg3 : A1 V0 (Proc.devRef .tc main_arg3) = V0 (Proc.devRef .tc main_arg3) := StableHlo.after_of_forall_not_mem opsPre V0 nwPre_arg3
theorem A1_arg4 : A1 V0 (Proc.devRef .tc main_arg4) = V0 (Proc.devRef .tc main_arg4) := StableHlo.after_of_forall_not_mem opsPre V0 nwPre_arg4
theorem A1_arg5 : A1 V0 (Proc.devRef .tc main_arg5) = V0 (Proc.devRef .tc main_arg5) := StableHlo.after_of_forall_not_mem opsPre V0 nwPre_arg5
theorem A1_arg6 : A1 V0 (Proc.devRef .tc main_arg6) = V0 (Proc.devRef .tc main_arg6) := StableHlo.after_of_forall_not_mem opsPre V0 nwPre_arg6
theorem A1_arg7 : A1 V0 (Proc.devRef .tc main_arg7) = V0 (Proc.devRef .tc main_arg7) := StableHlo.after_of_forall_not_mem opsPre V0 nwPre_arg7
theorem A1_arg8 : A1 V0 (Proc.devRef .tc main_arg8) = V0 (Proc.devRef .tc main_arg8) := StableHlo.after_of_forall_not_mem opsPre V0 nwPre_arg8
theorem A1_arg9 : A1 V0 (Proc.devRef .tc main_arg9) = V0 (Proc.devRef .tc main_arg9) := StableHlo.after_of_forall_not_mem opsPre V0 nwPre_arg9
theorem A2_v3 : A2 V0 (Proc.devRef .tc main_v3) = A1 V0 (Proc.devRef .tc main_v3) := StableHlo.after_of_forall_not_mem opsL1 (A1 V0) nwL1_v3
theorem A2_v6 : A2 V0 (Proc.devRef .tc main_v6) = A1 V0 (Proc.devRef .tc main_v6) := StableHlo.after_of_forall_not_mem opsL1 (A1 V0) nwL1_v6
theorem A2_v14 : A2 V0 (Proc.devRef .tc main_v14) = A1 V0 (Proc.devRef .tc main_v14) := StableHlo.after_of_forall_not_mem opsL1 (A1 V0) nwL1_v14
theorem A2_arg4 : A2 V0 (Proc.devRef .tc main_arg4) = V0 (Proc.devRef .tc main_arg4) := (StableHlo.after_of_forall_not_mem opsL1 (A1 V0) nwL1_arg4).trans (A1_arg4 V0)
theorem A2_arg5 : A2 V0 (Proc.devRef .tc main_arg5) = V0 (Proc.devRef .tc main_arg5) := (StableHlo.after_of_forall_not_mem opsL1 (A1 V0) nwL1_arg5).trans (A1_arg5 V0)
theorem A2_arg6 : A2 V0 (Proc.devRef .tc main_arg6) = V0 (Proc.devRef .tc main_arg6) := (StableHlo.after_of_forall_not_mem opsL1 (A1 V0) nwL1_arg6).trans (A1_arg6 V0)
theorem A2_arg7 : A2 V0 (Proc.devRef .tc main_arg7) = V0 (Proc.devRef .tc main_arg7) := (StableHlo.after_of_forall_not_mem opsL1 (A1 V0) nwL1_arg7).trans (A1_arg7 V0)
theorem A2_arg8 : A2 V0 (Proc.devRef .tc main_arg8) = V0 (Proc.devRef .tc main_arg8) := (StableHlo.after_of_forall_not_mem opsL1 (A1 V0) nwL1_arg8).trans (A1_arg8 V0)
theorem A2_arg9 : A2 V0 (Proc.devRef .tc main_arg9) = V0 (Proc.devRef .tc main_arg9) := (StableHlo.after_of_forall_not_mem opsL1 (A1 V0) nwL1_arg9).trans (A1_arg9 V0)
theorem A3_v3 : A3 V0 (Proc.devRef .tc main_v3) = A1 V0 (Proc.devRef .tc main_v3) := (StableHlo.after_of_forall_not_mem opsL2 (A2 V0) nwL2_v3).trans (A2_v3 V0)
theorem A3_v6 : A3 V0 (Proc.devRef .tc main_v6) = A1 V0 (Proc.devRef .tc main_v6) := (StableHlo.after_of_forall_not_mem opsL2 (A2 V0) nwL2_v6).trans (A2_v6 V0)
theorem A3_v14 : A3 V0 (Proc.devRef .tc main_v14) = A1 V0 (Proc.devRef .tc main_v14) := (StableHlo.after_of_forall_not_mem opsL2 (A2 V0) nwL2_v14).trans (A2_v14 V0)
theorem A3_arg6 : A3 V0 (Proc.devRef .tc main_arg6) = V0 (Proc.devRef .tc main_arg6) := (StableHlo.after_of_forall_not_mem opsL2 (A2 V0) nwL2_arg6).trans (A2_arg6 V0)
theorem A3_arg7 : A3 V0 (Proc.devRef .tc main_arg7) = V0 (Proc.devRef .tc main_arg7) := (StableHlo.after_of_forall_not_mem opsL2 (A2 V0) nwL2_arg7).trans (A2_arg7 V0)
theorem A3_arg8 : A3 V0 (Proc.devRef .tc main_arg8) = V0 (Proc.devRef .tc main_arg8) := (StableHlo.after_of_forall_not_mem opsL2 (A2 V0) nwL2_arg8).trans (A2_arg8 V0)
theorem A3_arg9 : A3 V0 (Proc.devRef .tc main_arg9) = V0 (Proc.devRef .tc main_arg9) := (StableHlo.after_of_forall_not_mem opsL2 (A2 V0) nwL2_arg9).trans (A2_arg9 V0)
theorem A4_v3 : A4 V0 (Proc.devRef .tc main_v3) = A1 V0 (Proc.devRef .tc main_v3) := (StableHlo.after_of_forall_not_mem opsL3 (A3 V0) nwL3_v3).trans (A3_v3 V0)
theorem A4_v6 : A4 V0 (Proc.devRef .tc main_v6) = A1 V0 (Proc.devRef .tc main_v6) := (StableHlo.after_of_forall_not_mem opsL3 (A3 V0) nwL3_v6).trans (A3_v6 V0)
theorem A4_v14 : A4 V0 (Proc.devRef .tc main_v14) = A1 V0 (Proc.devRef .tc main_v14) := (StableHlo.after_of_forall_not_mem opsL3 (A3 V0) nwL3_v14).trans (A3_v14 V0)
theorem A4_arg8 : A4 V0 (Proc.devRef .tc main_arg8) = V0 (Proc.devRef .tc main_arg8) := (StableHlo.after_of_forall_not_mem opsL3 (A3 V0) nwL3_arg8).trans (A3_arg8 V0)
theorem A4_arg9 : A4 V0 (Proc.devRef .tc main_arg9) = V0 (Proc.devRef .tc main_arg9) := (StableHlo.after_of_forall_not_mem opsL3 (A3 V0) nwL3_arg9).trans (A3_arg9 V0)

/-! The layers' values. -/
theorem A2_v47 : A2 V0 (Proc.devRef .tc main_v47) = rH1 V0 := by
  refine (rL1_v47 (A1 V0)).trans ?_
  rw [A1_v3, A1_v6, A1_v14, A1_arg0, A1_arg2, A1_arg3]
theorem A3_v79 : A3 V0 (Proc.devRef .tc main_v79) = rH2 V0 := by
  refine (rL2_v79 (A2 V0)).trans ?_
  rw [A2_v3, A2_v6, A2_v14, A1_v3, A1_v6, A1_v14, A2_v47, A2_arg4, A2_arg5]
theorem A4_v112 : A4 V0 (Proc.devRef .tc main_v112) = rH3 V0 := by
  refine (rL3_v112 (A3 V0)).trans ?_
  rw [A3_v3, A3_v6, A3_v14, A1_v3, A1_v6, A1_v14, A3_v79, A3_arg6, A3_arg7]

/-- The first result at the end of the line: the second layer's value. -/
theorem out0_eq : after ops V0 (Proc.devRef .tc main_v79) = rH2 V0 := by
  rw [after_ops]
  exact (StableHlo.after_of_forall_not_mem opsL4 _ nwL4_v79).trans
    ((StableHlo.after_of_forall_not_mem opsL3 (A3 V0) nwL3_v79).trans (A3_v79 V0))

/-- The second result at the end of the line: the fourth layer's value. -/
theorem out1_eq : after ops V0 (Proc.devRef .tc main_v144) = rH4 V0 := by
  rw [after_ops]
  refine (rL4_v144 (A4 V0)).trans ?_
  rw [A4_v3, A4_v6, A4_v14, A1_v3, A1_v6, A1_v14, A4_v112, A4_arg8, A4_arg9]

end Chain

end Cert.ReferenceIdeal.Hand

end
-- ==== Proof.Bridge.lean ====
/-
  The two programs compute the same two arrays.

  Layer by layer both are  bias (agg (mm h W)) b , with the exponential linear unit after layers one and three. What
  differs in the spelling: the kernel's regions read the weights converted to a narrower format, which on the extended
  reals is the identity; the kernel lays a bias vector as one row by a recast where the reference does it by a broadcast
  along the second axis, and both rows read the vector at the column; and the graph side (indices, degrees, the
  aggregation) is the same host operations in both programs, named once in each. So from arguments that agree the
  second layer's values agree, and the fourth layer's.
-/
import proofs.«154903_j85899345920190_1_alg».proof.Proof.KChain
import proofs.«154903_j85899345920190_1_alg».proof.Proof.RefValue
import Idealize.ShloMosaic.Lib.Pipeline.Value
import Idealize.ShloMosaic.Lib.ValueIdx

noncomputable section

namespace Cert.Bridge

open Idealize.ShloMosaic Idealize.ShloMosaic.ValueIdx Idealize.ShloMosaic.TcCoe Idealize.SL.Sem

/-- A vector laid as the one row of a [1, n] array: by a broadcast along the second axis or by a recast, the row reads
    the vector at the column. -/
theorem bcastRow_eq_shapeCast {n : ℕ} {α : Type} (hb : (⟨1, ![n]⟩ : Shape).BroadcastsInDim ⟨2, ![1, n]⟩ ![1])
    (hs : (⟨1, ![n]⟩ : Shape).ShapeCasts ⟨2, ![1, n]⟩) (b : (⟨1, ![n]⟩ : Shape).Idx → α) :
    broadcastInDim ⟨2, ![1, n]⟩ ![1] hb b = shapeCast ⟨2, ![1, n]⟩ b hs := by
  funext i
  obtain ⟨u, k, rfl⟩ : ∃ (u : Fin 1) (k : Fin n), i = ix2 u k := ⟨i 0, i 1, eq_ix2 i⟩
  obtain rfl : u = 0 := Subsingleton.elim _ _
  have e1 := broadcastInDim_apply ![1] hb b (ix2 (0 : Fin 1) k) (ix1 k) (fun a => by
    match a with
    | ⟨0, _⟩ =>
      show k.val = if n = 1 then 0 else k.val
      split
      · have := k.isLt; omega
      · rfl)
  have e2 := shapeCast_apply b hs (ix2 (0 : Fin 1) k) (ix1 k) (by
    rw [Shape.rowMajor_val_two, Shape.rowMajor_val_one]; show k.val = 0 * n + k.val; omega)
  exact e1.trans e2.symm

/-! The graph side is the same functions in the two programs' vocabularies (the float operations left abstract). -/
section Same
variable {F : FTy → Type} [FloatOps F]
theorem rowOf_eq (E : IVec Cert.ReferenceIdeal.S2x800000 32) : Cert.ReferenceIdeal.Hand.rowOf E = Cert.KernelIdeal.Hand.rowOf E := rfl
theorem colOf_eq (E : IVec Cert.ReferenceIdeal.S2x800000 32) : Cert.ReferenceIdeal.Hand.colOf E = Cert.KernelIdeal.Hand.colOf E := rfl
theorem dinv_eq (col : IVec Cert.ReferenceIdeal.S850000 32) :
    Cert.ReferenceIdeal.Hand.dinvOf (F := F) (Cert.ReferenceIdeal.Hand.degOf col) = Cert.KernelIdeal.Hand.dinvOf (Cert.KernelIdeal.Hand.degOf col) := rfl
theorem agg128_eq (row col : IVec Cert.ReferenceIdeal.S850000 32) (dinv : FVec F Cert.ReferenceIdeal.S50000 .f32) (h : FVec F Cert.ReferenceIdeal.S50000x128 .f32) :
    Cert.ReferenceIdeal.Hand.agg128 row col dinv h = Cert.KernelIdeal.Hand.agg128 row col dinv h := rfl
theorem agg64_eq (row col : IVec Cert.ReferenceIdeal.S850000 32) (dinv : FVec F Cert.ReferenceIdeal.S50000 .f32) (h : FVec F Cert.ReferenceIdeal.S50000x64 .f32) :
    Cert.ReferenceIdeal.Hand.agg64 row col dinv h = Cert.KernelIdeal.Hand.agg64 row col dinv h := rfl
theorem agg256_eq (row col : IVec Cert.ReferenceIdeal.S850000 32) (dinv : FVec F Cert.ReferenceIdeal.S50000 .f32) (h : FVec F Cert.ReferenceIdeal.S50000x256 .f32) :
    Cert.ReferenceIdeal.Hand.agg256 row col dinv h = Cert.KernelIdeal.Hand.agg256 row col dinv h := rfl
end Same

/-- On the extended reals a weight converted to the narrower format is the weight. -/
theorem mm_truncf {M K N : ℕ} (x : (⟨2, ![M, K]⟩ : Shape).Idx → EReal) (w : FVec Ideal ⟨2, ![K, N]⟩ .f32) (h : FTy.bits .bf16 < FTy.bits .f32) :
    Cert.Spec.mm x (truncf .bf16 w h : FVec Ideal ⟨2, ![K, N]⟩ .bf16) = Cert.Spec.mm x w := rfl

section Results
variable (m : (ℓ : Loc Cert.KernelIdeal.nD Cert.KernelIdeal.τ Cert.KernelIdeal.sig) → Buf (Elt Ideal) ℓ) (c : Dev Cert.KernelIdeal.nD)
  (V0 : Valuation Cert.ReferenceIdeal.τ Cert.ReferenceIdeal.sig (Elt Ideal))
    (h0 : V0 (Proc.devRef .tc Cert.ReferenceIdeal.main_arg0) = m ((c : Thread Cert.KernelIdeal.nD Cert.KernelIdeal.τ).loc Cert.KernelIdeal.main_arg0))
    (h1 : V0 (Proc.devRef .tc Cert.ReferenceIdeal.main_arg1) = m ((c : Thread Cert.KernelIdeal.nD Cert.KernelIdeal.τ).loc Cert.KernelIdeal.main_arg1))
    (h2 : V0 (Proc.devRef .tc Cert.ReferenceIdeal.main_arg2) = m ((c : Thread Cert.KernelIdeal.nD Cert.KernelIdeal.τ).loc Cert.KernelIdeal.main_arg2))
    (h3 : V0 (Proc.devRef .tc Cert.ReferenceIdeal.main_arg3) = m ((c : Thread Cert.KernelIdeal.nD Cert.KernelIdeal.τ).loc Cert.KernelIdeal.main_arg3))
    (h4 : V0 (Proc.devRef .tc Cert.ReferenceIdeal.main_arg4) = m ((c : Thread Cert.KernelIdeal.nD Cert.KernelIdeal.τ).loc Cert.KernelIdeal.main_arg4))
    (h5 : V0 (Proc.devRef .tc Cert.ReferenceIdeal.main_arg5) = m ((c : Thread Cert.KernelIdeal.nD Cert.KernelIdeal.τ).loc Cert.KernelIdeal.main_arg5))
    (h6 : V0 (Proc.devRef .tc Cert.ReferenceIdeal.main_arg6) = m ((c : Thread Cert.KernelIdeal.nD Cert.KernelIdeal.τ).loc Cert.KernelIdeal.main_arg6))
    (h7 : V0 (Proc.devRef .tc Cert.ReferenceIdeal.main_arg7) = m ((c : Thread Cert.KernelIdeal.nD Cert.KernelIdeal.τ).loc Cert.KernelIdeal.main_arg7))
    (h8 : V0 (Proc.devRef .tc Cert.ReferenceIdeal.main_arg8) = m ((c : Thread Cert.KernelIdeal.nD Cert.KernelIdeal.τ).loc Cert.KernelIdeal.main_arg8))
    (h9 : V0 (Proc.devRef .tc Cert.ReferenceIdeal.main_arg9) = m ((c : Thread Cert.KernelIdeal.nD Cert.KernelIdeal.τ).loc Cert.KernelIdeal.main_arg9))

include h0 h1 h2 h3 in
/-- The first layer's values agree. -/
theorem layer1 : Cert.ReferenceIdeal.Hand.rH1 V0 = Cert.KernelIdeal.Hand.kH1 m c := by
  dsimp only [Cert.ReferenceIdeal.Hand.rH1, Cert.ReferenceIdeal.Hand.rRow, Cert.ReferenceIdeal.Hand.rCol, Cert.ReferenceIdeal.Hand.rDinv, Cert.ReferenceIdeal.Hand.rX, Cert.ReferenceIdeal.Hand.rE, Cert.ReferenceIdeal.Hand.rW1, Cert.ReferenceIdeal.Hand.rb1]
  rw [h0, h1, h2, h3, rowOf_eq, colOf_eq, dinv_eq, agg128_eq, bcastRow_eq_shapeCast Cert.ReferenceIdeal.Gen.bcast_S128_S1x128_1 Cert.KernelIdeal.Gen.shapeCasts_S128_S1x128]
  rfl

include h0 h1 h2 h3 h4 h5 in
/-- The second layer's values — the first result — agree. -/
theorem layer2 : Cert.ReferenceIdeal.Hand.rH2 V0 = Cert.KernelIdeal.Hand.kH2 m c := by
  have e1 := layer1 m c V0 h0 h1 h2 h3
  dsimp only [Cert.ReferenceIdeal.Hand.rH2, Cert.ReferenceIdeal.Hand.rRow, Cert.ReferenceIdeal.Hand.rCol, Cert.ReferenceIdeal.Hand.rDinv, Cert.ReferenceIdeal.Hand.rE, Cert.ReferenceIdeal.Hand.rW2, Cert.ReferenceIdeal.Hand.rb2]
  rw [e1, h1, h4, h5, rowOf_eq, colOf_eq, dinv_eq, agg64_eq, bcastRow_eq_shapeCast Cert.ReferenceIdeal.Gen.bcast_S64_S1x64_1 Cert.KernelIdeal.Gen.shapeCasts_S64_S1x64]
  rfl

include h0 h1 h2 h3 h4 h5 h6 h7 in
/-- The third layer's values agree. -/
theorem layer3 : Cert.ReferenceIdeal.Hand.rH3 V0 = Cert.KernelIdeal.Hand.kH3 m c := by
  have e2 := layer2 m c V0 h0 h1 h2 h3 h4 h5
  dsimp only [Cert.ReferenceIdeal.Hand.rH3, Cert.ReferenceIdeal.Hand.rRow, Cert.ReferenceIdeal.Hand.rCol, Cert.ReferenceIdeal.Hand.rDinv, Cert.ReferenceIdeal.Hand.rE, Cert.ReferenceIdeal.Hand.rW3, Cert.ReferenceIdeal.Hand.rb3]
  rw [e2, h1, h6, h7, rowOf_eq, colOf_eq, dinv_eq, agg128_eq, bcastRow_eq_shapeCast Cert.ReferenceIdeal.Gen.bcast_S128_S1x128_1 Cert.KernelIdeal.Gen.shapeCasts_S128_S1x128]
  rfl

include h0 h1 h2 h3 h4 h5 h6 h7 h8 h9 in
/-- The fourth layer's values — the second result — agree. -/
theorem layer4 : Cert.ReferenceIdeal.Hand.rH4 V0 = Cert.KernelIdeal.Hand.kH4 m c := by
  have e3 := layer3 m c V0 h0 h1 h2 h3 h4 h5 h6 h7
  dsimp only [Cert.ReferenceIdeal.Hand.rH4, Cert.ReferenceIdeal.Hand.rRow, Cert.ReferenceIdeal.Hand.rCol, Cert.ReferenceIdeal.Hand.rDinv, Cert.ReferenceIdeal.Hand.rE, Cert.ReferenceIdeal.Hand.rW4, Cert.ReferenceIdeal.Hand.rb4]
  rw [e3, h1, h8, h9, rowOf_eq, colOf_eq, dinv_eq, agg256_eq, bcastRow_eq_shapeCast Cert.ReferenceIdeal.Gen.bcast_S256_S1x256_1 Cert.KernelIdeal.Gen.shapeCasts_S256_S1x256]
  rfl

end Results

end Cert.Bridge

end
-- ==== Proof.lean ====
/-
  A four-layer graph convolution network, computed twice, ends with the same two arrays.

  Each layer multiplies the node features by a weight matrix, aggregates over the graph's edges (every edge weighted by
  the inverse square roots of its ends' degrees, one self loop per node), adds a bias along the rows and, in layers one
  and three, applies the exponential linear unit  v ↦ v  for  v > 0,  e^v - 1  otherwise. The kernel's program runs the
  products and the bias-and-unit steps as eight pipelined regions over blocks of 2000 rows, with the graph side as host
  operations between them; the reference is one line of host operations. The results are the second and the fourth
  layer's values.

  On the extended reals the two agree for every input: a region's 25 blocks tile its output and each block holds the
  whole-array function's values (the products as sums over the contracted axis, in any tiling); the graph side is the
  same operations in both programs; a change of float format is the identity; a bias laid as one row by a recast or by
  a broadcast reads the same vector; and the reference's spelling of the unit,  1 · (e^(0 or v) - 1)  under the same
  choice, is the unit. No law used needs the inputs finite, so the precondition is never opened.

  The three frames: the kernel's programs by the generated frame; the reference by its run read back, the arguments
  kept because no operation writes one. The idealization rewrote nothing, so there is nothing to preserve.
-/
import proofs.«154903_j85899345920190_1_alg».proof.Defs
import proofs.«154903_j85899345920190_1_alg».proof.Proof.Gen.Kernel
import proofs.«154903_j85899345920190_1_alg».proof.Proof.Gen.Kernel.Skeleton
import proofs.«154903_j85899345920190_1_alg».proof.Proof.Gen.Kernel.Launch
import proofs.«154903_j85899345920190_1_alg».proof.Proof.Gen.Kernel.Points
import proofs.«154903_j85899345920190_1_alg».proof.Proof.Gen.Kernel.Frame
import proofs.«154903_j85899345920190_1_alg».proof.Proof.Gen.KernelIdeal
import proofs.«154903_j85899345920190_1_alg».proof.Proof.Gen.KernelIdeal.Skeleton
import proofs.«154903_j85899345920190_1_alg».proof.Proof.Gen.KernelIdeal.Launch
import proofs.«154903_j85899345920190_1_alg».proof.Proof.Gen.KernelIdeal.Points
import proofs.«154903_j85899345920190_1_alg».proof.Proof.Gen.KernelIdeal.Frame
import proofs.«154903_j85899345920190_1_alg».proof.Proof.Gen.ReferenceIdeal
import proofs.«154903_j85899345920190_1_alg».proof.Proof.Gen.Pre_finite_inputs
import proofs.«154903_j85899345920190_1_alg».proof.Proof.KRun
import proofs.«154903_j85899345920190_1_alg».proof.Proof.KChain
import proofs.«154903_j85899345920190_1_alg».proof.Proof.RefRun
import proofs.«154903_j85899345920190_1_alg».proof.Proof.RefValue
import proofs.«154903_j85899345920190_1_alg».proof.Proof.Bridge
import Idealize.ShloMosaic.Adequacy
import Idealize.ShloMosaic.Init

noncomputable section

namespace Cert.Proof

open Idealize.ShloMosaic Idealize.SL.Sem Idealize.ShloMosaic.StableHlo

/-- The reference runs and keeps its arguments: its run read back, no operation writing an argument. -/
theorem frame_ref : Cert.frame_ReferenceIdeal := fun m ρ _ =>
  (θ_run Cert.ReferenceIdeal.defs _ _).mono
    (fun r h c => ⟨(h c Cert.ReferenceIdeal.main_arg0).trans (Cert.ReferenceIdeal.Hand.kept_arg0 _),
      (h c Cert.ReferenceIdeal.main_arg1).trans (Cert.ReferenceIdeal.Hand.kept_arg1 _),
      (h c Cert.ReferenceIdeal.main_arg2).trans (Cert.ReferenceIdeal.Hand.kept_arg2 _),
      (h c Cert.ReferenceIdeal.main_arg3).trans (Cert.ReferenceIdeal.Hand.kept_arg3 _),
      (h c Cert.ReferenceIdeal.main_arg4).trans (Cert.ReferenceIdeal.Hand.kept_arg4 _),
      (h c Cert.ReferenceIdeal.main_arg5).trans (Cert.ReferenceIdeal.Hand.kept_arg5 _),
      (h c Cert.ReferenceIdeal.main_arg6).trans (Cert.ReferenceIdeal.Hand.kept_arg6 _),
      (h c Cert.ReferenceIdeal.main_arg7).trans (Cert.ReferenceIdeal.Hand.kept_arg7 _),
      (h c Cert.ReferenceIdeal.main_arg8).trans (Cert.ReferenceIdeal.Hand.kept_arg8 _),
      (h c Cert.ReferenceIdeal.main_arg9).trans (Cert.ReferenceIdeal.Hand.kept_arg9 _)⟩)
    (Cert.ReferenceIdeal.Hand.run_main (F := Ideal) m ρ)

/-- From memories that agree on the arguments both programs end with the second layer's values in the first result and
    the fourth layer's in the second: the kernel's read off its frame's last boundary, the reference's off its line. -/
theorem algebraic : Cert.algebraic_KernelIdeal_ReferenceIdeal := by
  intro m ρ m' ρ' _ hagree
  refine ⟨fun c => Cert.KernelIdeal.Hand.kH2 m c, fun c => Cert.KernelIdeal.Hand.kH4 m c, ?_, ?_⟩
  · exact (θ_run Cert.KernelIdeal.defs _ _).mono
      (fun r h c => ⟨(h c).1.trans (Cert.KernelIdeal.Hand.W15_v82 m ρ c), (h c).2.1.trans (Cert.KernelIdeal.Hand.W15_v142 m ρ c), (h c).2.2⟩)
      (Cert.KernelIdeal.Hand.run_results m ρ)
  · refine (θ_run Cert.ReferenceIdeal.defs _ _).mono (fun r h c => ?_) (Cert.ReferenceIdeal.Hand.run_main (F := Ideal) m' ρ')
    obtain ⟨a0, a1, a2, a3, a4, a5, a6, a7, a8, a9⟩ := hagree c
    refine ⟨?_, ?_, (h c Cert.ReferenceIdeal.main_arg0).trans (Cert.ReferenceIdeal.Hand.kept_arg0 _),
      (h c Cert.ReferenceIdeal.main_arg1).trans (Cert.ReferenceIdeal.Hand.kept_arg1 _),
      (h c Cert.ReferenceIdeal.main_arg2).trans (Cert.ReferenceIdeal.Hand.kept_arg2 _),
      (h c Cert.ReferenceIdeal.main_arg3).trans (Cert.ReferenceIdeal.Hand.kept_arg3 _),
      (h c Cert.ReferenceIdeal.main_arg4).trans (Cert.ReferenceIdeal.Hand.kept_arg4 _),
      (h c Cert.ReferenceIdeal.main_arg5).trans (Cert.ReferenceIdeal.Hand.kept_arg5 _),
      (h c Cert.ReferenceIdeal.main_arg6).trans (Cert.ReferenceIdeal.Hand.kept_arg6 _),
      (h c Cert.ReferenceIdeal.main_arg7).trans (Cert.ReferenceIdeal.Hand.kept_arg7 _),
      (h c Cert.ReferenceIdeal.main_arg8).trans (Cert.ReferenceIdeal.Hand.kept_arg8 _),
      (h c Cert.ReferenceIdeal.main_arg9).trans (Cert.ReferenceIdeal.Hand.kept_arg9 _)⟩
    · exact (h c Cert.ReferenceIdeal.main_v79).trans
        ((Cert.ReferenceIdeal.Hand.out0_eq _).trans (Cert.Bridge.layer2 m c _ a0 a1 a2 a3 a4 a5))
    · exact (h c Cert.ReferenceIdeal.main_v144).trans
        ((Cert.ReferenceIdeal.Hand.out1_eq _).trans (Cert.Bridge.layer4 m c _ a0 a1 a2 a3 a4 a5 a6 a7 a8 a9))

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ref,
  trivial,
  algebraic⟩

end Cert.Proof

end
